-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v792) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x62001x64 : Shape := ⟨3, ![16, 62001, 64]⟩
abbrev S62001 : Shape := ⟨1, ![62001]⟩
abbrev S_ : Shape := ⟨0, ![]⟩

class Facts : Prop where
  bcast_S_S16x62001x64 : S_.BroadcastsInDim S16x62001x64 (![] : Fin 0 → Fin S16x62001x64.rank)
  reducesTo_S16x62001x64_S_d0_1_2 : S16x62001x64.ReducesTo [0, 1, 2] S_
  h_S_ : 0 < S_.numel

variable [Facts]

def fn {F : FTy → Type} [FloatOps F] (main_arg0 : FVec F S16x62001x64 .f32) (main_arg1 : IVec S62001 32) : IVec S_ 1 :=
  let main_v0 : FVec F S16x62001x64 .f32 := Host.absf main_arg0
  let main_cst : FVec F S_ .f32 := constant S_ .f32 0x7F800000#32
  let main_v1 : FVec F S16x62001x64 .f32 := broadcastInDim S16x62001x64 ![] bcast_S_S16x62001x64 main_cst
  let main_v2 : IVec S16x62001x64 1 := cmpf .olt main_v0 main_v1
  let main_c : IVec S_ 1 := constantI S_ 1 1#1
  let main_v3 : IVec S_ 1 := (fun x v => Host.reduce IntOp.andi x v reducesTo_S16x62001x64_S_d0_1_2 h_S_) main_v2 main_c
  main_v3
-- ==== Kernel.lean ====
abbrev S16x62001x64 : Shape := ⟨3, ![16, 62001, 64]⟩
abbrev S62001 : Shape := ⟨1, ![62001]⟩
abbrev S_ : Shape := ⟨0, ![]⟩
abbrev S16x249x249x64 : Shape := ⟨4, ![16, 249, 249, 64]⟩
abbrev S62001x1 : Shape := ⟨2, ![62001, 1]⟩
abbrev S62001x2 : Shape := ⟨2, ![62001, 2]⟩
abbrev S16x64x249x249 : Shape := ⟨4, ![16, 64, 249, 249]⟩
abbrev S16x256x256 : Shape := ⟨3, ![16, 256, 256]⟩
abbrev S1x64x249x249 : Shape := ⟨4, ![1, 64, 249, 249]⟩
abbrev S1x256x256 : Shape := ⟨3, ![1, 256, 256]⟩
abbrev S256x256 : Shape := ⟨2, ![256, 256]⟩
abbrev S1x1x249x249 : Shape := ⟨4, ![1, 1, 249, 249]⟩
abbrev S249x249 : Shape := ⟨2, ![249, 249]⟩
abbrev S1x249x249 : Shape := ⟨3, ![1, 249, 249]⟩
abbrev S249x249x64 : Shape := ⟨3, ![249, 249, 64]⟩
abbrev S62001x64 : Shape := ⟨2, ![62001, 64]⟩
abbrev S64x249x249 : Shape := ⟨3, ![64, 249, 249]⟩
abbrev S2x8x256x256 : Shape := ⟨4, ![2, 8, 256, 256]⟩

abbrev nBuf : Space → Nat
  | .hbm => 94
  | .vmem => 6
  | .smem => 0
  | _ => 0

abbrev bufTy : (tb : Table) → Fin (tcTables nBuf tb) → BufTy
  | .hbm, ⟨0, _⟩ => ⟨S16x62001x64, .f32⟩
  | .hbm, ⟨1, _⟩ => ⟨S62001, .i32⟩
  | .hbm, ⟨2, _⟩ => ⟨S_, .i32⟩
  | .hbm, ⟨3, _⟩ => ⟨S_, .i32⟩
  | .hbm, ⟨4, _⟩ => ⟨S62001, .i32⟩
  | .hbm, ⟨5, _⟩ => ⟨S62001, .i32⟩
  | .hbm, ⟨6, _⟩ => ⟨S62001, .i32⟩
  | .hbm, ⟨7, _⟩ => ⟨S_, .i32⟩
  | .hbm, ⟨8, _⟩ => ⟨S62001, .i32⟩
  | .hbm, ⟨9, _⟩ => ⟨S62001, .i1⟩
  | .hbm, ⟨10, _⟩ => ⟨S62001, .i32⟩
  | .hbm, ⟨11, _⟩ => ⟨S62001, .i32⟩
  | .hbm, ⟨12, _⟩ => ⟨S_, .i32⟩
  | .hbm, ⟨13, _⟩ => ⟨S62001, .i32⟩
  | .hbm, ⟨14, _⟩ => ⟨S62001, .i1⟩
  | .hbm, ⟨15, _⟩ => ⟨S62001, .i1⟩
  | .hbm, ⟨16, _⟩ => ⟨S_, .i32⟩
  | .hbm, ⟨17, _⟩ => ⟨S62001, .i32⟩
  | .hbm, ⟨18, _⟩ => ⟨S62001, .i32⟩
  | .hbm, ⟨19, _⟩ => ⟨S62001, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S62001, .i32⟩
  | .hbm, ⟨27, _⟩ => ⟨S62001, .i32⟩
  | .hbm, ⟨28, _⟩ => ⟨S_, .i32⟩
  | .hbm, ⟨29, _⟩ => ⟨S62001, .i32⟩
  | .hbm, ⟨30, _⟩ => ⟨S62001, .i1⟩
  | .hbm, ⟨31, _⟩ => ⟨S_, .i32⟩
  | .hbm, ⟨32, _⟩ => ⟨S62001, .i32⟩
  | .hbm, ⟨33, _⟩ => ⟨S62001, .i1⟩
  | .hbm, ⟨34, _⟩ => ⟨S_, .i32⟩
  | .hbm, ⟨35, _⟩ => ⟨S_, .i1⟩
  | .hbm, ⟨36, _⟩ => ⟨S62001, .i1⟩
  | .hbm, ⟨37, _⟩ => ⟨S62001, .i1⟩
  | .hbm, ⟨38, _⟩ => ⟨S62001, .i1⟩
  | .hbm, ⟨39, _⟩ => ⟨S62001, .i32⟩
  | .hbm, ⟨40, _⟩ => ⟨S62001, .i32⟩
  | .hbm, ⟨41, _⟩ => ⟨S62001, .i32⟩
  | .hbm, ⟨42, _⟩ => ⟨S_, .f32⟩
  | .hbm, ⟨43, _⟩ => ⟨S16x249x249x64, .f32⟩
  | .hbm, ⟨44, _⟩ => ⟨S_, .i32⟩
  | .hbm, ⟨45, _⟩ => ⟨S62001, .i32⟩
  | .hbm, ⟨46, _⟩ => ⟨S62001, .i1⟩
  | .hbm, ⟨47, _⟩ => ⟨S_, .i32⟩
  | .hbm, ⟨48, _⟩ => ⟨S62001, .i32⟩
  | .hbm, ⟨49, _⟩ => ⟨S62001, .i32⟩
  | .hbm, ⟨50, _⟩ => ⟨S62001, .i32⟩
  | .hbm, ⟨51, _⟩ => ⟨S_, .i32⟩
  | .hbm, ⟨52, _⟩ => ⟨S62001, .i32⟩
  | .hbm, ⟨53, _⟩ => ⟨S62001, .i1⟩
  | .hbm, ⟨54, _⟩ => ⟨S_, .i32⟩
  | .hbm, ⟨55, _⟩ => ⟨S62001, .i32⟩
  | .hbm, ⟨56, _⟩ => ⟨S62001, .i32⟩
  | .hbm, ⟨57, _⟩ => ⟨S62001, .i32⟩
  | .hbm, ⟨58, _⟩ => ⟨S62001x1, .i32⟩
  | .hbm, ⟨59, _⟩ => ⟨S62001x1, .i32⟩
  | .hbm, ⟨60, _⟩ => ⟨S62001x2, .i32⟩
  | .hbm, ⟨61, _⟩ => ⟨S16x249x249x64, .f32⟩
  | .hbm, ⟨62, _⟩ => ⟨S16x64x249x249, .f32⟩
  | .hbm, ⟨63, _⟩ => ⟨S16x256x256, .f32⟩
  | .hbm, ⟨64, _⟩ => ⟨S_, .f32⟩
  | .hbm, ⟨65, _⟩ => ⟨S249x249x64, .f32⟩
  | .hbm, ⟨66, _⟩ => ⟨S_, .i32⟩
  | .hbm, ⟨67, _⟩ => ⟨S62001, .i32⟩
  | .hbm, ⟨68, _⟩ => ⟨S62001, .i1⟩
  | .hbm, ⟨69, _⟩ => ⟨S_, .i32⟩
  | .hbm, ⟨70, _⟩ => ⟨S62001, .i32⟩
  | .hbm, ⟨71, _⟩ => ⟨S62001, .i32⟩
  | .hbm, ⟨72, _⟩ => ⟨S62001, .i32⟩
  | .hbm, ⟨73, _⟩ => ⟨S_, .i32⟩
  | .hbm, ⟨74, _⟩ => ⟨S62001, .i32⟩
  | .hbm, ⟨75, _⟩ => ⟨S62001, .i1⟩
  | .hbm, ⟨76, _⟩ => ⟨S_, .i32⟩
  | .hbm, ⟨77, _⟩ => ⟨S62001, .i32⟩
  | .hbm, ⟨78, _⟩ => ⟨S62001, .i32⟩
  | .hbm, ⟨79, _⟩ => ⟨S62001, .i32⟩
  | .hbm, ⟨80, _⟩ => ⟨S62001x1, .i32⟩
  | .hbm, ⟨81, _⟩ => ⟨S62001x1, .i32⟩
  | .hbm, ⟨82, _⟩ => ⟨S62001x2, .i32⟩
  | .hbm, ⟨83, _⟩ => ⟨S_, .f32⟩
  | .hbm, ⟨84, _⟩ => ⟨S62001x64, .f32⟩
  | .hbm, ⟨85, _⟩ => ⟨S249x249x64, .f32⟩
  | .hbm, ⟨86, _⟩ => ⟨S64x249x249, .f32⟩
  | .hbm, ⟨87, _⟩ => ⟨S1x64x249x249, .f32⟩
  | .hbm, ⟨88, _⟩ => ⟨S1x256x256, .f32⟩
  | .hbm, ⟨89, _⟩ => ⟨S256x256, .f32⟩
  | .hbm, ⟨90, _⟩ => ⟨S1x256x256, .f32⟩
  | .hbm, ⟨91, _⟩ => ⟨S16x256x256, .f32⟩
  | .hbm, ⟨92, _⟩ => ⟨S16x256x256, .f32⟩
  | .hbm, ⟨93, _⟩ => ⟨S2x8x256x256, .f32⟩
  | .local _ .vmem, ⟨0, _⟩ => ⟨S1x64x249x249, .f32⟩
  | .local _ .vmem, ⟨1, _⟩ => ⟨S1x64x249x249, .f32⟩
  | .local _ .vmem, ⟨2, _⟩ => ⟨S1x256x256, .f32⟩
  | .local _ .vmem, ⟨3, _⟩ => ⟨S1x256x256, .f32⟩
  | .local _ .vmem, ⟨4, _⟩ => ⟨S1x64x249x249, .f32⟩
  | .local _ .vmem, ⟨5, _⟩ => ⟨S1x256x256, .f32⟩
  | _, _ => ⟨S16x62001x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v0 : Ref sig .tc := ⟨.hbm, 19, rfl⟩
abbrev main_c_0 : Ref sig .tc := ⟨.hbm, 20, rfl⟩
abbrev main_call1_v0 : Ref sig .tc := ⟨.hbm, 21, rfl⟩
abbrev main_call1_c : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_c_1 : Ref sig .tc := ⟨.hbm, 28, rfl⟩
abbrev main_call1_v5 : Ref sig .tc := ⟨.hbm, 29, rfl⟩
abbrev main_call1_v6 : Ref sig .tc := ⟨.hbm, 30, rfl⟩
abbrev main_call1_c_2 : Ref sig .tc := ⟨.hbm, 31, rfl⟩
abbrev main_call1_v7 : Ref sig .tc := ⟨.hbm, 32, rfl⟩
abbrev main_call1_v8 : Ref sig .tc := ⟨.hbm, 33, rfl⟩
abbrev main_call1_c_3 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_v12 : Ref sig .tc := ⟨.hbm, 38, rfl⟩
abbrev main_call1_v13 : Ref sig .tc := ⟨.hbm, 39, rfl⟩
abbrev main_call1_v14 : Ref sig .tc := ⟨.hbm, 40, rfl⟩
abbrev main_v1 : Ref sig .tc := ⟨.hbm, 41, rfl⟩
abbrev main_cst : Ref sig .tc := ⟨.hbm, 42, rfl⟩
abbrev main_v2 : Ref sig .tc := ⟨.hbm, 43, rfl⟩
abbrev main_c_1 : Ref sig .tc := ⟨.hbm, 44, rfl⟩
abbrev main_v3 : Ref sig .tc := ⟨.hbm, 45, rfl⟩
abbrev main_v4 : Ref sig .tc := ⟨.hbm, 46, rfl⟩
abbrev main_c_2 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_c_3 : Ref sig .tc := ⟨.hbm, 51, rfl⟩
abbrev main_v8 : Ref sig .tc := ⟨.hbm, 52, rfl⟩
abbrev main_v9 : Ref sig .tc := ⟨.hbm, 53, rfl⟩
abbrev main_c_4 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_cst_5 : Ref sig .tc := ⟨.hbm, 64, rfl⟩
abbrev main_v19 : Ref sig .tc := ⟨.hbm, 65, rfl⟩
abbrev main_c_6 : Ref sig .tc := ⟨.hbm, 66, rfl⟩
abbrev main_v20 : Ref sig .tc := ⟨.hbm, 67, rfl⟩
abbrev main_v21 : Ref sig .tc := ⟨.hbm, 68, rfl⟩
abbrev main_c_7 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_c_8 : Ref sig .tc := ⟨.hbm, 73, rfl⟩
abbrev main_v25 : Ref sig .tc := ⟨.hbm, 74, rfl⟩
abbrev main_v26 : Ref sig .tc := ⟨.hbm, 75, rfl⟩
abbrev main_c_9 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_cst_10 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x249x249 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![1], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1x64x249x249 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

class Facts₀ : Prop where
  bcast_S_S62001 : S_.BroadcastsInDim S62001 (![] : Fin 0 → Fin S62001.rank)
  bcast_S_S16x249x249x64 : S_.BroadcastsInDim S16x249x249x64 (![] : Fin 0 → Fin S16x249x249x64.rank)
  bcast_S62001_S62001x1_0 : S62001.BroadcastsInDim S62001x1 (![0] : Fin 1 → Fin S62001x1.rank)
  concatenates_S62001x1_S62001x1_S62001x2_d1 : Shape.Concatenates [S62001x1, S62001x1] S62001x2 1
  transposes_S16x249x249x64_S16x64x249x249_0_3_1_2 : S16x249x249x64.Transposes [0, 3, 1, 2] S16x64x249x249
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x64x249x249_S1x1x249x249_0_0_0_0 : ∀ a, (![0, 0, 0, 0] : Fin 4 → Nat) a + S1x1x249x249.size a ≤ S1x64x249x249.size a
  h_S1x1x249x249 : 0 < S1x1x249x249.numel
  shapeCasts_S1x1x249x249_S249x249 : S1x1x249x249.ShapeCasts S249x249
  inb_S1x256x256_S1x249x249_0_0_0 : ∀ a, (![0, 0, 0] : Fin 3 → Nat) a + S1x249x249.size a ≤ S1x256x256.size a
  h_S1x249x249 : 0 < S1x249x249.numel
  shapeCasts_S1x249x249_S249x249 : S1x249x249.ShapeCasts S249x249
  shapeCasts_S249x249_S1x249x249 : S249x249.ShapeCasts S1x249x249
  inb_S1x64x249x249_S1x1x249x249_0_1_0_0 : ∀ a, (![0, 1, 0, 0] : Fin 4 → Nat) a + S1x1x249x249.size a ≤ S1x64x249x249.size a
  inb_S1x256x256_S1x249x249_0_0_1 : ∀ a, (![0, 0, 1] : Fin 3 → Nat) a + S1x249x249.size a ≤ S1x256x256.size a
  inb_S1x64x249x249_S1x1x249x249_0_2_0_0 : ∀ a, (![0, 2, 0, 0] : Fin 4 → Nat) a + S1x1x249x249.size a ≤ S1x64x249x249.size a
  inb_S1x256x256_S1x249x249_0_0_2 : ∀ a, (![0, 0, 2] : Fin 3 → Nat) a + S1x249x249.size a ≤ S1x256x256.size a
  inb_S1x64x249x249_S1x1x249x249_0_3_0_0 : ∀ a, (![0, 3, 0, 0] : Fin 4 → Nat) a + S1x1x249x249.size a ≤ S1x64x249x249.size a
  inb_S1x256x256_S1x249x249_0_0_3 : ∀ a, (![0, 0, 3] : Fin 3 → Nat) a + S1x249x249.size a ≤ S1x256x256.size a
  inb_S1x64x249x249_S1x1x249x249_0_4_0_0 : ∀ a, (![0, 4, 0, 0] : Fin 4 → Nat) a + S1x1x249x249.size a ≤ S1x64x249x249.size a
  inb_S1x256x256_S1x249x249_0_0_4 : ∀ a, (![0, 0, 4] : Fin 3 → Nat) a + S1x249x249.size a ≤ S1x256x256.size a
  inb_S1x64x249x249_S1x1x249x249_0_5_0_0 : ∀ a, (![0, 5, 0, 0] : Fin 4 → Nat) a + S1x1x249x249.size a ≤ S1x64x249x249.size a
  inb_S1x256x256_S1x249x249_0_0_5 : ∀ a, (![0, 0, 5] : Fin 3 → Nat) a + S1x249x249.size a ≤ S1x256x256.size a
  inb_S1x64x249x249_S1x1x249x249_0_6_0_0 : ∀ a, (![0, 6, 0, 0] : Fin 4 → Nat) a + S1x1x249x249.size a ≤ S1x64x249x249.size a
  inb_S1x256x256_S1x249x249_0_0_6 : ∀ a, (![0, 0, 6] : Fin 3 → Nat) a + S1x249x249.size a ≤ S1x256x256.size a
  inb_S1x64x249x249_S1x1x249x249_0_7_0_0 : ∀ a, (![0, 7, 0, 0] : Fin 4 → Nat) a + S1x1x249x249.size a ≤ S1x64x249x249.size a
  inb_S1x256x256_S1x249x249_0_0_7 : ∀ a, (![0, 0, 7] : Fin 3 → Nat) a + S1x249x249.size a ≤ S1x256x256.size a
  inb_S1x64x249x249_S1x1x249x249_0_8_0_0 : ∀ a, (![0, 8, 0, 0] : Fin 4 → Nat) a + S1x1x249x249.size a ≤ S1x64x249x249.size a
  inb_S1x256x256_S1x249x249_0_1_0 : ∀ a, (![0, 1, 0] : Fin 3 → Nat) a + S1x249x249.size a ≤ S1x256x256.size a
  inb_S1x64x249x249_S1x1x249x249_0_9_0_0 : ∀ a, (![0, 9, 0, 0] : Fin 4 → Nat) a + S1x1x249x249.size a ≤ S1x64x249x249.size a
  inb_S1x256x256_S1x249x249_0_1_1 : ∀ a, (![0, 1, 1] : Fin 3 → Nat) a + S1x249x249.size a ≤ S1x256x256.size a
  inb_S1x64x249x249_S1x1x249x249_0_10_0_0 : ∀ a, (![0, 10, 0, 0] : Fin 4 → Nat) a + S1x1x249x249.size a ≤ S1x64x249x249.size a
  inb_S1x256x256_S1x249x249_0_1_2 : ∀ a, (![0, 1, 2] : Fin 3 → Nat) a + S1x249x249.size a ≤ S1x256x256.size a
  inb_S1x64x249x249_S1x1x249x249_0_11_0_0 : ∀ a, (![0, 11, 0, 0] : Fin 4 → Nat) a + S1x1x249x249.size a ≤ S1x64x249x249.size a
  inb_S1x256x256_S1x249x249_0_1_3 : ∀ a, (![0, 1, 3] : Fin 3 → Nat) a + S1x249x249.size a ≤ S1x256x256.size a
  inb_S1x64x249x249_S1x1x249x249_0_12_0_0 : ∀ a, (![0, 12, 0, 0] : Fin 4 → Nat) a + S1x1x249x249.size a ≤ S1x64x249x249.size a
  inb_S1x256x256_S1x249x249_0_1_4 : ∀ a, (![0, 1, 4] : Fin 3 → Nat) a + S1x249x249.size a ≤ S1x256x256.size a
  inb_S1x64x249x249_S1x1x249x249_0_13_0_0 : ∀ a, (![0, 13, 0, 0] : Fin 4 → Nat) a + S1x1x249x249.size a ≤ S1x64x249x249.size a
  inb_S1x256x256_S1x249x249_0_1_5 : ∀ a, (![0, 1, 5] : Fin 3 → Nat) a + S1x249x249.size a ≤ S1x256x256.size a
  inb_S1x64x249x249_S1x1x249x249_0_14_0_0 : ∀ a, (![0, 14, 0, 0] : Fin 4 → Nat) a + S1x1x249x249.size a ≤ S1x64x249x249.size a
  inb_S1x256x256_S1x249x249_0_1_6 : ∀ a, (![0, 1, 6] : Fin 3 → Nat) a + S1x249x249.size a ≤ S1x256x256.size a
  inb_S1x64x249x249_S1x1x249x249_0_15_0_0 : ∀ a, (![0, 15, 0, 0] : Fin 4 → Nat) a + S1x1x249x249.size a ≤ S1x64x249x249.size a
  inb_S1x256x256_S1x249x249_0_1_7 : ∀ a, (![0, 1, 7] : Fin 3 → Nat) a + S1x249x249.size a ≤ S1x256x256.size a
  inb_S1x64x249x249_S1x1x249x249_0_16_0_0 : ∀ a, (![0, 16, 0, 0] : Fin 4 → Nat) a + S1x1x249x249.size a ≤ S1x64x249x249.size a
  inb_S1x256x256_S1x249x249_0_2_0 : ∀ a, (![0, 2, 0] : Fin 3 → Nat) a + S1x249x249.size a ≤ S1x256x256.size a
  inb_S1x64x249x249_S1x1x249x249_0_17_0_0 : ∀ a, (![0, 17, 0, 0] : Fin 4 → Nat) a + S1x1x249x249.size a ≤ S1x64x249x249.size a
  inb_S1x256x256_S1x249x249_0_2_1 : ∀ a, (![0, 2, 1] : Fin 3 → Nat) a + S1x249x249.size a ≤ S1x256x256.size a
  inb_S1x64x249x249_S1x1x249x249_0_18_0_0 : ∀ a, (![0, 18, 0, 0] : Fin 4 → Nat) a + S1x1x249x249.size a ≤ S1x64x249x249.size a
  inb_S1x256x256_S1x249x249_0_2_2 : ∀ a, (![0, 2, 2] : Fin 3 → Nat) a + S1x249x249.size a ≤ S1x256x256.size a
  inb_S1x64x249x249_S1x1x249x249_0_19_0_0 : ∀ a, (![0, 19, 0, 0] : Fin 4 → Nat) a + S1x1x249x249.size a ≤ S1x64x249x249.size a
  inb_S1x256x256_S1x249x249_0_2_3 : ∀ a, (![0, 2, 3] : Fin 3 → Nat) a + S1x249x249.size a ≤ S1x256x256.size a
  inb_S1x64x249x249_S1x1x249x249_0_20_0_0 : ∀ a, (![0, 20, 0, 0] : Fin 4 → Nat) a + S1x1x249x249.size a ≤ S1x64x249x249.size a
  inb_S1x256x256_S1x249x249_0_2_4 : ∀ a, (![0, 2, 4] : Fin 3 → Nat) a + S1x249x249.size a ≤ S1x256x256.size a
  inb_S1x64x249x249_S1x1x249x249_0_21_0_0 : ∀ a, (![0, 21, 0, 0] : Fin 4 → Nat) a + S1x1x249x249.size a ≤ S1x64x249x249.size a
  inb_S1x256x256_S1x249x249_0_2_5 : ∀ a, (![0, 2, 5] : Fin 3 → Nat) a + S1x249x249.size a ≤ S1x256x256.size a
  inb_S1x64x249x249_S1x1x249x249_0_22_0_0 : ∀ a, (![0, 22, 0, 0] : Fin 4 → Nat) a + S1x1x249x249.size a ≤ S1x64x249x249.size a
  inb_S1x256x256_S1x249x249_0_2_6 : ∀ a, (![0, 2, 6] : Fin 3 → Nat) a + S1x249x249.size a ≤ S1x256x256.size a
  inb_S1x64x249x249_S1x1x249x249_0_23_0_0 : ∀ a, (![0, 23, 0, 0] : Fin 4 → Nat) a + S1x1x249x249.size a ≤ S1x64x249x249.size a
  inb_S1x256x256_S1x249x249_0_2_7 : ∀ a, (![0, 2, 7] : Fin 3 → Nat) a + S1x249x249.size a ≤ S1x256x256.size a
  inb_S1x64x249x249_S1x1x249x249_0_24_0_0 : ∀ a, (![0, 24, 0, 0] : Fin 4 → Nat) a + S1x1x249x249.size a ≤ S1x64x249x249.size a
  inb_S1x256x256_S1x249x249_0_3_0 : ∀ a, (![0, 3, 0] : Fin 3 → Nat) a + S1x249x249.size a ≤ S1x256x256.size a
  inb_S1x64x249x249_S1x1x249x249_0_25_0_0 : ∀ a, (![0, 25, 0, 0] : Fin 4 → Nat) a + S1x1x249x249.size a ≤ S1x64x249x249.size a
  inb_S1x256x256_S1x249x249_0_3_1 : ∀ a, (![0, 3, 1] : Fin 3 → Nat) a + S1x249x249.size a ≤ S1x256x256.size a
  inb_S1x64x249x249_S1x1x249x249_0_26_0_0 : ∀ a, (![0, 26, 0, 0] : Fin 4 → Nat) a + S1x1x249x249.size a ≤ S1x64x249x249.size a
  inb_S1x256x256_S1x249x249_0_3_2 : ∀ a, (![0, 3, 2] : Fin 3 → Nat) a + S1x249x249.size a ≤ S1x256x256.size a
  inb_S1x64x249x249_S1x1x249x249_0_27_0_0 : ∀ a, (![0, 27, 0, 0] : Fin 4 → Nat) a + S1x1x249x249.size a ≤ S1x64x249x249.size a
  inb_S1x256x256_S1x249x249_0_3_3 : ∀ a, (![0, 3, 3] : Fin 3 → Nat) a + S1x249x249.size a ≤ S1x256x256.size a
  inb_S1x64x249x249_S1x1x249x249_0_28_0_0 : ∀ a, (![0, 28, 0, 0] : Fin 4 → Nat) a + S1x1x249x249.size a ≤ S1x64x249x249.size a
  inb_S1x256x256_S1x249x249_0_3_4 : ∀ a, (![0, 3, 4] : Fin 3 → Nat) a + S1x249x249.size a ≤ S1x256x256.size a
  inb_S1x64x249x249_S1x1x249x249_0_29_0_0 : ∀ a, (![0, 29, 0, 0] : Fin 4 → Nat) a + S1x1x249x249.size a ≤ S1x64x249x249.size a
  inb_S1x256x256_S1x249x249_0_3_5 : ∀ a, (![0, 3, 5] : Fin 3 → Nat) a + S1x249x249.size a ≤ S1x256x256.size a
  inb_S1x64x249x249_S1x1x249x249_0_30_0_0 : ∀ a, (![0, 30, 0, 0] : Fin 4 → Nat) a + S1x1x249x249.size a ≤ S1x64x249x249.size a
  inb_S1x256x256_S1x249x249_0_3_6 : ∀ a, (![0, 3, 6] : Fin 3 → Nat) a + S1x249x249.size a ≤ S1x256x256.size a
  inb_S1x64x249x249_S1x1x249x249_0_31_0_0 : ∀ a, (![0, 31, 0, 0] : Fin 4 → Nat) a + S1x1x249x249.size a ≤ S1x64x249x249.size a
  inb_S1x256x256_S1x249x249_0_3_7 : ∀ a, (![0, 3, 7] : Fin 3 → Nat) a + S1x249x249.size a ≤ S1x256x256.size a
  inb_S1x64x249x249_S1x1x249x249_0_32_0_0 : ∀ a, (![0, 32, 0, 0] : Fin 4 → Nat) a + S1x1x249x249.size a ≤ S1x64x249x249.size a
  inb_S1x256x256_S1x249x249_0_4_0 : ∀ a, (![0, 4, 0] : Fin 3 → Nat) a + S1x249x249.size a ≤ S1x256x256.size a
  inb_S1x64x249x249_S1x1x249x249_0_33_0_0 : ∀ a, (![0, 33, 0, 0] : Fin 4 → Nat) a + S1x1x249x249.size a ≤ S1x64x249x249.size a
  inb_S1x256x256_S1x249x249_0_4_1 : ∀ a, (![0, 4, 1] : Fin 3 → Nat) a + S1x249x249.size a ≤ S1x256x256.size a
  inb_S1x64x249x249_S1x1x249x249_0_34_0_0 : ∀ a, (![0, 34, 0, 0] : Fin 4 → Nat) a + S1x1x249x249.size a ≤ S1x64x249x249.size a
  inb_S1x256x256_S1x249x249_0_4_2 : ∀ a, (![0, 4, 2] : Fin 3 → Nat) a + S1x249x249.size a ≤ S1x256x256.size a
  inb_S1x64x249x249_S1x1x249x249_0_35_0_0 : ∀ a, (![0, 35, 0, 0] : Fin 4 → Nat) a + S1x1x249x249.size a ≤ S1x64x249x249.size a
  inb_S1x256x256_S1x249x249_0_4_3 : ∀ a, (![0, 4, 3] : Fin 3 → Nat) a + S1x249x249.size a ≤ S1x256x256.size a
  inb_S1x64x249x249_S1x1x249x249_0_36_0_0 : ∀ a, (![0, 36, 0, 0] : Fin 4 → Nat) a + S1x1x249x249.size a ≤ S1x64x249x249.size a
  inb_S1x256x256_S1x249x249_0_4_4 : ∀ a, (![0, 4, 4] : Fin 3 → Nat) a + S1x249x249.size a ≤ S1x256x256.size a
  inb_S1x64x249x249_S1x1x249x249_0_37_0_0 : ∀ a, (![0, 37, 0, 0] : Fin 4 → Nat) a + S1x1x249x249.size a ≤ S1x64x249x249.size a
  inb_S1x256x256_S1x249x249_0_4_5 : ∀ a, (![0, 4, 5] : Fin 3 → Nat) a + S1x249x249.size a ≤ S1x256x256.size a
  inb_S1x64x249x249_S1x1x249x249_0_38_0_0 : ∀ a, (![0, 38, 0, 0] : Fin 4 → Nat) a + S1x1x249x249.size a ≤ S1x64x249x249.size a
  inb_S1x256x256_S1x249x249_0_4_6 : ∀ a, (![0, 4, 6] : Fin 3 → Nat) a + S1x249x249.size a ≤ S1x256x256.size a
  inb_S1x64x249x249_S1x1x249x249_0_39_0_0 : ∀ a, (![0, 39, 0, 0] : Fin 4 → Nat) a + S1x1x249x249.size a ≤ S1x64x249x249.size a
  inb_S1x256x256_S1x249x249_0_4_7 : ∀ a, (![0, 4, 7] : Fin 3 → Nat) a + S1x249x249.size a ≤ S1x256x256.size a
  inb_S1x64x249x249_S1x1x249x249_0_40_0_0 : ∀ a, (![0, 40, 0, 0] : Fin 4 → Nat) a + S1x1x249x249.size a ≤ S1x64x249x249.size a
  inb_S1x256x256_S1x249x249_0_5_0 : ∀ a, (![0, 5, 0] : Fin 3 → Nat) a + S1x249x249.size a ≤ S1x256x256.size a
  inb_S1x64x249x249_S1x1x249x249_0_41_0_0 : ∀ a, (![0, 41, 0, 0] : Fin 4 → Nat) a + S1x1x249x249.size a ≤ S1x64x249x249.size a
  inb_S1x256x256_S1x249x249_0_5_1 : ∀ a, (![0, 5, 1] : Fin 3 → Nat) a + S1x249x249.size a ≤ S1x256x256.size a
  inb_S1x64x249x249_S1x1x249x249_0_42_0_0 : ∀ a, (![0, 42, 0, 0] : Fin 4 → Nat) a + S1x1x249x249.size a ≤ S1x64x249x249.size a
  inb_S1x256x256_S1x249x249_0_5_2 : ∀ a, (![0, 5, 2] : Fin 3 → Nat) a + S1x249x249.size a ≤ S1x256x256.size a
  inb_S1x64x249x249_S1x1x249x249_0_43_0_0 : ∀ a, (![0, 43, 0, 0] : Fin 4 → Nat) a + S1x1x249x249.size a ≤ S1x64x249x249.size a
  inb_S1x256x256_S1x249x249_0_5_3 : ∀ a, (![0, 5, 3] : Fin 3 → Nat) a + S1x249x249.size a ≤ S1x256x256.size a
  inb_S1x64x249x249_S1x1x249x249_0_44_0_0 : ∀ a, (![0, 44, 0, 0] : Fin 4 → Nat) a + S1x1x249x249.size a ≤ S1x64x249x249.size a
  inb_S1x256x256_S1x249x249_0_5_4 : ∀ a, (![0, 5, 4] : Fin 3 → Nat) a + S1x249x249.size a ≤ S1x256x256.size a
  inb_S1x64x249x249_S1x1x249x249_0_45_0_0 : ∀ a, (![0, 45, 0, 0] : Fin 4 → Nat) a + S1x1x249x249.size a ≤ S1x64x249x249.size a
  inb_S1x256x256_S1x249x249_0_5_5 : ∀ a, (![0, 5, 5] : Fin 3 → Nat) a + S1x249x249.size a ≤ S1x256x256.size a
  inb_S1x64x249x249_S1x1x249x249_0_46_0_0 : ∀ a, (![0, 46, 0, 0] : Fin 4 → Nat) a + S1x1x249x249.size a ≤ S1x64x249x249.size a
  inb_S1x256x256_S1x249x249_0_5_6 : ∀ a, (![0, 5, 6] : Fin 3 → Nat) a + S1x249x249.size a ≤ S1x256x256.size a
  inb_S1x64x249x249_S1x1x249x249_0_47_0_0 : ∀ a, (![0, 47, 0, 0] : Fin 4 → Nat) a + S1x1x249x249.size a ≤ S1x64x249x249.size a
  inb_S1x256x256_S1x249x249_0_5_7 : ∀ a, (![0, 5, 7] : Fin 3 → Nat) a + S1x249x249.size a ≤ S1x256x256.size a
  inb_S1x64x249x249_S1x1x249x249_0_48_0_0 : ∀ a, (![0, 48, 0, 0] : Fin 4 → Nat) a + S1x1x249x249.size a ≤ S1x64x249x249.size a
  inb_S1x256x256_S1x249x249_0_6_0 : ∀ a, (![0, 6, 0] : Fin 3 → Nat) a + S1x249x249.size a ≤ S1x256x256.size a
  inb_S1x64x249x249_S1x1x249x249_0_49_0_0 : ∀ a, (![0, 49, 0, 0] : Fin 4 → Nat) a + S1x1x249x249.size a ≤ S1x64x249x249.size a
  inb_S1x256x256_S1x249x249_0_6_1 : ∀ a, (![0, 6, 1] : Fin 3 → Nat) a + S1x249x249.size a ≤ S1x256x256.size a
  inb_S1x64x249x249_S1x1x249x249_0_50_0_0 : ∀ a, (![0, 50, 0, 0] : Fin 4 → Nat) a + S1x1x249x249.size a ≤ S1x64x249x249.size a
  inb_S1x256x256_S1x249x249_0_6_2 : ∀ a, (![0, 6, 2] : Fin 3 → Nat) a + S1x249x249.size a ≤ S1x256x256.size a
  inb_S1x64x249x249_S1x1x249x249_0_51_0_0 : ∀ a, (![0, 51, 0, 0] : Fin 4 → Nat) a + S1x1x249x249.size a ≤ S1x64x249x249.size a
  inb_S1x256x256_S1x249x249_0_6_3 : ∀ a, (![0, 6, 3] : Fin 3 → Nat) a + S1x249x249.size a ≤ S1x256x256.size a
  inb_S1x64x249x249_S1x1x249x249_0_52_0_0 : ∀ a, (![0, 52, 0, 0] : Fin 4 → Nat) a + S1x1x249x249.size a ≤ S1x64x249x249.size a
  inb_S1x256x256_S1x249x249_0_6_4 : ∀ a, (![0, 6, 4] : Fin 3 → Nat) a + S1x249x249.size a ≤ S1x256x256.size a
  inb_S1x64x249x249_S1x1x249x249_0_53_0_0 : ∀ a, (![0, 53, 0, 0] : Fin 4 → Nat) a + S1x1x249x249.size a ≤ S1x64x249x249.size a
  inb_S1x256x256_S1x249x249_0_6_5 : ∀ a, (![0, 6, 5] : Fin 3 → Nat) a + S1x249x249.size a ≤ S1x256x256.size a
  inb_S1x64x249x249_S1x1x249x249_0_54_0_0 : ∀ a, (![0, 54, 0, 0] : Fin 4 → Nat) a + S1x1x249x249.size a ≤ S1x64x249x249.size a
  inb_S1x256x256_S1x249x249_0_6_6 : ∀ a, (![0, 6, 6] : Fin 3 → Nat) a + S1x249x249.size a ≤ S1x256x256.size a
  inb_S1x64x249x249_S1x1x249x249_0_55_0_0 : ∀ a, (![0, 55, 0, 0] : Fin 4 → Nat) a + S1x1x249x249.size a ≤ S1x64x249x249.size a
  inb_S1x256x256_S1x249x249_0_6_7 : ∀ a, (![0, 6, 7] : Fin 3 → Nat) a + S1x249x249.size a ≤ S1x256x256.size a
  inb_S1x64x249x249_S1x1x249x249_0_56_0_0 : ∀ a, (![0, 56, 0, 0] : Fin 4 → Nat) a + S1x1x249x249.size a ≤ S1x64x249x249.size a
  inb_S1x256x256_S1x249x249_0_7_0 : ∀ a, (![0, 7, 0] : Fin 3 → Nat) a + S1x249x249.size a ≤ S1x256x256.size a
  inb_S1x64x249x249_S1x1x249x249_0_57_0_0 : ∀ a, (![0, 57, 0, 0] : Fin 4 → Nat) a + S1x1x249x249.size a ≤ S1x64x249x249.size a
  inb_S1x256x256_S1x249x249_0_7_1 : ∀ a, (![0, 7, 1] : Fin 3 → Nat) a + S1x249x249.size a ≤ S1x256x256.size a
  inb_S1x64x249x249_S1x1x249x249_0_58_0_0 : ∀ a, (![0, 58, 0, 0] : Fin 4 → Nat) a + S1x1x249x249.size a ≤ S1x64x249x249.size a
  inb_S1x256x256_S1x249x249_0_7_2 : ∀ a, (![0, 7, 2] : Fin 3 → Nat) a + S1x249x249.size a ≤ S1x256x256.size a
  inb_S1x64x249x249_S1x1x249x249_0_59_0_0 : ∀ a, (![0, 59, 0, 0] : Fin 4 → Nat) a + S1x1x249x249.size a ≤ S1x64x249x249.size a
  inb_S1x256x256_S1x249x249_0_7_3 : ∀ a, (![0, 7, 3] : Fin 3 → Nat) a + S1x249x249.size a ≤ S1x256x256.size a
  inb_S1x64x249x249_S1x1x249x249_0_60_0_0 : ∀ a, (![0, 60, 0, 0] : Fin 4 → Nat) a + S1x1x249x249.size a ≤ S1x64x249x249.size a
  inb_S1x256x256_S1x249x249_0_7_4 : ∀ a, (![0, 7, 4] : Fin 3 → Nat) a + S1x249x249.size a ≤ S1x256x256.size a
  inb_S1x64x249x249_S1x1x249x249_0_61_0_0 : ∀ a, (![0, 61, 0, 0] : Fin 4 → Nat) a + S1x1x249x249.size a ≤ S1x64x249x249.size a
  inb_S1x256x256_S1x249x249_0_7_5 : ∀ a, (![0, 7, 5] : Fin 3 → Nat) a + S1x249x249.size a ≤ S1x256x256.size a
  inb_S1x64x249x249_S1x1x249x249_0_62_0_0 : ∀ a, (![0, 62, 0, 0] : Fin 4 → Nat) a + S1x1x249x249.size a ≤ S1x64x249x249.size a
  inb_S1x256x256_S1x249x249_0_7_6 : ∀ a, (![0, 7, 6] : Fin 3 → Nat) a + S1x249x249.size a ≤ S1x256x256.size a
  inb_S1x64x249x249_S1x1x249x249_0_63_0_0 : ∀ a, (![0, 63, 0, 0] : Fin 4 → Nat) a + S1x1x249x249.size a ≤ S1x64x249x249.size a
  inb_S1x256x256_S1x249x249_0_7_7 : ∀ a, (![0, 7, 7] : Fin 3 → Nat) a + S1x249x249.size a ≤ S1x256x256.size a
  bcast_S_S249x249x64 : S_.BroadcastsInDim S249x249x64 (![] : Fin 0 → Fin S249x249x64.rank)
  bcast_S_S62001x64 : S_.BroadcastsInDim S62001x64 (![] : Fin 0 → Fin S62001x64.rank)
  transposes_S249x249x64_S64x249x249_2_0_1 : S249x249x64.Transposes [2, 0, 1] S64x249x249
  bcast_S64x249x249_S1x64x249x249_1_2_3 : S64x249x249.BroadcastsInDim S1x64x249x249 (![1, 2, 3] : Fin 3 → Fin S1x64x249x249.rank)
  bcast_S256x256_S1x256x256_1_2 : S256x256.BroadcastsInDim S1x256x256 (![1, 2] : Fin 2 → Fin S1x256x256.rank)
  bcast_S1x256x256_S16x256x256_0_1_2 : S1x256x256.BroadcastsInDim S16x256x256 (![0, 1, 2] : Fin 3 → Fin S16x256x256.rank)
  shapeCasts_S16x256x256_S2x8x256x256 : S16x256x256.ShapeCasts S2x8x256x256
  scatter_S16x249x249x64_S62001x2_S16x62001x64_02_12_12_1_wf : ScatterDims.WF S16x249x249x64 S62001x2 S16x62001x64 [0, 2] [1, 2] [1, 2] 1
  scatter_S249x249x64_S62001x2_S62001x64_1_01_01_1_wf : ScatterDims.WF S249x249x64 S62001x2 S62001x64 [1] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x249x249.size a ≤ S16x64x249x249.size a
  hwx0_0 : ∀ i : grid0.Coords, EltTy.bits .f32 = 32 ∨ (Rect.block (s := S16x64x249x249) S1x64x249x249.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S16x256x256.size a
  hwx0_1 : ∀ i : grid0.Coords, EltTy.bits .f32 = 32 ∨ (Rect.block (s := S16x256x256) S1x256x256.size (cc0_transform_1 i) (hinb0_1 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S1x64x249x249.size a ≤ S1x64x249x249.size a
  hwx1_0 : ∀ i : grid1.Coords, EltTy.bits .f32 = 32 ∨ (Rect.block (s := S1x64x249x249) S1x64x249x249.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S1x256x256.size a ≤ S1x256x256.size a
  hwx1_1 : ∀ i : grid1.Coords, EltTy.bits .f32 = 32 ∨ (Rect.block (s := S1x256x256) S1x256x256.size (cc1_transform_1 i) (hinb1_1 i)).WholeWords (EltTy.packing .f32)

variable [Facts₀]

def scatter_S16x249x249x64_S62001x2_S16x62001x64_02_12_12_1 : ScatterDims S16x249x249x64 S62001x2 S16x62001x64 where
  updateWindowDims := [0, 2]
  insertedWindowDims := [1, 2]
  scatterDimsToOperandDims := [1, 2]
  indexVectorDim := 1
  wf := scatter_S16x249x249x64_S62001x2_S16x62001x64_02_12_12_1_wf
def scatter_S249x249x64_S62001x2_S62001x64_1_01_01_1 : ScatterDims S249x249x64 S62001x2 S62001x64 where
  updateWindowDims := [1]
  insertedWindowDims := [0, 1]
  scatterDimsToOperandDims := [0, 1]
  indexVectorDim := 1
  wf := scatter_S249x249x64_S62001x2_S62001x64_1_01_01_1_wf

abbrev win0_0 : Pipeline.Window sig grid0 :=
  Pipeline.Window.ofSpec (Memref.whole main_v17) S1x64x249x249.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v36) S1x64x249x249.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x256x256.size cc1_transform_1 reads1_1 true false 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S16x62001x64 : Shape := ⟨3, ![16, 62001, 64]⟩
abbrev S62001 : Shape := ⟨1, ![62001]⟩
abbrev S_ : Shape := ⟨0, ![]⟩
abbrev S62001x1 : Shape := ⟨2, ![62001, 1]⟩
abbrev S16x249x249x8x8 : Shape := ⟨5, ![16, 249, 249, 8, 8]⟩
abbrev S16x256x256 : Shape := ⟨3, ![16, 256, 256]⟩
abbrev S16x249x249x1x1 : Shape := ⟨5, ![16, 249, 249, 1, 1]⟩
abbrev S16x249x249 : Shape := ⟨3, ![16, 249, 249]⟩
abbrev S1 : Shape := ⟨1, ![1]⟩
abbrev S2 : Shape := ⟨1, ![2]⟩
abbrev S62001x64 : Shape := ⟨2, ![62001, 64]⟩
abbrev S249x249x8x8 : Shape := ⟨4, ![249, 249, 8, 8]⟩
abbrev S256x256 : Shape := ⟨2, ![256, 256]⟩
abbrev S249x249x1x1 : Shape := ⟨4, ![249, 249, 1, 1]⟩
abbrev S249x249 : Shape := ⟨2, ![249, 249]⟩
abbrev S1x256x256 : Shape := ⟨3, ![1, 256, 256]⟩
abbrev S2x8x256x256 : Shape := ⟨4, ![2, 8, 256, 256]⟩

abbrev nBuf : Space → Nat
  | .hbm => 1060
  | .vmem => 0
  | .smem => 0
  | _ => 0

abbrev hbmTy0_0 (i : Nat) : BufTy := match i % 128 with
  | 0 => ⟨S16x62001x64, .f32⟩
  | 1 => ⟨S62001, .i32⟩
  | 2 => ⟨S_, .f32⟩
  | 3 => ⟨S16x62001x64, .f32⟩
  | 4 => ⟨S_, .i32⟩
  | 5 => ⟨S62001, .i32⟩
  | 6 => ⟨S62001, .i1⟩
  | 7 => ⟨S_, .i32⟩
  | 8 => ⟨S62001, .i32⟩
  | 9 => ⟨S62001, .i32⟩
  | 10 => ⟨S62001, .i32⟩
  | 11 => ⟨S62001x1, .i32⟩
  | 12 => ⟨S16x62001x64, .f32⟩
  | 13 => ⟨S16x249x249x8x8, .f32⟩
  | 14 => ⟨S_, .f32⟩
  | 15 => ⟨S16x256x256, .f32⟩
  | 16 => ⟨S16x249x249x1x1, .f32⟩
  | 17 => ⟨S16x249x249, .f32⟩
  | 18 => ⟨S_, .i32⟩
  | 19 => ⟨S1, .i32⟩
  | 20 => ⟨S_, .i32⟩
  | 21 => ⟨S1, .i32⟩
  | 22 => ⟨S2, .i32⟩
  | 23 => ⟨S16x256x256, .f32⟩
  | 24 => ⟨S16x249x249x1x1, .f32⟩
  | 25 => ⟨S16x249x249, .f32⟩
  | 26 => ⟨S_, .i32⟩
  | 27 => ⟨S1, .i32⟩
  | 28 => ⟨S_, .i32⟩
  | 29 => ⟨S1, .i32⟩
  | 30 => ⟨S2, .i32⟩
  | 31 => ⟨S16x256x256, .f32⟩
  | 32 => ⟨S16x249x249x1x1, .f32⟩
  | 33 => ⟨S16x249x249, .f32⟩
  | 34 => ⟨S_, .i32⟩
  | 35 => ⟨S1, .i32⟩
  | 36 => ⟨S_, .i32⟩
  | 37 => ⟨S1, .i32⟩
  | 38 => ⟨S2, .i32⟩
  | 39 => ⟨S16x256x256, .f32⟩
  | 40 => ⟨S16x249x249x1x1, .f32⟩
  | 41 => ⟨S16x249x249, .f32⟩
  | 42 => ⟨S_, .i32⟩
  | 43 => ⟨S1, .i32⟩
  | 44 => ⟨S_, .i32⟩
  | 45 => ⟨S1, .i32⟩
  | 46 => ⟨S2, .i32⟩
  | 47 => ⟨S16x256x256, .f32⟩
  | 48 => ⟨S16x249x249x1x1, .f32⟩
  | 49 => ⟨S16x249x249, .f32⟩
  | 50 => ⟨S_, .i32⟩
  | 51 => ⟨S1, .i32⟩
  | 52 => ⟨S_, .i32⟩
  | 53 => ⟨S1, .i32⟩
  | 54 => ⟨S2, .i32⟩
  | 55 => ⟨S16x256x256, .f32⟩
  | 56 => ⟨S16x249x249x1x1, .f32⟩
  | 57 => ⟨S16x249x249, .f32⟩
  | 58 => ⟨S_, .i32⟩
  | 59 => ⟨S1, .i32⟩
  | 60 => ⟨S_, .i32⟩
  | 61 => ⟨S1, .i32⟩
  | 62 => ⟨S2, .i32⟩
  | 63 => ⟨S16x256x256, .f32⟩
  | 64 => ⟨S16x249x249x1x1, .f32⟩
  | 65 => ⟨S16x249x249, .f32⟩
  | 66 => ⟨S_, .i32⟩
  | 67 => ⟨S1, .i32⟩
  | 68 => ⟨S_, .i32⟩
  | 69 => ⟨S1, .i32⟩
  | 70 => ⟨S2, .i32⟩
  | 71 => ⟨S16x256x256, .f32⟩
  | 72 => ⟨S16x249x249x1x1, .f32⟩
  | 73 => ⟨S16x249x249, .f32⟩
  | 74 => ⟨S_, .i32⟩
  | 75 => ⟨S1, .i32⟩
  | 76 => ⟨S_, .i32⟩
  | 77 => ⟨S1, .i32⟩
  | 78 => ⟨S2, .i32⟩
  | 79 => ⟨S16x256x256, .f32⟩
  | 80 => ⟨S16x249x249x1x1, .f32⟩
  | 81 => ⟨S16x249x249, .f32⟩
  | 82 => ⟨S_, .i32⟩
  | 83 => ⟨S1, .i32⟩
  | 84 => ⟨S_, .i32⟩
  | 85 => ⟨S1, .i32⟩
  | 86 => ⟨S2, .i32⟩
  | 87 => ⟨S16x256x256, .f32⟩
  | 88 => ⟨S16x249x249x1x1, .f32⟩
  | 89 => ⟨S16x249x249, .f32⟩
  | 90 => ⟨S_, .i32⟩
  | 91 => ⟨S1, .i32⟩
  | 92 => ⟨S_, .i32⟩
  | 93 => ⟨S1, .i32⟩
  | 94 => ⟨S2, .i32⟩
  | 95 => ⟨S16x256x256, .f32⟩
  | 96 => ⟨S16x249x249x1x1, .f32⟩
  | 97 => ⟨S16x249x249, .f32⟩
  | 98 => ⟨S_, .i32⟩
  | 99 => ⟨S1, .i32⟩
  | 100 => ⟨S_, .i32⟩
  | 101 => ⟨S1, .i32⟩
  | 102 => ⟨S2, .i32⟩
  | 103 => ⟨S16x256x256, .f32⟩
  | 104 => ⟨S16x249x249x1x1, .f32⟩
  | 105 => ⟨S16x249x249, .f32⟩
  | 106 => ⟨S_, .i32⟩
  | 107 => ⟨S1, .i32⟩
  | 108 => ⟨S_, .i32⟩
  | 109 => ⟨S1, .i32⟩
  | 110 => ⟨S2, .i32⟩
  | 111 => ⟨S16x256x256, .f32⟩
  | 112 => ⟨S16x249x249x1x1, .f32⟩
  | 113 => ⟨S16x249x249, .f32⟩
  | 114 => ⟨S_, .i32⟩
  | 115 => ⟨S1, .i32⟩
  | 116 => ⟨S_, .i32⟩
  | 117 => ⟨S1, .i32⟩
  | 118 => ⟨S2, .i32⟩
  | 119 => ⟨S16x256x256, .f32⟩
  | 120 => ⟨S16x249x249x1x1, .f32⟩
  | 121 => ⟨S16x249x249, .f32⟩
  | 122 => ⟨S_, .i32⟩
  | 123 => ⟨S1, .i32⟩
  | 124 => ⟨S_, .i32⟩
  | 125 => ⟨S1, .i32⟩
  | 126 => ⟨S2, .i32⟩
  | 127 => ⟨S16x256x256, .f32⟩
  | _ => ⟨S16x62001x64, .f32⟩

abbrev hbmTy0_1 (i : Nat) : BufTy := match i % 128 with
  | 0 => ⟨S16x249x249x1x1, .f32⟩
  | 1 => ⟨S16x249x249, .f32⟩
  | 2 => ⟨S_, .i32⟩
  | 3 => ⟨S1, .i32⟩
  | 4 => ⟨S_, .i32⟩
  | 5 => ⟨S1, .i32⟩
  | 6 => ⟨S2, .i32⟩
  | 7 => ⟨S16x256x256, .f32⟩
  | 8 => ⟨S16x249x249x1x1, .f32⟩
  | 9 => ⟨S16x249x249, .f32⟩
  | 10 => ⟨S_, .i32⟩
  | 11 => ⟨S1, .i32⟩
  | 12 => ⟨S_, .i32⟩
  | 13 => ⟨S1, .i32⟩
  | 14 => ⟨S2, .i32⟩
  | 15 => ⟨S16x256x256, .f32⟩
  | 16 => ⟨S16x249x249x1x1, .f32⟩
  | 17 => ⟨S16x249x249, .f32⟩
  | 18 => ⟨S_, .i32⟩
  | 19 => ⟨S1, .i32⟩
  | 20 => ⟨S_, .i32⟩
  | 21 => ⟨S1, .i32⟩
  | 22 => ⟨S2, .i32⟩
  | 23 => ⟨S16x256x256, .f32⟩
  | 24 => ⟨S16x249x249x1x1, .f32⟩
  | 25 => ⟨S16x249x249, .f32⟩
  | 26 => ⟨S_, .i32⟩
  | 27 => ⟨S1, .i32⟩
  | 28 => ⟨S_, .i32⟩
  | 29 => ⟨S1, .i32⟩
  | 30 => ⟨S2, .i32⟩
  | 31 => ⟨S16x256x256, .f32⟩
  | 32 => ⟨S16x249x249x1x1, .f32⟩
  | 33 => ⟨S16x249x249, .f32⟩
  | 34 => ⟨S_, .i32⟩
  | 35 => ⟨S1, .i32⟩
  | 36 => ⟨S_, .i32⟩
  | 37 => ⟨S1, .i32⟩
  | 38 => ⟨S2, .i32⟩
  | 39 => ⟨S16x256x256, .f32⟩
  | 40 => ⟨S16x249x249x1x1, .f32⟩
  | 41 => ⟨S16x249x249, .f32⟩
  | 42 => ⟨S_, .i32⟩
  | 43 => ⟨S1, .i32⟩
  | 44 => ⟨S_, .i32⟩
  | 45 => ⟨S1, .i32⟩
  | 46 => ⟨S2, .i32⟩
  | 47 => ⟨S16x256x256, .f32⟩
  | 48 => ⟨S16x249x249x1x1, .f32⟩
  | 49 => ⟨S16x249x249, .f32⟩
  | 50 => ⟨S_, .i32⟩
  | 51 => ⟨S1, .i32⟩
  | 52 => ⟨S_, .i32⟩
  | 53 => ⟨S1, .i32⟩
  | 54 => ⟨S2, .i32⟩
  | 55 => ⟨S16x256x256, .f32⟩
  | 56 => ⟨S16x249x249x1x1, .f32⟩
  | 57 => ⟨S16x249x249, .f32⟩
  | 58 => ⟨S_, .i32⟩
  | 59 => ⟨S1, .i32⟩
  | 60 => ⟨S_, .i32⟩
  | 61 => ⟨S1, .i32⟩
  | 62 => ⟨S2, .i32⟩
  | 63 => ⟨S16x256x256, .f32⟩
  | 64 => ⟨S16x249x249x1x1, .f32⟩
  | 65 => ⟨S16x249x249, .f32⟩
  | 66 => ⟨S_, .i32⟩
  | 67 => ⟨S1, .i32⟩
  | 68 => ⟨S_, .i32⟩
  | 69 => ⟨S1, .i32⟩
  | 70 => ⟨S2, .i32⟩
  | 71 => ⟨S16x256x256, .f32⟩
  | 72 => ⟨S16x249x249x1x1, .f32⟩
  | 73 => ⟨S16x249x249, .f32⟩
  | 74 => ⟨S_, .i32⟩
  | 75 => ⟨S1, .i32⟩
  | 76 => ⟨S_, .i32⟩
  | 77 => ⟨S1, .i32⟩
  | 78 => ⟨S2, .i32⟩
  | 79 => ⟨S16x256x256, .f32⟩
  | 80 => ⟨S16x249x249x1x1, .f32⟩
  | 81 => ⟨S16x249x249, .f32⟩
  | 82 => ⟨S_, .i32⟩
  | 83 => ⟨S1, .i32⟩
  | 84 => ⟨S_, .i32⟩
  | 85 => ⟨S1, .i32⟩
  | 86 => ⟨S2, .i32⟩
  | 87 => ⟨S16x256x256, .f32⟩
  | 88 => ⟨S16x249x249x1x1, .f32⟩
  | 89 => ⟨S16x249x249, .f32⟩
  | 90 => ⟨S_, .i32⟩
  | 91 => ⟨S1, .i32⟩
  | 92 => ⟨S_, .i32⟩
  | 93 => ⟨S1, .i32⟩
  | 94 => ⟨S2, .i32⟩
  | 95 => ⟨S16x256x256, .f32⟩
  | 96 => ⟨S16x249x249x1x1, .f32⟩
  | 97 => ⟨S16x249x249, .f32⟩
  | 98 => ⟨S_, .i32⟩
  | 99 => ⟨S1, .i32⟩
  | 100 => ⟨S_, .i32⟩
  | 101 => ⟨S1, .i32⟩
  | 102 => ⟨S2, .i32⟩
  | 103 => ⟨S16x256x256, .f32⟩
  | 104 => ⟨S16x249x249x1x1, .f32⟩
  | 105 => ⟨S16x249x249, .f32⟩
  | 106 => ⟨S_, .i32⟩
  | 107 => ⟨S1, .i32⟩
  | 108 => ⟨S_, .i32⟩
  | 109 => ⟨S1, .i32⟩
  | 110 => ⟨S2, .i32⟩
  | 111 => ⟨S16x256x256, .f32⟩
  | 112 => ⟨S16x249x249x1x1, .f32⟩
  | 113 => ⟨S16x249x249, .f32⟩
  | 114 => ⟨S_, .i32⟩
  | 115 => ⟨S1, .i32⟩
  | 116 => ⟨S_, .i32⟩
  | 117 => ⟨S1, .i32⟩
  | 118 => ⟨S2, .i32⟩
  | 119 => ⟨S16x256x256, .f32⟩
  | 120 => ⟨S16x249x249x1x1, .f32⟩
  | 121 => ⟨S16x249x249, .f32⟩
  | 122 => ⟨S_, .i32⟩
  | 123 => ⟨S1, .i32⟩
  | 124 => ⟨S_, .i32⟩
  | 125 => ⟨S1, .i32⟩
  | 126 => ⟨S2, .i32⟩
  | 127 => ⟨S16x256x256, .f32⟩
  | _ => ⟨S16x62001x64, .f32⟩

abbrev hbmTy0_2 (i : Nat) : BufTy := match i % 128 with
  | 0 => ⟨S16x249x249x1x1, .f32⟩
  | 1 => ⟨S16x249x249, .f32⟩
  | 2 => ⟨S_, .i32⟩
  | 3 => ⟨S1, .i32⟩
  | 4 => ⟨S_, .i32⟩
  | 5 => ⟨S1, .i32⟩
  | 6 => ⟨S2, .i32⟩
  | 7 => ⟨S16x256x256, .f32⟩
  | 8 => ⟨S16x249x249x1x1, .f32⟩
  | 9 => ⟨S16x249x249, .f32⟩
  | 10 => ⟨S_, .i32⟩
  | 11 => ⟨S1, .i32⟩
  | 12 => ⟨S_, .i32⟩
  | 13 => ⟨S1, .i32⟩
  | 14 => ⟨S2, .i32⟩
  | 15 => ⟨S16x256x256, .f32⟩
  | 16 => ⟨S16x249x249x1x1, .f32⟩
  | 17 => ⟨S16x249x249, .f32⟩
  | 18 => ⟨S_, .i32⟩
  | 19 => ⟨S1, .i32⟩
  | 20 => ⟨S_, .i32⟩
  | 21 => ⟨S1, .i32⟩
  | 22 => ⟨S2, .i32⟩
  | 23 => ⟨S16x256x256, .f32⟩
  | 24 => ⟨S16x249x249x1x1, .f32⟩
  | 25 => ⟨S16x249x249, .f32⟩
  | 26 => ⟨S_, .i32⟩
  | 27 => ⟨S1, .i32⟩
  | 28 => ⟨S_, .i32⟩
  | 29 => ⟨S1, .i32⟩
  | 30 => ⟨S2, .i32⟩
  | 31 => ⟨S16x256x256, .f32⟩
  | 32 => ⟨S16x249x249x1x1, .f32⟩
  | 33 => ⟨S16x249x249, .f32⟩
  | 34 => ⟨S_, .i32⟩
  | 35 => ⟨S1, .i32⟩
  | 36 => ⟨S_, .i32⟩
  | 37 => ⟨S1, .i32⟩
  | 38 => ⟨S2, .i32⟩
  | 39 => ⟨S16x256x256, .f32⟩
  | 40 => ⟨S16x249x249x1x1, .f32⟩
  | 41 => ⟨S16x249x249, .f32⟩
  | 42 => ⟨S_, .i32⟩
  | 43 => ⟨S1, .i32⟩
  | 44 => ⟨S_, .i32⟩
  | 45 => ⟨S1, .i32⟩
  | 46 => ⟨S2, .i32⟩
  | 47 => ⟨S16x256x256, .f32⟩
  | 48 => ⟨S16x249x249x1x1, .f32⟩
  | 49 => ⟨S16x249x249, .f32⟩
  | 50 => ⟨S_, .i32⟩
  | 51 => ⟨S1, .i32⟩
  | 52 => ⟨S_, .i32⟩
  | 53 => ⟨S1, .i32⟩
  | 54 => ⟨S2, .i32⟩
  | 55 => ⟨S16x256x256, .f32⟩
  | 56 => ⟨S16x249x249x1x1, .f32⟩
  | 57 => ⟨S16x249x249, .f32⟩
  | 58 => ⟨S_, .i32⟩
  | 59 => ⟨S1, .i32⟩
  | 60 => ⟨S_, .i32⟩
  | 61 => ⟨S1, .i32⟩
  | 62 => ⟨S2, .i32⟩
  | 63 => ⟨S16x256x256, .f32⟩
  | 64 => ⟨S16x249x249x1x1, .f32⟩
  | 65 => ⟨S16x249x249, .f32⟩
  | 66 => ⟨S_, .i32⟩
  | 67 => ⟨S1, .i32⟩
  | 68 => ⟨S_, .i32⟩
  | 69 => ⟨S1, .i32⟩
  | 70 => ⟨S2, .i32⟩
  | 71 => ⟨S16x256x256, .f32⟩
  | 72 => ⟨S16x249x249x1x1, .f32⟩
  | 73 => ⟨S16x249x249, .f32⟩
  | 74 => ⟨S_, .i32⟩
  | 75 => ⟨S1, .i32⟩
  | 76 => ⟨S_, .i32⟩
  | 77 => ⟨S1, .i32⟩
  | 78 => ⟨S2, .i32⟩
  | 79 => ⟨S16x256x256, .f32⟩
  | 80 => ⟨S16x249x249x1x1, .f32⟩
  | 81 => ⟨S16x249x249, .f32⟩
  | 82 => ⟨S_, .i32⟩
  | 83 => ⟨S1, .i32⟩
  | 84 => ⟨S_, .i32⟩
  | 85 => ⟨S1, .i32⟩
  | 86 => ⟨S2, .i32⟩
  | 87 => ⟨S16x256x256, .f32⟩
  | 88 => ⟨S16x249x249x1x1, .f32⟩
  | 89 => ⟨S16x249x249, .f32⟩
  | 90 => ⟨S_, .i32⟩
  | 91 => ⟨S1, .i32⟩
  | 92 => ⟨S_, .i32⟩
  | 93 => ⟨S1, .i32⟩
  | 94 => ⟨S2, .i32⟩
  | 95 => ⟨S16x256x256, .f32⟩
  | 96 => ⟨S16x249x249x1x1, .f32⟩
  | 97 => ⟨S16x249x249, .f32⟩
  | 98 => ⟨S_, .i32⟩
  | 99 => ⟨S1, .i32⟩
  | 100 => ⟨S_, .i32⟩
  | 101 => ⟨S1, .i32⟩
  | 102 => ⟨S2, .i32⟩
  | 103 => ⟨S16x256x256, .f32⟩
  | 104 => ⟨S16x249x249x1x1, .f32⟩
  | 105 => ⟨S16x249x249, .f32⟩
  | 106 => ⟨S_, .i32⟩
  | 107 => ⟨S1, .i32⟩
  | 108 => ⟨S_, .i32⟩
  | 109 => ⟨S1, .i32⟩
  | 110 => ⟨S2, .i32⟩
  | 111 => ⟨S16x256x256, .f32⟩
  | 112 => ⟨S16x249x249x1x1, .f32⟩
  | 113 => ⟨S16x249x249, .f32⟩
  | 114 => ⟨S_, .i32⟩
  | 115 => ⟨S1, .i32⟩
  | 116 => ⟨S_, .i32⟩
  | 117 => ⟨S1, .i32⟩
  | 118 => ⟨S2, .i32⟩
  | 119 => ⟨S16x256x256, .f32⟩
  | 120 => ⟨S16x249x249x1x1, .f32⟩
  | 121 => ⟨S16x249x249, .f32⟩
  | 122 => ⟨S_, .i32⟩
  | 123 => ⟨S1, .i32⟩
  | 124 => ⟨S_, .i32⟩
  | 125 => ⟨S1, .i32⟩
  | 126 => ⟨S2, .i32⟩
  | 127 => ⟨S16x256x256, .f32⟩
  | _ => ⟨S16x62001x64, .f32⟩

abbrev hbmTy0_3 (i : Nat) : BufTy := match i % 128 with
  | 0 => ⟨S16x249x249x1x1, .f32⟩
  | 1 => ⟨S16x249x249, .f32⟩
  | 2 => ⟨S_, .i32⟩
  | 3 => ⟨S1, .i32⟩
  | 4 => ⟨S_, .i32⟩
  | 5 => ⟨S1, .i32⟩
  | 6 => ⟨S2, .i32⟩
  | 7 => ⟨S16x256x256, .f32⟩
  | 8 => ⟨S16x249x249x1x1, .f32⟩
  | 9 => ⟨S16x249x249, .f32⟩
  | 10 => ⟨S_, .i32⟩
  | 11 => ⟨S1, .i32⟩
  | 12 => ⟨S_, .i32⟩
  | 13 => ⟨S1, .i32⟩
  | 14 => ⟨S2, .i32⟩
  | 15 => ⟨S16x256x256, .f32⟩
  | 16 => ⟨S16x249x249x1x1, .f32⟩
  | 17 => ⟨S16x249x249, .f32⟩
  | 18 => ⟨S_, .i32⟩
  | 19 => ⟨S1, .i32⟩
  | 20 => ⟨S_, .i32⟩
  | 21 => ⟨S1, .i32⟩
  | 22 => ⟨S2, .i32⟩
  | 23 => ⟨S16x256x256, .f32⟩
  | 24 => ⟨S16x249x249x1x1, .f32⟩
  | 25 => ⟨S16x249x249, .f32⟩
  | 26 => ⟨S_, .i32⟩
  | 27 => ⟨S1, .i32⟩
  | 28 => ⟨S_, .i32⟩
  | 29 => ⟨S1, .i32⟩
  | 30 => ⟨S2, .i32⟩
  | 31 => ⟨S16x256x256, .f32⟩
  | 32 => ⟨S16x249x249x1x1, .f32⟩
  | 33 => ⟨S16x249x249, .f32⟩
  | 34 => ⟨S_, .i32⟩
  | 35 => ⟨S1, .i32⟩
  | 36 => ⟨S_, .i32⟩
  | 37 => ⟨S1, .i32⟩
  | 38 => ⟨S2, .i32⟩
  | 39 => ⟨S16x256x256, .f32⟩
  | 40 => ⟨S16x249x249x1x1, .f32⟩
  | 41 => ⟨S16x249x249, .f32⟩
  | 42 => ⟨S_, .i32⟩
  | 43 => ⟨S1, .i32⟩
  | 44 => ⟨S_, .i32⟩
  | 45 => ⟨S1, .i32⟩
  | 46 => ⟨S2, .i32⟩
  | 47 => ⟨S16x256x256, .f32⟩
  | 48 => ⟨S16x249x249x1x1, .f32⟩
  | 49 => ⟨S16x249x249, .f32⟩
  | 50 => ⟨S_, .i32⟩
  | 51 => ⟨S1, .i32⟩
  | 52 => ⟨S_, .i32⟩
  | 53 => ⟨S1, .i32⟩
  | 54 => ⟨S2, .i32⟩
  | 55 => ⟨S16x256x256, .f32⟩
  | 56 => ⟨S16x249x249x1x1, .f32⟩
  | 57 => ⟨S16x249x249, .f32⟩
  | 58 => ⟨S_, .i32⟩
  | 59 => ⟨S1, .i32⟩
  | 60 => ⟨S_, .i32⟩
  | 61 => ⟨S1, .i32⟩
  | 62 => ⟨S2, .i32⟩
  | 63 => ⟨S16x256x256, .f32⟩
  | 64 => ⟨S16x249x249x1x1, .f32⟩
  | 65 => ⟨S16x249x249, .f32⟩
  | 66 => ⟨S_, .i32⟩
  | 67 => ⟨S1, .i32⟩
  | 68 => ⟨S_, .i32⟩
  | 69 => ⟨S1, .i32⟩
  | 70 => ⟨S2, .i32⟩
  | 71 => ⟨S16x256x256, .f32⟩
  | 72 => ⟨S16x249x249x1x1, .f32⟩
  | 73 => ⟨S16x249x249, .f32⟩
  | 74 => ⟨S_, .i32⟩
  | 75 => ⟨S1, .i32⟩
  | 76 => ⟨S_, .i32⟩
  | 77 => ⟨S1, .i32⟩
  | 78 => ⟨S2, .i32⟩
  | 79 => ⟨S16x256x256, .f32⟩
  | 80 => ⟨S16x249x249x1x1, .f32⟩
  | 81 => ⟨S16x249x249, .f32⟩
  | 82 => ⟨S_, .i32⟩
  | 83 => ⟨S1, .i32⟩
  | 84 => ⟨S_, .i32⟩
  | 85 => ⟨S1, .i32⟩
  | 86 => ⟨S2, .i32⟩
  | 87 => ⟨S16x256x256, .f32⟩
  | 88 => ⟨S16x249x249x1x1, .f32⟩
  | 89 => ⟨S16x249x249, .f32⟩
  | 90 => ⟨S_, .i32⟩
  | 91 => ⟨S1, .i32⟩
  | 92 => ⟨S_, .i32⟩
  | 93 => ⟨S1, .i32⟩
  | 94 => ⟨S2, .i32⟩
  | 95 => ⟨S16x256x256, .f32⟩
  | 96 => ⟨S16x249x249x1x1, .f32⟩
  | 97 => ⟨S16x249x249, .f32⟩
  | 98 => ⟨S_, .i32⟩
  | 99 => ⟨S1, .i32⟩
  | 100 => ⟨S_, .i32⟩
  | 101 => ⟨S1, .i32⟩
  | 102 => ⟨S2, .i32⟩
  | 103 => ⟨S16x256x256, .f32⟩
  | 104 => ⟨S16x249x249x1x1, .f32⟩
  | 105 => ⟨S16x249x249, .f32⟩
  | 106 => ⟨S_, .i32⟩
  | 107 => ⟨S1, .i32⟩
  | 108 => ⟨S_, .i32⟩
  | 109 => ⟨S1, .i32⟩
  | 110 => ⟨S2, .i32⟩
  | 111 => ⟨S16x256x256, .f32⟩
  | 112 => ⟨S16x249x249x1x1, .f32⟩
  | 113 => ⟨S16x249x249, .f32⟩
  | 114 => ⟨S_, .i32⟩
  | 115 => ⟨S1, .i32⟩
  | 116 => ⟨S_, .i32⟩
  | 117 => ⟨S1, .i32⟩
  | 118 => ⟨S2, .i32⟩
  | 119 => ⟨S16x256x256, .f32⟩
  | 120 => ⟨S16x249x249x1x1, .f32⟩
  | 121 => ⟨S16x249x249, .f32⟩
  | 122 => ⟨S_, .i32⟩
  | 123 => ⟨S1, .i32⟩
  | 124 => ⟨S_, .i32⟩
  | 125 => ⟨S1, .i32⟩
  | 126 => ⟨S2, .i32⟩
  | 127 => ⟨S16x256x256, .f32⟩
  | _ => ⟨S16x62001x64, .f32⟩

abbrev hbmTy0_4 (i : Nat) : BufTy := match i % 128 with
  | 0 => ⟨S16x249x249x1x1, .f32⟩
  | 1 => ⟨S16x249x249, .f32⟩
  | 2 => ⟨S_, .i32⟩
  | 3 => ⟨S1, .i32⟩
  | 4 => ⟨S_, .i32⟩
  | 5 => ⟨S1, .i32⟩
  | 6 => ⟨S2, .i32⟩
  | 7 => ⟨S16x256x256, .f32⟩
  | 8 => ⟨S16x249x249x1x1, .f32⟩
  | 9 => ⟨S16x249x249, .f32⟩
  | 10 => ⟨S_, .i32⟩
  | 11 => ⟨S1, .i32⟩
  | 12 => ⟨S_, .i32⟩
  | 13 => ⟨S1, .i32⟩
  | 14 => ⟨S2, .i32⟩
  | 15 => ⟨S16x256x256, .f32⟩
  | 16 => ⟨S_, .f32⟩
  | 17 => ⟨S62001x64, .f32⟩
  | 18 => ⟨S_, .i32⟩
  | 19 => ⟨S62001, .i32⟩
  | 20 => ⟨S62001, .i1⟩
  | 21 => ⟨S_, .i32⟩
  | 22 => ⟨S62001, .i32⟩
  | 23 => ⟨S62001, .i32⟩
  | 24 => ⟨S62001, .i32⟩
  | 25 => ⟨S62001x1, .i32⟩
  | 26 => ⟨S_, .f32⟩
  | 27 => ⟨S62001x64, .f32⟩
  | 28 => ⟨S62001x64, .f32⟩
  | 29 => ⟨S249x249x8x8, .f32⟩
  | 30 => ⟨S_, .f32⟩
  | 31 => ⟨S256x256, .f32⟩
  | 32 => ⟨S249x249x1x1, .f32⟩
  | 33 => ⟨S249x249, .f32⟩
  | 34 => ⟨S_, .i32⟩
  | 35 => ⟨S1, .i32⟩
  | 36 => ⟨S_, .i32⟩
  | 37 => ⟨S1, .i32⟩
  | 38 => ⟨S2, .i32⟩
  | 39 => ⟨S256x256, .f32⟩
  | 40 => ⟨S249x249x1x1, .f32⟩
  | 41 => ⟨S249x249, .f32⟩
  | 42 => ⟨S_, .i32⟩
  | 43 => ⟨S1, .i32⟩
  | 44 => ⟨S_, .i32⟩
  | 45 => ⟨S1, .i32⟩
  | 46 => ⟨S2, .i32⟩
  | 47 => ⟨S256x256, .f32⟩
  | 48 => ⟨S249x249x1x1, .f32⟩
  | 49 => ⟨S249x249, .f32⟩
  | 50 => ⟨S_, .i32⟩
  | 51 => ⟨S1, .i32⟩
  | 52 => ⟨S_, .i32⟩
  | 53 => ⟨S1, .i32⟩
  | 54 => ⟨S2, .i32⟩
  | 55 => ⟨S256x256, .f32⟩
  | 56 => ⟨S249x249x1x1, .f32⟩
  | 57 => ⟨S249x249, .f32⟩
  | 58 => ⟨S_, .i32⟩
  | 59 => ⟨S1, .i32⟩
  | 60 => ⟨S_, .i32⟩
  | 61 => ⟨S1, .i32⟩
  | 62 => ⟨S2, .i32⟩
  | 63 => ⟨S256x256, .f32⟩
  | 64 => ⟨S249x249x1x1, .f32⟩
  | 65 => ⟨S249x249, .f32⟩
  | 66 => ⟨S_, .i32⟩
  | 67 => ⟨S1, .i32⟩
  | 68 => ⟨S_, .i32⟩
  | 69 => ⟨S1, .i32⟩
  | 70 => ⟨S2, .i32⟩
  | 71 => ⟨S256x256, .f32⟩
  | 72 => ⟨S249x249x1x1, .f32⟩
  | 73 => ⟨S249x249, .f32⟩
  | 74 => ⟨S_, .i32⟩
  | 75 => ⟨S1, .i32⟩
  | 76 => ⟨S_, .i32⟩
  | 77 => ⟨S1, .i32⟩
  | 78 => ⟨S2, .i32⟩
  | 79 => ⟨S256x256, .f32⟩
  | 80 => ⟨S249x249x1x1, .f32⟩
  | 81 => ⟨S249x249, .f32⟩
  | 82 => ⟨S_, .i32⟩
  | 83 => ⟨S1, .i32⟩
  | 84 => ⟨S_, .i32⟩
  | 85 => ⟨S1, .i32⟩
  | 86 => ⟨S2, .i32⟩
  | 87 => ⟨S256x256, .f32⟩
  | 88 => ⟨S249x249x1x1, .f32⟩
  | 89 => ⟨S249x249, .f32⟩
  | 90 => ⟨S_, .i32⟩
  | 91 => ⟨S1, .i32⟩
  | 92 => ⟨S_, .i32⟩
  | 93 => ⟨S1, .i32⟩
  | 94 => ⟨S2, .i32⟩
  | 95 => ⟨S256x256, .f32⟩
  | 96 => ⟨S249x249x1x1, .f32⟩
  | 97 => ⟨S249x249, .f32⟩
  | 98 => ⟨S_, .i32⟩
  | 99 => ⟨S1, .i32⟩
  | 100 => ⟨S_, .i32⟩
  | 101 => ⟨S1, .i32⟩
  | 102 => ⟨S2, .i32⟩
  | 103 => ⟨S256x256, .f32⟩
  | 104 => ⟨S249x249x1x1, .f32⟩
  | 105 => ⟨S249x249, .f32⟩
  | 106 => ⟨S_, .i32⟩
  | 107 => ⟨S1, .i32⟩
  | 108 => ⟨S_, .i32⟩
  | 109 => ⟨S1, .i32⟩
  | 110 => ⟨S2, .i32⟩
  | 111 => ⟨S256x256, .f32⟩
  | 112 => ⟨S249x249x1x1, .f32⟩
  | 113 => ⟨S249x249, .f32⟩
  | 114 => ⟨S_, .i32⟩
  | 115 => ⟨S1, .i32⟩
  | 116 => ⟨S_, .i32⟩
  | 117 => ⟨S1, .i32⟩
  | 118 => ⟨S2, .i32⟩
  | 119 => ⟨S256x256, .f32⟩
  | 120 => ⟨S249x249x1x1, .f32⟩
  | 121 => ⟨S249x249, .f32⟩
  | 122 => ⟨S_, .i32⟩
  | 123 => ⟨S1, .i32⟩
  | 124 => ⟨S_, .i32⟩
  | 125 => ⟨S1, .i32⟩
  | 126 => ⟨S2, .i32⟩
  | 127 => ⟨S256x256, .f32⟩
  | _ => ⟨S16x62001x64, .f32⟩

abbrev hbmTy0_5 (i : Nat) : BufTy := match i % 128 with
  | 0 => ⟨S249x249x1x1, .f32⟩
  | 1 => ⟨S249x249, .f32⟩
  | 2 => ⟨S_, .i32⟩
  | 3 => ⟨S1, .i32⟩
  | 4 => ⟨S_, .i32⟩
  | 5 => ⟨S1, .i32⟩
  | 6 => ⟨S2, .i32⟩
  | 7 => ⟨S256x256, .f32⟩
  | 8 => ⟨S249x249x1x1, .f32⟩
  | 9 => ⟨S249x249, .f32⟩
  | 10 => ⟨S_, .i32⟩
  | 11 => ⟨S1, .i32⟩
  | 12 => ⟨S_, .i32⟩
  | 13 => ⟨S1, .i32⟩
  | 14 => ⟨S2, .i32⟩
  | 15 => ⟨S256x256, .f32⟩
  | 16 => ⟨S249x249x1x1, .f32⟩
  | 17 => ⟨S249x249, .f32⟩
  | 18 => ⟨S_, .i32⟩
  | 19 => ⟨S1, .i32⟩
  | 20 => ⟨S_, .i32⟩
  | 21 => ⟨S1, .i32⟩
  | 22 => ⟨S2, .i32⟩
  | 23 => ⟨S256x256, .f32⟩
  | 24 => ⟨S249x249x1x1, .f32⟩
  | 25 => ⟨S249x249, .f32⟩
  | 26 => ⟨S_, .i32⟩
  | 27 => ⟨S1, .i32⟩
  | 28 => ⟨S_, .i32⟩
  | 29 => ⟨S1, .i32⟩
  | 30 => ⟨S2, .i32⟩
  | 31 => ⟨S256x256, .f32⟩
  | 32 => ⟨S249x249x1x1, .f32⟩
  | 33 => ⟨S249x249, .f32⟩
  | 34 => ⟨S_, .i32⟩
  | 35 => ⟨S1, .i32⟩
  | 36 => ⟨S_, .i32⟩
  | 37 => ⟨S1, .i32⟩
  | 38 => ⟨S2, .i32⟩
  | 39 => ⟨S256x256, .f32⟩
  | 40 => ⟨S249x249x1x1, .f32⟩
  | 41 => ⟨S249x249, .f32⟩
  | 42 => ⟨S_, .i32⟩
  | 43 => ⟨S1, .i32⟩
  | 44 => ⟨S_, .i32⟩
  | 45 => ⟨S1, .i32⟩
  | 46 => ⟨S2, .i32⟩
  | 47 => ⟨S256x256, .f32⟩
  | 48 => ⟨S249x249x1x1, .f32⟩
  | 49 => ⟨S249x249, .f32⟩
  | 50 => ⟨S_, .i32⟩
  | 51 => ⟨S1, .i32⟩
  | 52 => ⟨S_, .i32⟩
  | 53 => ⟨S1, .i32⟩
  | 54 => ⟨S2, .i32⟩
  | 55 => ⟨S256x256, .f32⟩
  | 56 => ⟨S249x249x1x1, .f32⟩
  | 57 => ⟨S249x249, .f32⟩
  | 58 => ⟨S_, .i32⟩
  | 59 => ⟨S1, .i32⟩
  | 60 => ⟨S_, .i32⟩
  | 61 => ⟨S1, .i32⟩
  | 62 => ⟨S2, .i32⟩
  | 63 => ⟨S256x256, .f32⟩
  | 64 => ⟨S249x249x1x1, .f32⟩
  | 65 => ⟨S249x249, .f32⟩
  | 66 => ⟨S_, .i32⟩
  | 67 => ⟨S1, .i32⟩
  | 68 => ⟨S_, .i32⟩
  | 69 => ⟨S1, .i32⟩
  | 70 => ⟨S2, .i32⟩
  | 71 => ⟨S256x256, .f32⟩
  | 72 => ⟨S249x249x1x1, .f32⟩
  | 73 => ⟨S249x249, .f32⟩
  | 74 => ⟨S_, .i32⟩
  | 75 => ⟨S1, .i32⟩
  | 76 => ⟨S_, .i32⟩
  | 77 => ⟨S1, .i32⟩
  | 78 => ⟨S2, .i32⟩
  | 79 => ⟨S256x256, .f32⟩
  | 80 => ⟨S249x249x1x1, .f32⟩
  | 81 => ⟨S249x249, .f32⟩
  | 82 => ⟨S_, .i32⟩
  | 83 => ⟨S1, .i32⟩
  | 84 => ⟨S_, .i32⟩
  | 85 => ⟨S1, .i32⟩
  | 86 => ⟨S2, .i32⟩
  | 87 => ⟨S256x256, .f32⟩
  | 88 => ⟨S249x249x1x1, .f32⟩
  | 89 => ⟨S249x249, .f32⟩
  | 90 => ⟨S_, .i32⟩
  | 91 => ⟨S1, .i32⟩
  | 92 => ⟨S_, .i32⟩
  | 93 => ⟨S1, .i32⟩
  | 94 => ⟨S2, .i32⟩
  | 95 => ⟨S256x256, .f32⟩
  | 96 => ⟨S249x249x1x1, .f32⟩
  | 97 => ⟨S249x249, .f32⟩
  | 98 => ⟨S_, .i32⟩
  | 99 => ⟨S1, .i32⟩
  | 100 => ⟨S_, .i32⟩
  | 101 => ⟨S1, .i32⟩
  | 102 => ⟨S2, .i32⟩
  | 103 => ⟨S256x256, .f32⟩
  | 104 => ⟨S249x249x1x1, .f32⟩
  | 105 => ⟨S249x249, .f32⟩
  | 106 => ⟨S_, .i32⟩
  | 107 => ⟨S1, .i32⟩
  | 108 => ⟨S_, .i32⟩
  | 109 => ⟨S1, .i32⟩
  | 110 => ⟨S2, .i32⟩
  | 111 => ⟨S256x256, .f32⟩
  | 112 => ⟨S249x249x1x1, .f32⟩
  | 113 => ⟨S249x249, .f32⟩
  | 114 => ⟨S_, .i32⟩
  | 115 => ⟨S1, .i32⟩
  | 116 => ⟨S_, .i32⟩
  | 117 => ⟨S1, .i32⟩
  | 118 => ⟨S2, .i32⟩
  | 119 => ⟨S256x256, .f32⟩
  | 120 => ⟨S249x249x1x1, .f32⟩
  | 121 => ⟨S249x249, .f32⟩
  | 122 => ⟨S_, .i32⟩
  | 123 => ⟨S1, .i32⟩
  | 124 => ⟨S_, .i32⟩
  | 125 => ⟨S1, .i32⟩
  | 126 => ⟨S2, .i32⟩
  | 127 => ⟨S256x256, .f32⟩
  | _ => ⟨S16x62001x64, .f32⟩

abbrev hbmTy0_6 (i : Nat) : BufTy := match i % 128 with
  | 0 => ⟨S249x249x1x1, .f32⟩
  | 1 => ⟨S249x249, .f32⟩
  | 2 => ⟨S_, .i32⟩
  | 3 => ⟨S1, .i32⟩
  | 4 => ⟨S_, .i32⟩
  | 5 => ⟨S1, .i32⟩
  | 6 => ⟨S2, .i32⟩
  | 7 => ⟨S256x256, .f32⟩
  | 8 => ⟨S249x249x1x1, .f32⟩
  | 9 => ⟨S249x249, .f32⟩
  | 10 => ⟨S_, .i32⟩
  | 11 => ⟨S1, .i32⟩
  | 12 => ⟨S_, .i32⟩
  | 13 => ⟨S1, .i32⟩
  | 14 => ⟨S2, .i32⟩
  | 15 => ⟨S256x256, .f32⟩
  | 16 => ⟨S249x249x1x1, .f32⟩
  | 17 => ⟨S249x249, .f32⟩
  | 18 => ⟨S_, .i32⟩
  | 19 => ⟨S1, .i32⟩
  | 20 => ⟨S_, .i32⟩
  | 21 => ⟨S1, .i32⟩
  | 22 => ⟨S2, .i32⟩
  | 23 => ⟨S256x256, .f32⟩
  | 24 => ⟨S249x249x1x1, .f32⟩
  | 25 => ⟨S249x249, .f32⟩
  | 26 => ⟨S_, .i32⟩
  | 27 => ⟨S1, .i32⟩
  | 28 => ⟨S_, .i32⟩
  | 29 => ⟨S1, .i32⟩
  | 30 => ⟨S2, .i32⟩
  | 31 => ⟨S256x256, .f32⟩
  | 32 => ⟨S249x249x1x1, .f32⟩
  | 33 => ⟨S249x249, .f32⟩
  | 34 => ⟨S_, .i32⟩
  | 35 => ⟨S1, .i32⟩
  | 36 => ⟨S_, .i32⟩
  | 37 => ⟨S1, .i32⟩
  | 38 => ⟨S2, .i32⟩
  | 39 => ⟨S256x256, .f32⟩
  | 40 => ⟨S249x249x1x1, .f32⟩
  | 41 => ⟨S249x249, .f32⟩
  | 42 => ⟨S_, .i32⟩
  | 43 => ⟨S1, .i32⟩
  | 44 => ⟨S_, .i32⟩
  | 45 => ⟨S1, .i32⟩
  | 46 => ⟨S2, .i32⟩
  | 47 => ⟨S256x256, .f32⟩
  | 48 => ⟨S249x249x1x1, .f32⟩
  | 49 => ⟨S249x249, .f32⟩
  | 50 => ⟨S_, .i32⟩
  | 51 => ⟨S1, .i32⟩
  | 52 => ⟨S_, .i32⟩
  | 53 => ⟨S1, .i32⟩
  | 54 => ⟨S2, .i32⟩
  | 55 => ⟨S256x256, .f32⟩
  | 56 => ⟨S249x249x1x1, .f32⟩
  | 57 => ⟨S249x249, .f32⟩
  | 58 => ⟨S_, .i32⟩
  | 59 => ⟨S1, .i32⟩
  | 60 => ⟨S_, .i32⟩
  | 61 => ⟨S1, .i32⟩
  | 62 => ⟨S2, .i32⟩
  | 63 => ⟨S256x256, .f32⟩
  | 64 => ⟨S249x249x1x1, .f32⟩
  | 65 => ⟨S249x249, .f32⟩
  | 66 => ⟨S_, .i32⟩
  | 67 => ⟨S1, .i32⟩
  | 68 => ⟨S_, .i32⟩
  | 69 => ⟨S1, .i32⟩
  | 70 => ⟨S2, .i32⟩
  | 71 => ⟨S256x256, .f32⟩
  | 72 => ⟨S249x249x1x1, .f32⟩
  | 73 => ⟨S249x249, .f32⟩
  | 74 => ⟨S_, .i32⟩
  | 75 => ⟨S1, .i32⟩
  | 76 => ⟨S_, .i32⟩
  | 77 => ⟨S1, .i32⟩
  | 78 => ⟨S2, .i32⟩
  | 79 => ⟨S256x256, .f32⟩
  | 80 => ⟨S249x249x1x1, .f32⟩
  | 81 => ⟨S249x249, .f32⟩
  | 82 => ⟨S_, .i32⟩
  | 83 => ⟨S1, .i32⟩
  | 84 => ⟨S_, .i32⟩
  | 85 => ⟨S1, .i32⟩
  | 86 => ⟨S2, .i32⟩
  | 87 => ⟨S256x256, .f32⟩
  | 88 => ⟨S249x249x1x1, .f32⟩
  | 89 => ⟨S249x249, .f32⟩
  | 90 => ⟨S_, .i32⟩
  | 91 => ⟨S1, .i32⟩
  | 92 => ⟨S_, .i32⟩
  | 93 => ⟨S1, .i32⟩
  | 94 => ⟨S2, .i32⟩
  | 95 => ⟨S256x256, .f32⟩
  | 96 => ⟨S249x249x1x1, .f32⟩
  | 97 => ⟨S249x249, .f32⟩
  | 98 => ⟨S_, .i32⟩
  | 99 => ⟨S1, .i32⟩
  | 100 => ⟨S_, .i32⟩
  | 101 => ⟨S1, .i32⟩
  | 102 => ⟨S2, .i32⟩
  | 103 => ⟨S256x256, .f32⟩
  | 104 => ⟨S249x249x1x1, .f32⟩
  | 105 => ⟨S249x249, .f32⟩
  | 106 => ⟨S_, .i32⟩
  | 107 => ⟨S1, .i32⟩
  | 108 => ⟨S_, .i32⟩
  | 109 => ⟨S1, .i32⟩
  | 110 => ⟨S2, .i32⟩
  | 111 => ⟨S256x256, .f32⟩
  | 112 => ⟨S249x249x1x1, .f32⟩
  | 113 => ⟨S249x249, .f32⟩
  | 114 => ⟨S_, .i32⟩
  | 115 => ⟨S1, .i32⟩
  | 116 => ⟨S_, .i32⟩
  | 117 => ⟨S1, .i32⟩
  | 118 => ⟨S2, .i32⟩
  | 119 => ⟨S256x256, .f32⟩
  | 120 => ⟨S249x249x1x1, .f32⟩
  | 121 => ⟨S249x249, .f32⟩
  | 122 => ⟨S_, .i32⟩
  | 123 => ⟨S1, .i32⟩
  | 124 => ⟨S_, .i32⟩
  | 125 => ⟨S1, .i32⟩
  | 126 => ⟨S2, .i32⟩
  | 127 => ⟨S256x256, .f32⟩
  | _ => ⟨S16x62001x64, .f32⟩

abbrev hbmTy0_7 (i : Nat) : BufTy := match i % 128 with
  | 0 => ⟨S249x249x1x1, .f32⟩
  | 1 => ⟨S249x249, .f32⟩
  | 2 => ⟨S_, .i32⟩
  | 3 => ⟨S1, .i32⟩
  | 4 => ⟨S_, .i32⟩
  | 5 => ⟨S1, .i32⟩
  | 6 => ⟨S2, .i32⟩
  | 7 => ⟨S256x256, .f32⟩
  | 8 => ⟨S249x249x1x1, .f32⟩
  | 9 => ⟨S249x249, .f32⟩
  | 10 => ⟨S_, .i32⟩
  | 11 => ⟨S1, .i32⟩
  | 12 => ⟨S_, .i32⟩
  | 13 => ⟨S1, .i32⟩
  | 14 => ⟨S2, .i32⟩
  | 15 => ⟨S256x256, .f32⟩
  | 16 => ⟨S249x249x1x1, .f32⟩
  | 17 => ⟨S249x249, .f32⟩
  | 18 => ⟨S_, .i32⟩
  | 19 => ⟨S1, .i32⟩
  | 20 => ⟨S_, .i32⟩
  | 21 => ⟨S1, .i32⟩
  | 22 => ⟨S2, .i32⟩
  | 23 => ⟨S256x256, .f32⟩
  | 24 => ⟨S249x249x1x1, .f32⟩
  | 25 => ⟨S249x249, .f32⟩
  | 26 => ⟨S_, .i32⟩
  | 27 => ⟨S1, .i32⟩
  | 28 => ⟨S_, .i32⟩
  | 29 => ⟨S1, .i32⟩
  | 30 => ⟨S2, .i32⟩
  | 31 => ⟨S256x256, .f32⟩
  | 32 => ⟨S249x249x1x1, .f32⟩
  | 33 => ⟨S249x249, .f32⟩
  | 34 => ⟨S_, .i32⟩
  | 35 => ⟨S1, .i32⟩
  | 36 => ⟨S_, .i32⟩
  | 37 => ⟨S1, .i32⟩
  | 38 => ⟨S2, .i32⟩
  | 39 => ⟨S256x256, .f32⟩
  | 40 => ⟨S249x249x1x1, .f32⟩
  | 41 => ⟨S249x249, .f32⟩
  | 42 => ⟨S_, .i32⟩
  | 43 => ⟨S1, .i32⟩
  | 44 => ⟨S_, .i32⟩
  | 45 => ⟨S1, .i32⟩
  | 46 => ⟨S2, .i32⟩
  | 47 => ⟨S256x256, .f32⟩
  | 48 => ⟨S249x249x1x1, .f32⟩
  | 49 => ⟨S249x249, .f32⟩
  | 50 => ⟨S_, .i32⟩
  | 51 => ⟨S1, .i32⟩
  | 52 => ⟨S_, .i32⟩
  | 53 => ⟨S1, .i32⟩
  | 54 => ⟨S2, .i32⟩
  | 55 => ⟨S256x256, .f32⟩
  | 56 => ⟨S249x249x1x1, .f32⟩
  | 57 => ⟨S249x249, .f32⟩
  | 58 => ⟨S_, .i32⟩
  | 59 => ⟨S1, .i32⟩
  | 60 => ⟨S_, .i32⟩
  | 61 => ⟨S1, .i32⟩
  | 62 => ⟨S2, .i32⟩
  | 63 => ⟨S256x256, .f32⟩
  | 64 => ⟨S249x249x1x1, .f32⟩
  | 65 => ⟨S249x249, .f32⟩
  | 66 => ⟨S_, .i32⟩
  | 67 => ⟨S1, .i32⟩
  | 68 => ⟨S_, .i32⟩
  | 69 => ⟨S1, .i32⟩
  | 70 => ⟨S2, .i32⟩
  | 71 => ⟨S256x256, .f32⟩
  | 72 => ⟨S249x249x1x1, .f32⟩
  | 73 => ⟨S249x249, .f32⟩
  | 74 => ⟨S_, .i32⟩
  | 75 => ⟨S1, .i32⟩
  | 76 => ⟨S_, .i32⟩
  | 77 => ⟨S1, .i32⟩
  | 78 => ⟨S2, .i32⟩
  | 79 => ⟨S256x256, .f32⟩
  | 80 => ⟨S249x249x1x1, .f32⟩
  | 81 => ⟨S249x249, .f32⟩
  | 82 => ⟨S_, .i32⟩
  | 83 => ⟨S1, .i32⟩
  | 84 => ⟨S_, .i32⟩
  | 85 => ⟨S1, .i32⟩
  | 86 => ⟨S2, .i32⟩
  | 87 => ⟨S256x256, .f32⟩
  | 88 => ⟨S249x249x1x1, .f32⟩
  | 89 => ⟨S249x249, .f32⟩
  | 90 => ⟨S_, .i32⟩
  | 91 => ⟨S1, .i32⟩
  | 92 => ⟨S_, .i32⟩
  | 93 => ⟨S1, .i32⟩
  | 94 => ⟨S2, .i32⟩
  | 95 => ⟨S256x256, .f32⟩
  | 96 => ⟨S249x249x1x1, .f32⟩
  | 97 => ⟨S249x249, .f32⟩
  | 98 => ⟨S_, .i32⟩
  | 99 => ⟨S1, .i32⟩
  | 100 => ⟨S_, .i32⟩
  | 101 => ⟨S1, .i32⟩
  | 102 => ⟨S2, .i32⟩
  | 103 => ⟨S256x256, .f32⟩
  | 104 => ⟨S249x249x1x1, .f32⟩
  | 105 => ⟨S249x249, .f32⟩
  | 106 => ⟨S_, .i32⟩
  | 107 => ⟨S1, .i32⟩
  | 108 => ⟨S_, .i32⟩
  | 109 => ⟨S1, .i32⟩
  | 110 => ⟨S2, .i32⟩
  | 111 => ⟨S256x256, .f32⟩
  | 112 => ⟨S249x249x1x1, .f32⟩
  | 113 => ⟨S249x249, .f32⟩
  | 114 => ⟨S_, .i32⟩
  | 115 => ⟨S1, .i32⟩
  | 116 => ⟨S_, .i32⟩
  | 117 => ⟨S1, .i32⟩
  | 118 => ⟨S2, .i32⟩
  | 119 => ⟨S256x256, .f32⟩
  | 120 => ⟨S249x249x1x1, .f32⟩
  | 121 => ⟨S249x249, .f32⟩
  | 122 => ⟨S_, .i32⟩
  | 123 => ⟨S1, .i32⟩
  | 124 => ⟨S_, .i32⟩
  | 125 => ⟨S1, .i32⟩
  | 126 => ⟨S2, .i32⟩
  | 127 => ⟨S256x256, .f32⟩
  | _ => ⟨S16x62001x64, .f32⟩

abbrev hbmTy0_8 (i : Nat) : BufTy := match i % 128 with
  | 0 => ⟨S249x249x1x1, .f32⟩
  | 1 => ⟨S249x249, .f32⟩
  | 2 => ⟨S_, .i32⟩
  | 3 => ⟨S1, .i32⟩
  | 4 => ⟨S_, .i32⟩
  | 5 => ⟨S1, .i32⟩
  | 6 => ⟨S2, .i32⟩
  | 7 => ⟨S256x256, .f32⟩
  | 8 => ⟨S249x249x1x1, .f32⟩
  | 9 => ⟨S249x249, .f32⟩
  | 10 => ⟨S_, .i32⟩
  | 11 => ⟨S1, .i32⟩
  | 12 => ⟨S_, .i32⟩
  | 13 => ⟨S1, .i32⟩
  | 14 => ⟨S2, .i32⟩
  | 15 => ⟨S256x256, .f32⟩
  | 16 => ⟨S249x249x1x1, .f32⟩
  | 17 => ⟨S249x249, .f32⟩
  | 18 => ⟨S_, .i32⟩
  | 19 => ⟨S1, .i32⟩
  | 20 => ⟨S_, .i32⟩
  | 21 => ⟨S1, .i32⟩
  | 22 => ⟨S2, .i32⟩
  | 23 => ⟨S256x256, .f32⟩
  | 24 => ⟨S249x249x1x1, .f32⟩
  | 25 => ⟨S249x249, .f32⟩
  | 26 => ⟨S_, .i32⟩
  | 27 => ⟨S1, .i32⟩
  | 28 => ⟨S_, .i32⟩
  | 29 => ⟨S1, .i32⟩
  | 30 => ⟨S2, .i32⟩
  | 31 => ⟨S256x256, .f32⟩
  | 32 => ⟨S1x256x256, .f32⟩
  | 33 => ⟨S16x256x256, .f32⟩
  | 34 => ⟨S16x256x256, .f32⟩
  | 35 => ⟨S2x8x256x256, .f32⟩
  | _ => ⟨S16x62001x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S16x62001x64, .f32⟩

abbrev bufTy : (tb : Table) → Fin (tcTables nBuf tb) → BufTy
  | .hbm, ⟨i, _⟩ => hbmTy i
  | _, _ => ⟨S16x62001x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_c_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_6 : Ref sig .tc := ⟨.hbm, 34, rfl⟩
abbrev main_v24 : Ref sig .tc := ⟨.hbm, 35, rfl⟩
abbrev main_c_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_8 : Ref sig .tc := ⟨.hbm, 42, rfl⟩
abbrev main_v30 : Ref sig .tc := ⟨.hbm, 43, rfl⟩
abbrev main_c_9 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_10 : Ref sig .tc := ⟨.hbm, 50, rfl⟩
abbrev main_v36 : Ref sig .tc := ⟨.hbm, 51, rfl⟩
abbrev main_c_11 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_12 : Ref sig .tc := ⟨.hbm, 58, rfl⟩
abbrev main_v42 : Ref sig .tc := ⟨.hbm, 59, rfl⟩
abbrev main_c_13 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_14 : Ref sig .tc := ⟨.hbm, 66, rfl⟩
abbrev main_v48 : Ref sig .tc := ⟨.hbm, 67, rfl⟩
abbrev main_c_15 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_16 : Ref sig .tc := ⟨.hbm, 74, rfl⟩
abbrev main_v54 : Ref sig .tc := ⟨.hbm, 75, rfl⟩
abbrev main_c_17 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_18 : Ref sig .tc := ⟨.hbm, 82, rfl⟩
abbrev main_v60 : Ref sig .tc := ⟨.hbm, 83, rfl⟩
abbrev main_c_19 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_20 : Ref sig .tc := ⟨.hbm, 90, rfl⟩
abbrev main_v66 : Ref sig .tc := ⟨.hbm, 91, rfl⟩
abbrev main_c_21 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_22 : Ref sig .tc := ⟨.hbm, 98, rfl⟩
abbrev main_v72 : Ref sig .tc := ⟨.hbm, 99, rfl⟩
abbrev main_c_23 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_24 : Ref sig .tc := ⟨.hbm, 106, rfl⟩
abbrev main_v78 : Ref sig .tc := ⟨.hbm, 107, rfl⟩
abbrev main_c_25 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_26 : Ref sig .tc := ⟨.hbm, 114, rfl⟩
abbrev main_v84 : Ref sig .tc := ⟨.hbm, 115, rfl⟩
abbrev main_c_27 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_28 : Ref sig .tc := ⟨.hbm, 122, rfl⟩
abbrev main_v90 : Ref sig .tc := ⟨.hbm, 123, rfl⟩
abbrev main_c_29 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_c_30 : Ref sig .tc := ⟨.hbm, 130, rfl⟩
abbrev main_v96 : Ref sig .tc := ⟨.hbm, 131, rfl⟩
abbrev main_c_31 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_c_32 : Ref sig .tc := ⟨.hbm, 138, rfl⟩
abbrev main_v102 : Ref sig .tc := ⟨.hbm, 139, rfl⟩
abbrev main_c_33 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_c_34 : Ref sig .tc := ⟨.hbm, 146, rfl⟩
abbrev main_v108 : Ref sig .tc := ⟨.hbm, 147, rfl⟩
abbrev main_c_35 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_c_36 : Ref sig .tc := ⟨.hbm, 154, rfl⟩
abbrev main_v114 : Ref sig .tc := ⟨.hbm, 155, rfl⟩
abbrev main_c_37 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_c_38 : Ref sig .tc := ⟨.hbm, 162, rfl⟩
abbrev main_v120 : Ref sig .tc := ⟨.hbm, 163, rfl⟩
abbrev main_c_39 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_c_40 : Ref sig .tc := ⟨.hbm, 170, rfl⟩
abbrev main_v126 : Ref sig .tc := ⟨.hbm, 171, rfl⟩
abbrev main_c_41 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_c_42 : Ref sig .tc := ⟨.hbm, 178, rfl⟩
abbrev main_v132 : Ref sig .tc := ⟨.hbm, 179, rfl⟩
abbrev main_c_43 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_c_44 : Ref sig .tc := ⟨.hbm, 186, rfl⟩
abbrev main_v138 : Ref sig .tc := ⟨.hbm, 187, rfl⟩
abbrev main_c_45 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_c_46 : Ref sig .tc := ⟨.hbm, 194, rfl⟩
abbrev main_v144 : Ref sig .tc := ⟨.hbm, 195, rfl⟩
abbrev main_c_47 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_c_48 : Ref sig .tc := ⟨.hbm, 202, rfl⟩
abbrev main_v150 : Ref sig .tc := ⟨.hbm, 203, rfl⟩
abbrev main_c_49 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_c_50 : Ref sig .tc := ⟨.hbm, 210, rfl⟩
abbrev main_v156 : Ref sig .tc := ⟨.hbm, 211, rfl⟩
abbrev main_c_51 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_c_52 : Ref sig .tc := ⟨.hbm, 218, rfl⟩
abbrev main_v162 : Ref sig .tc := ⟨.hbm, 219, rfl⟩
abbrev main_c_53 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_c_54 : Ref sig .tc := ⟨.hbm, 226, rfl⟩
abbrev main_v168 : Ref sig .tc := ⟨.hbm, 227, rfl⟩
abbrev main_c_55 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_c_56 : Ref sig .tc := ⟨.hbm, 234, rfl⟩
abbrev main_v174 : Ref sig .tc := ⟨.hbm, 235, rfl⟩
abbrev main_c_57 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_c_58 : Ref sig .tc := ⟨.hbm, 242, rfl⟩
abbrev main_v180 : Ref sig .tc := ⟨.hbm, 243, rfl⟩
abbrev main_c_59 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_c_60 : Ref sig .tc := ⟨.hbm, 250, rfl⟩
abbrev main_v186 : Ref sig .tc := ⟨.hbm, 251, rfl⟩
abbrev main_c_61 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_c_62 : Ref sig .tc := ⟨.hbm, 258, rfl⟩
abbrev main_v192 : Ref sig .tc := ⟨.hbm, 259, rfl⟩
abbrev main_c_63 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_c_64 : Ref sig .tc := ⟨.hbm, 266, rfl⟩
abbrev main_v198 : Ref sig .tc := ⟨.hbm, 267, rfl⟩
abbrev main_c_65 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_c_66 : Ref sig .tc := ⟨.hbm, 274, rfl⟩
abbrev main_v204 : Ref sig .tc := ⟨.hbm, 275, rfl⟩
abbrev main_c_67 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_c_68 : Ref sig .tc := ⟨.hbm, 282, rfl⟩
abbrev main_v210 : Ref sig .tc := ⟨.hbm, 283, rfl⟩
abbrev main_c_69 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_c_70 : Ref sig .tc := ⟨.hbm, 290, rfl⟩
abbrev main_v216 : Ref sig .tc := ⟨.hbm, 291, rfl⟩
abbrev main_c_71 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_c_72 : Ref sig .tc := ⟨.hbm, 298, rfl⟩
abbrev main_v222 : Ref sig .tc := ⟨.hbm, 299, rfl⟩
abbrev main_c_73 : Ref sig .tc := ⟨.hbm, 300, rfl⟩
abbrev main_v223 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_c_74 : Ref sig .tc := ⟨.hbm, 306, rfl⟩
abbrev main_v228 : Ref sig .tc := ⟨.hbm, 307, rfl⟩
abbrev main_c_75 : Ref sig .tc := ⟨.hbm, 308, rfl⟩
abbrev main_v229 : Ref sig .tc := ⟨.hbm, 309, rfl⟩
abbrev main_v230 : Ref sig .tc := ⟨.hbm, 310, rfl⟩
abbrev main_v231 : Ref sig .tc := ⟨.hbm, 311, rfl⟩
abbrev main_v232 : Ref sig .tc := ⟨.hbm, 312, rfl⟩
abbrev main_v233 : Ref sig .tc := ⟨.hbm, 313, rfl⟩
abbrev main_c_76 : Ref sig .tc := ⟨.hbm, 314, rfl⟩
abbrev main_v234 : Ref sig .tc := ⟨.hbm, 315, rfl⟩
abbrev main_c_77 : Ref sig .tc := ⟨.hbm, 316, rfl⟩
abbrev main_v235 : Ref sig .tc := ⟨.hbm, 317, rfl⟩
abbrev main_v236 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_c_78 : Ref sig .tc := ⟨.hbm, 322, rfl⟩
abbrev main_v240 : Ref sig .tc := ⟨.hbm, 323, rfl⟩
abbrev main_c_79 : Ref sig .tc := ⟨.hbm, 324, rfl⟩
abbrev main_v241 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_v245 : Ref sig .tc := ⟨.hbm, 329, rfl⟩
abbrev main_c_80 : Ref sig .tc := ⟨.hbm, 330, rfl⟩
abbrev main_v246 : Ref sig .tc := ⟨.hbm, 331, rfl⟩
abbrev main_c_81 : Ref sig .tc := ⟨.hbm, 332, rfl⟩
abbrev main_v247 : Ref sig .tc := ⟨.hbm, 333, rfl⟩
abbrev main_v248 : Ref sig .tc := ⟨.hbm, 334, rfl⟩
abbrev main_v249 : Ref sig .tc := ⟨.hbm, 335, rfl⟩
abbrev main_v250 : Ref sig .tc := ⟨.hbm, 336, rfl⟩
abbrev main_v251 : Ref sig .tc := ⟨.hbm, 337, rfl⟩
abbrev main_c_82 : Ref sig .tc := ⟨.hbm, 338, rfl⟩
abbrev main_v252 : Ref sig .tc := ⟨.hbm, 339, rfl⟩
abbrev main_c_83 : Ref sig .tc := ⟨.hbm, 340, rfl⟩
abbrev main_v253 : Ref sig .tc := ⟨.hbm, 341, rfl⟩
abbrev main_v254 : Ref sig .tc := ⟨.hbm, 342, rfl⟩
abbrev main_v255 : Ref sig .tc := ⟨.hbm, 343, rfl⟩
abbrev main_v256 : Ref sig .tc := ⟨.hbm, 344, rfl⟩
abbrev main_v257 : Ref sig .tc := ⟨.hbm, 345, rfl⟩
abbrev main_c_84 : Ref sig .tc := ⟨.hbm, 346, rfl⟩
abbrev main_v258 : Ref sig .tc := ⟨.hbm, 347, rfl⟩
abbrev main_c_85 : Ref sig .tc := ⟨.hbm, 348, rfl⟩
abbrev main_v259 : Ref sig .tc := ⟨.hbm, 349, rfl⟩
abbrev main_v260 : Ref sig .tc := ⟨.hbm, 350, rfl⟩
abbrev main_v261 : Ref sig .tc := ⟨.hbm, 351, rfl⟩
abbrev main_v262 : Ref sig .tc := ⟨.hbm, 352, rfl⟩
abbrev main_v263 : Ref sig .tc := ⟨.hbm, 353, rfl⟩
abbrev main_c_86 : Ref sig .tc := ⟨.hbm, 354, rfl⟩
abbrev main_v264 : Ref sig .tc := ⟨.hbm, 355, rfl⟩
abbrev main_c_87 : Ref sig .tc := ⟨.hbm, 356, rfl⟩
abbrev main_v265 : Ref sig .tc := ⟨.hbm, 357, rfl⟩
abbrev main_v266 : Ref sig .tc := ⟨.hbm, 358, rfl⟩
abbrev main_v267 : Ref sig .tc := ⟨.hbm, 359, rfl⟩
abbrev main_v268 : Ref sig .tc := ⟨.hbm, 360, rfl⟩
abbrev main_v269 : Ref sig .tc := ⟨.hbm, 361, rfl⟩
abbrev main_c_88 : Ref sig .tc := ⟨.hbm, 362, rfl⟩
abbrev main_v270 : Ref sig .tc := ⟨.hbm, 363, rfl⟩
abbrev main_c_89 : Ref sig .tc := ⟨.hbm, 364, rfl⟩
abbrev main_v271 : Ref sig .tc := ⟨.hbm, 365, rfl⟩
abbrev main_v272 : Ref sig .tc := ⟨.hbm, 366, rfl⟩
abbrev main_v273 : Ref sig .tc := ⟨.hbm, 367, rfl⟩
abbrev main_v274 : Ref sig .tc := ⟨.hbm, 368, rfl⟩
abbrev main_v275 : Ref sig .tc := ⟨.hbm, 369, rfl⟩
abbrev main_c_90 : Ref sig .tc := ⟨.hbm, 370, rfl⟩
abbrev main_v276 : Ref sig .tc := ⟨.hbm, 371, rfl⟩
abbrev main_c_91 : Ref sig .tc := ⟨.hbm, 372, rfl⟩
abbrev main_v277 : Ref sig .tc := ⟨.hbm, 373, rfl⟩
abbrev main_v278 : Ref sig .tc := ⟨.hbm, 374, rfl⟩
abbrev main_v279 : Ref sig .tc := ⟨.hbm, 375, rfl⟩
abbrev main_v280 : Ref sig .tc := ⟨.hbm, 376, rfl⟩
abbrev main_v281 : Ref sig .tc := ⟨.hbm, 377, rfl⟩
abbrev main_c_92 : Ref sig .tc := ⟨.hbm, 378, rfl⟩
abbrev main_v282 : Ref sig .tc := ⟨.hbm, 379, rfl⟩
abbrev main_c_93 : Ref sig .tc := ⟨.hbm, 380, rfl⟩
abbrev main_v283 : Ref sig .tc := ⟨.hbm, 381, rfl⟩
abbrev main_v284 : Ref sig .tc := ⟨.hbm, 382, rfl⟩
abbrev main_v285 : Ref sig .tc := ⟨.hbm, 383, rfl⟩
abbrev main_v286 : Ref sig .tc := ⟨.hbm, 384, rfl⟩
abbrev main_v287 : Ref sig .tc := ⟨.hbm, 385, rfl⟩
abbrev main_c_94 : Ref sig .tc := ⟨.hbm, 386, rfl⟩
abbrev main_v288 : Ref sig .tc := ⟨.hbm, 387, rfl⟩
abbrev main_c_95 : Ref sig .tc := ⟨.hbm, 388, rfl⟩
abbrev main_v289 : Ref sig .tc := ⟨.hbm, 389, rfl⟩
abbrev main_v290 : Ref sig .tc := ⟨.hbm, 390, rfl⟩
abbrev main_v291 : Ref sig .tc := ⟨.hbm, 391, rfl⟩
abbrev main_v292 : Ref sig .tc := ⟨.hbm, 392, rfl⟩
abbrev main_v293 : Ref sig .tc := ⟨.hbm, 393, rfl⟩
abbrev main_c_96 : Ref sig .tc := ⟨.hbm, 394, rfl⟩
abbrev main_v294 : Ref sig .tc := ⟨.hbm, 395, rfl⟩
abbrev main_c_97 : Ref sig .tc := ⟨.hbm, 396, rfl⟩
abbrev main_v295 : Ref sig .tc := ⟨.hbm, 397, rfl⟩
abbrev main_v296 : Ref sig .tc := ⟨.hbm, 398, rfl⟩
abbrev main_v297 : Ref sig .tc := ⟨.hbm, 399, rfl⟩
abbrev main_v298 : Ref sig .tc := ⟨.hbm, 400, rfl⟩
abbrev main_v299 : Ref sig .tc := ⟨.hbm, 401, rfl⟩
abbrev main_c_98 : Ref sig .tc := ⟨.hbm, 402, rfl⟩
abbrev main_v300 : Ref sig .tc := ⟨.hbm, 403, rfl⟩
abbrev main_c_99 : Ref sig .tc := ⟨.hbm, 404, rfl⟩
abbrev main_v301 : Ref sig .tc := ⟨.hbm, 405, rfl⟩
abbrev main_v302 : Ref sig .tc := ⟨.hbm, 406, rfl⟩
abbrev main_v303 : Ref sig .tc := ⟨.hbm, 407, rfl⟩
abbrev main_v304 : Ref sig .tc := ⟨.hbm, 408, rfl⟩
abbrev main_v305 : Ref sig .tc := ⟨.hbm, 409, rfl⟩
abbrev main_c_100 : Ref sig .tc := ⟨.hbm, 410, rfl⟩
abbrev main_v306 : Ref sig .tc := ⟨.hbm, 411, rfl⟩
abbrev main_c_101 : Ref sig .tc := ⟨.hbm, 412, rfl⟩
abbrev main_v307 : Ref sig .tc := ⟨.hbm, 413, rfl⟩
abbrev main_v308 : Ref sig .tc := ⟨.hbm, 414, rfl⟩
abbrev main_v309 : Ref sig .tc := ⟨.hbm, 415, rfl⟩
abbrev main_v310 : Ref sig .tc := ⟨.hbm, 416, rfl⟩
abbrev main_v311 : Ref sig .tc := ⟨.hbm, 417, rfl⟩
abbrev main_c_102 : Ref sig .tc := ⟨.hbm, 418, rfl⟩
abbrev main_v312 : Ref sig .tc := ⟨.hbm, 419, rfl⟩
abbrev main_c_103 : Ref sig .tc := ⟨.hbm, 420, rfl⟩
abbrev main_v313 : Ref sig .tc := ⟨.hbm, 421, rfl⟩
abbrev main_v314 : Ref sig .tc := ⟨.hbm, 422, rfl⟩
abbrev main_v315 : Ref sig .tc := ⟨.hbm, 423, rfl⟩
abbrev main_v316 : Ref sig .tc := ⟨.hbm, 424, rfl⟩
abbrev main_v317 : Ref sig .tc := ⟨.hbm, 425, rfl⟩
abbrev main_c_104 : Ref sig .tc := ⟨.hbm, 426, rfl⟩
abbrev main_v318 : Ref sig .tc := ⟨.hbm, 427, rfl⟩
abbrev main_c_105 : Ref sig .tc := ⟨.hbm, 428, rfl⟩
abbrev main_v319 : Ref sig .tc := ⟨.hbm, 429, rfl⟩
abbrev main_v320 : Ref sig .tc := ⟨.hbm, 430, rfl⟩
abbrev main_v321 : Ref sig .tc := ⟨.hbm, 431, rfl⟩
abbrev main_v322 : Ref sig .tc := ⟨.hbm, 432, rfl⟩
abbrev main_v323 : Ref sig .tc := ⟨.hbm, 433, rfl⟩
abbrev main_c_106 : Ref sig .tc := ⟨.hbm, 434, rfl⟩
abbrev main_v324 : Ref sig .tc := ⟨.hbm, 435, rfl⟩
abbrev main_c_107 : Ref sig .tc := ⟨.hbm, 436, rfl⟩
abbrev main_v325 : Ref sig .tc := ⟨.hbm, 437, rfl⟩
abbrev main_v326 : Ref sig .tc := ⟨.hbm, 438, rfl⟩
abbrev main_v327 : Ref sig .tc := ⟨.hbm, 439, rfl⟩
abbrev main_v328 : Ref sig .tc := ⟨.hbm, 440, rfl⟩
abbrev main_v329 : Ref sig .tc := ⟨.hbm, 441, rfl⟩
abbrev main_c_108 : Ref sig .tc := ⟨.hbm, 442, rfl⟩
abbrev main_v330 : Ref sig .tc := ⟨.hbm, 443, rfl⟩
abbrev main_c_109 : Ref sig .tc := ⟨.hbm, 444, rfl⟩
abbrev main_v331 : Ref sig .tc := ⟨.hbm, 445, rfl⟩
abbrev main_v332 : Ref sig .tc := ⟨.hbm, 446, rfl⟩
abbrev main_v333 : Ref sig .tc := ⟨.hbm, 447, rfl⟩
abbrev main_v334 : Ref sig .tc := ⟨.hbm, 448, rfl⟩
abbrev main_v335 : Ref sig .tc := ⟨.hbm, 449, rfl⟩
abbrev main_c_110 : Ref sig .tc := ⟨.hbm, 450, rfl⟩
abbrev main_v336 : Ref sig .tc := ⟨.hbm, 451, rfl⟩
abbrev main_c_111 : Ref sig .tc := ⟨.hbm, 452, rfl⟩
abbrev main_v337 : Ref sig .tc := ⟨.hbm, 453, rfl⟩
abbrev main_v338 : Ref sig .tc := ⟨.hbm, 454, rfl⟩
abbrev main_v339 : Ref sig .tc := ⟨.hbm, 455, rfl⟩
abbrev main_v340 : Ref sig .tc := ⟨.hbm, 456, rfl⟩
abbrev main_v341 : Ref sig .tc := ⟨.hbm, 457, rfl⟩
abbrev main_c_112 : Ref sig .tc := ⟨.hbm, 458, rfl⟩
abbrev main_v342 : Ref sig .tc := ⟨.hbm, 459, rfl⟩
abbrev main_c_113 : Ref sig .tc := ⟨.hbm, 460, rfl⟩
abbrev main_v343 : Ref sig .tc := ⟨.hbm, 461, rfl⟩
abbrev main_v344 : Ref sig .tc := ⟨.hbm, 462, rfl⟩
abbrev main_v345 : Ref sig .tc := ⟨.hbm, 463, rfl⟩
abbrev main_v346 : Ref sig .tc := ⟨.hbm, 464, rfl⟩
abbrev main_v347 : Ref sig .tc := ⟨.hbm, 465, rfl⟩
abbrev main_c_114 : Ref sig .tc := ⟨.hbm, 466, rfl⟩
abbrev main_v348 : Ref sig .tc := ⟨.hbm, 467, rfl⟩
abbrev main_c_115 : Ref sig .tc := ⟨.hbm, 468, rfl⟩
abbrev main_v349 : Ref sig .tc := ⟨.hbm, 469, rfl⟩
abbrev main_v350 : Ref sig .tc := ⟨.hbm, 470, rfl⟩
abbrev main_v351 : Ref sig .tc := ⟨.hbm, 471, rfl⟩
abbrev main_v352 : Ref sig .tc := ⟨.hbm, 472, rfl⟩
abbrev main_v353 : Ref sig .tc := ⟨.hbm, 473, rfl⟩
abbrev main_c_116 : Ref sig .tc := ⟨.hbm, 474, rfl⟩
abbrev main_v354 : Ref sig .tc := ⟨.hbm, 475, rfl⟩
abbrev main_c_117 : Ref sig .tc := ⟨.hbm, 476, rfl⟩
abbrev main_v355 : Ref sig .tc := ⟨.hbm, 477, rfl⟩
abbrev main_v356 : Ref sig .tc := ⟨.hbm, 478, rfl⟩
abbrev main_v357 : Ref sig .tc := ⟨.hbm, 479, rfl⟩
abbrev main_v358 : Ref sig .tc := ⟨.hbm, 480, rfl⟩
abbrev main_v359 : Ref sig .tc := ⟨.hbm, 481, rfl⟩
abbrev main_c_118 : Ref sig .tc := ⟨.hbm, 482, rfl⟩
abbrev main_v360 : Ref sig .tc := ⟨.hbm, 483, rfl⟩
abbrev main_c_119 : Ref sig .tc := ⟨.hbm, 484, rfl⟩
abbrev main_v361 : Ref sig .tc := ⟨.hbm, 485, rfl⟩
abbrev main_v362 : Ref sig .tc := ⟨.hbm, 486, rfl⟩
abbrev main_v363 : Ref sig .tc := ⟨.hbm, 487, rfl⟩
abbrev main_v364 : Ref sig .tc := ⟨.hbm, 488, rfl⟩
abbrev main_v365 : Ref sig .tc := ⟨.hbm, 489, rfl⟩
abbrev main_c_120 : Ref sig .tc := ⟨.hbm, 490, rfl⟩
abbrev main_v366 : Ref sig .tc := ⟨.hbm, 491, rfl⟩
abbrev main_c_121 : Ref sig .tc := ⟨.hbm, 492, rfl⟩
abbrev main_v367 : Ref sig .tc := ⟨.hbm, 493, rfl⟩
abbrev main_v368 : Ref sig .tc := ⟨.hbm, 494, rfl⟩
abbrev main_v369 : Ref sig .tc := ⟨.hbm, 495, rfl⟩
abbrev main_v370 : Ref sig .tc := ⟨.hbm, 496, rfl⟩
abbrev main_v371 : Ref sig .tc := ⟨.hbm, 497, rfl⟩
abbrev main_c_122 : Ref sig .tc := ⟨.hbm, 498, rfl⟩
abbrev main_v372 : Ref sig .tc := ⟨.hbm, 499, rfl⟩
abbrev main_c_123 : Ref sig .tc := ⟨.hbm, 500, rfl⟩
abbrev main_v373 : Ref sig .tc := ⟨.hbm, 501, rfl⟩
abbrev main_v374 : Ref sig .tc := ⟨.hbm, 502, rfl⟩
abbrev main_v375 : Ref sig .tc := ⟨.hbm, 503, rfl⟩
abbrev main_v376 : Ref sig .tc := ⟨.hbm, 504, rfl⟩
abbrev main_v377 : Ref sig .tc := ⟨.hbm, 505, rfl⟩
abbrev main_c_124 : Ref sig .tc := ⟨.hbm, 506, rfl⟩
abbrev main_v378 : Ref sig .tc := ⟨.hbm, 507, rfl⟩
abbrev main_c_125 : Ref sig .tc := ⟨.hbm, 508, rfl⟩
abbrev main_v379 : Ref sig .tc := ⟨.hbm, 509, rfl⟩
abbrev main_v380 : Ref sig .tc := ⟨.hbm, 510, rfl⟩
abbrev main_v381 : Ref sig .tc := ⟨.hbm, 511, rfl⟩
abbrev main_v382 : Ref sig .tc := ⟨.hbm, 512, rfl⟩
abbrev main_v383 : Ref sig .tc := ⟨.hbm, 513, rfl⟩
abbrev main_c_126 : Ref sig .tc := ⟨.hbm, 514, rfl⟩
abbrev main_v384 : Ref sig .tc := ⟨.hbm, 515, rfl⟩
abbrev main_c_127 : Ref sig .tc := ⟨.hbm, 516, rfl⟩
abbrev main_v385 : Ref sig .tc := ⟨.hbm, 517, rfl⟩
abbrev main_v386 : Ref sig .tc := ⟨.hbm, 518, rfl⟩
abbrev main_v387 : Ref sig .tc := ⟨.hbm, 519, rfl⟩
abbrev main_v388 : Ref sig .tc := ⟨.hbm, 520, rfl⟩
abbrev main_v389 : Ref sig .tc := ⟨.hbm, 521, rfl⟩
abbrev main_c_128 : Ref sig .tc := ⟨.hbm, 522, rfl⟩
abbrev main_v390 : Ref sig .tc := ⟨.hbm, 523, rfl⟩
abbrev main_c_129 : Ref sig .tc := ⟨.hbm, 524, rfl⟩
abbrev main_v391 : Ref sig .tc := ⟨.hbm, 525, rfl⟩
abbrev main_v392 : Ref sig .tc := ⟨.hbm, 526, rfl⟩
abbrev main_v393 : Ref sig .tc := ⟨.hbm, 527, rfl⟩
abbrev main_cst_130 : Ref sig .tc := ⟨.hbm, 528, rfl⟩
abbrev main_v394 : Ref sig .tc := ⟨.hbm, 529, rfl⟩
abbrev main_c_131 : Ref sig .tc := ⟨.hbm, 530, rfl⟩
abbrev main_v395 : Ref sig .tc := ⟨.hbm, 531, rfl⟩
abbrev main_v396 : Ref sig .tc := ⟨.hbm, 532, rfl⟩
abbrev main_c_132 : Ref sig .tc := ⟨.hbm, 533, rfl⟩
abbrev main_v397 : Ref sig .tc := ⟨.hbm, 534, rfl⟩
abbrev main_v398 : Ref sig .tc := ⟨.hbm, 535, rfl⟩
abbrev main_v399 : Ref sig .tc := ⟨.hbm, 536, rfl⟩
abbrev main_v400 : Ref sig .tc := ⟨.hbm, 537, rfl⟩
abbrev main_cst_133 : Ref sig .tc := ⟨.hbm, 538, rfl⟩
abbrev main_v401 : Ref sig .tc := ⟨.hbm, 539, rfl⟩
abbrev main_v402 : Ref sig .tc := ⟨.hbm, 540, rfl⟩
abbrev main_v403 : Ref sig .tc := ⟨.hbm, 541, rfl⟩
abbrev main_cst_134 : Ref sig .tc := ⟨.hbm, 542, rfl⟩
abbrev main_v404 : Ref sig .tc := ⟨.hbm, 543, rfl⟩
abbrev main_v405 : Ref sig .tc := ⟨.hbm, 544, rfl⟩
abbrev main_v406 : Ref sig .tc := ⟨.hbm, 545, rfl⟩
abbrev main_c_135 : Ref sig .tc := ⟨.hbm, 546, rfl⟩
abbrev main_v407 : Ref sig .tc := ⟨.hbm, 547, rfl⟩
abbrev main_c_136 : Ref sig .tc := ⟨.hbm, 548, rfl⟩
abbrev main_v408 : Ref sig .tc := ⟨.hbm, 549, rfl⟩
abbrev main_v409 : Ref sig .tc := ⟨.hbm, 550, rfl⟩
abbrev main_v410 : Ref sig .tc := ⟨.hbm, 551, rfl⟩
abbrev main_v411 : Ref sig .tc := ⟨.hbm, 552, rfl⟩
abbrev main_v412 : Ref sig .tc := ⟨.hbm, 553, rfl⟩
abbrev main_c_137 : Ref sig .tc := ⟨.hbm, 554, rfl⟩
abbrev main_v413 : Ref sig .tc := ⟨.hbm, 555, rfl⟩
abbrev main_c_138 : Ref sig .tc := ⟨.hbm, 556, rfl⟩
abbrev main_v414 : Ref sig .tc := ⟨.hbm, 557, rfl⟩
abbrev main_v415 : Ref sig .tc := ⟨.hbm, 558, rfl⟩
abbrev main_v416 : Ref sig .tc := ⟨.hbm, 559, rfl⟩
abbrev main_v417 : Ref sig .tc := ⟨.hbm, 560, rfl⟩
abbrev main_v418 : Ref sig .tc := ⟨.hbm, 561, rfl⟩
abbrev main_c_139 : Ref sig .tc := ⟨.hbm, 562, rfl⟩
abbrev main_v419 : Ref sig .tc := ⟨.hbm, 563, rfl⟩
abbrev main_c_140 : Ref sig .tc := ⟨.hbm, 564, rfl⟩
abbrev main_v420 : Ref sig .tc := ⟨.hbm, 565, rfl⟩
abbrev main_v421 : Ref sig .tc := ⟨.hbm, 566, rfl⟩
abbrev main_v422 : Ref sig .tc := ⟨.hbm, 567, rfl⟩
abbrev main_v423 : Ref sig .tc := ⟨.hbm, 568, rfl⟩
abbrev main_v424 : Ref sig .tc := ⟨.hbm, 569, rfl⟩
abbrev main_c_141 : Ref sig .tc := ⟨.hbm, 570, rfl⟩
abbrev main_v425 : Ref sig .tc := ⟨.hbm, 571, rfl⟩
abbrev main_c_142 : Ref sig .tc := ⟨.hbm, 572, rfl⟩
abbrev main_v426 : Ref sig .tc := ⟨.hbm, 573, rfl⟩
abbrev main_v427 : Ref sig .tc := ⟨.hbm, 574, rfl⟩
abbrev main_v428 : Ref sig .tc := ⟨.hbm, 575, rfl⟩
abbrev main_v429 : Ref sig .tc := ⟨.hbm, 576, rfl⟩
abbrev main_v430 : Ref sig .tc := ⟨.hbm, 577, rfl⟩
abbrev main_c_143 : Ref sig .tc := ⟨.hbm, 578, rfl⟩
abbrev main_v431 : Ref sig .tc := ⟨.hbm, 579, rfl⟩
abbrev main_c_144 : Ref sig .tc := ⟨.hbm, 580, rfl⟩
abbrev main_v432 : Ref sig .tc := ⟨.hbm, 581, rfl⟩
abbrev main_v433 : Ref sig .tc := ⟨.hbm, 582, rfl⟩
abbrev main_v434 : Ref sig .tc := ⟨.hbm, 583, rfl⟩
abbrev main_v435 : Ref sig .tc := ⟨.hbm, 584, rfl⟩
abbrev main_v436 : Ref sig .tc := ⟨.hbm, 585, rfl⟩
abbrev main_c_145 : Ref sig .tc := ⟨.hbm, 586, rfl⟩
abbrev main_v437 : Ref sig .tc := ⟨.hbm, 587, rfl⟩
abbrev main_c_146 : Ref sig .tc := ⟨.hbm, 588, rfl⟩
abbrev main_v438 : Ref sig .tc := ⟨.hbm, 589, rfl⟩
abbrev main_v439 : Ref sig .tc := ⟨.hbm, 590, rfl⟩
abbrev main_v440 : Ref sig .tc := ⟨.hbm, 591, rfl⟩
abbrev main_v441 : Ref sig .tc := ⟨.hbm, 592, rfl⟩
abbrev main_v442 : Ref sig .tc := ⟨.hbm, 593, rfl⟩
abbrev main_c_147 : Ref sig .tc := ⟨.hbm, 594, rfl⟩
abbrev main_v443 : Ref sig .tc := ⟨.hbm, 595, rfl⟩
abbrev main_c_148 : Ref sig .tc := ⟨.hbm, 596, rfl⟩
abbrev main_v444 : Ref sig .tc := ⟨.hbm, 597, rfl⟩
abbrev main_v445 : Ref sig .tc := ⟨.hbm, 598, rfl⟩
abbrev main_v446 : Ref sig .tc := ⟨.hbm, 599, rfl⟩
abbrev main_v447 : Ref sig .tc := ⟨.hbm, 600, rfl⟩
abbrev main_v448 : Ref sig .tc := ⟨.hbm, 601, rfl⟩
abbrev main_c_149 : Ref sig .tc := ⟨.hbm, 602, rfl⟩
abbrev main_v449 : Ref sig .tc := ⟨.hbm, 603, rfl⟩
abbrev main_c_150 : Ref sig .tc := ⟨.hbm, 604, rfl⟩
abbrev main_v450 : Ref sig .tc := ⟨.hbm, 605, rfl⟩
abbrev main_v451 : Ref sig .tc := ⟨.hbm, 606, rfl⟩
abbrev main_v452 : Ref sig .tc := ⟨.hbm, 607, rfl⟩
abbrev main_v453 : Ref sig .tc := ⟨.hbm, 608, rfl⟩
abbrev main_v454 : Ref sig .tc := ⟨.hbm, 609, rfl⟩
abbrev main_c_151 : Ref sig .tc := ⟨.hbm, 610, rfl⟩
abbrev main_v455 : Ref sig .tc := ⟨.hbm, 611, rfl⟩
abbrev main_c_152 : Ref sig .tc := ⟨.hbm, 612, rfl⟩
abbrev main_v456 : Ref sig .tc := ⟨.hbm, 613, rfl⟩
abbrev main_v457 : Ref sig .tc := ⟨.hbm, 614, rfl⟩
abbrev main_v458 : Ref sig .tc := ⟨.hbm, 615, rfl⟩
abbrev main_v459 : Ref sig .tc := ⟨.hbm, 616, rfl⟩
abbrev main_v460 : Ref sig .tc := ⟨.hbm, 617, rfl⟩
abbrev main_c_153 : Ref sig .tc := ⟨.hbm, 618, rfl⟩
abbrev main_v461 : Ref sig .tc := ⟨.hbm, 619, rfl⟩
abbrev main_c_154 : Ref sig .tc := ⟨.hbm, 620, rfl⟩
abbrev main_v462 : Ref sig .tc := ⟨.hbm, 621, rfl⟩
abbrev main_v463 : Ref sig .tc := ⟨.hbm, 622, rfl⟩
abbrev main_v464 : Ref sig .tc := ⟨.hbm, 623, rfl⟩
abbrev main_v465 : Ref sig .tc := ⟨.hbm, 624, rfl⟩
abbrev main_v466 : Ref sig .tc := ⟨.hbm, 625, rfl⟩
abbrev main_c_155 : Ref sig .tc := ⟨.hbm, 626, rfl⟩
abbrev main_v467 : Ref sig .tc := ⟨.hbm, 627, rfl⟩
abbrev main_c_156 : Ref sig .tc := ⟨.hbm, 628, rfl⟩
abbrev main_v468 : Ref sig .tc := ⟨.hbm, 629, rfl⟩
abbrev main_v469 : Ref sig .tc := ⟨.hbm, 630, rfl⟩
abbrev main_v470 : Ref sig .tc := ⟨.hbm, 631, rfl⟩
abbrev main_v471 : Ref sig .tc := ⟨.hbm, 632, rfl⟩
abbrev main_v472 : Ref sig .tc := ⟨.hbm, 633, rfl⟩
abbrev main_c_157 : Ref sig .tc := ⟨.hbm, 634, rfl⟩
abbrev main_v473 : Ref sig .tc := ⟨.hbm, 635, rfl⟩
abbrev main_c_158 : Ref sig .tc := ⟨.hbm, 636, rfl⟩
abbrev main_v474 : Ref sig .tc := ⟨.hbm, 637, rfl⟩
abbrev main_v475 : Ref sig .tc := ⟨.hbm, 638, rfl⟩
abbrev main_v476 : Ref sig .tc := ⟨.hbm, 639, rfl⟩
abbrev main_v477 : Ref sig .tc := ⟨.hbm, 640, rfl⟩
abbrev main_v478 : Ref sig .tc := ⟨.hbm, 641, rfl⟩
abbrev main_c_159 : Ref sig .tc := ⟨.hbm, 642, rfl⟩
abbrev main_v479 : Ref sig .tc := ⟨.hbm, 643, rfl⟩
abbrev main_c_160 : Ref sig .tc := ⟨.hbm, 644, rfl⟩
abbrev main_v480 : Ref sig .tc := ⟨.hbm, 645, rfl⟩
abbrev main_v481 : Ref sig .tc := ⟨.hbm, 646, rfl⟩
abbrev main_v482 : Ref sig .tc := ⟨.hbm, 647, rfl⟩
abbrev main_v483 : Ref sig .tc := ⟨.hbm, 648, rfl⟩
abbrev main_v484 : Ref sig .tc := ⟨.hbm, 649, rfl⟩
abbrev main_c_161 : Ref sig .tc := ⟨.hbm, 650, rfl⟩
abbrev main_v485 : Ref sig .tc := ⟨.hbm, 651, rfl⟩
abbrev main_c_162 : Ref sig .tc := ⟨.hbm, 652, rfl⟩
abbrev main_v486 : Ref sig .tc := ⟨.hbm, 653, rfl⟩
abbrev main_v487 : Ref sig .tc := ⟨.hbm, 654, rfl⟩
abbrev main_v488 : Ref sig .tc := ⟨.hbm, 655, rfl⟩
abbrev main_v489 : Ref sig .tc := ⟨.hbm, 656, rfl⟩
abbrev main_v490 : Ref sig .tc := ⟨.hbm, 657, rfl⟩
abbrev main_c_163 : Ref sig .tc := ⟨.hbm, 658, rfl⟩
abbrev main_v491 : Ref sig .tc := ⟨.hbm, 659, rfl⟩
abbrev main_c_164 : Ref sig .tc := ⟨.hbm, 660, rfl⟩
abbrev main_v492 : Ref sig .tc := ⟨.hbm, 661, rfl⟩
abbrev main_v493 : Ref sig .tc := ⟨.hbm, 662, rfl⟩
abbrev main_v494 : Ref sig .tc := ⟨.hbm, 663, rfl⟩
abbrev main_v495 : Ref sig .tc := ⟨.hbm, 664, rfl⟩
abbrev main_v496 : Ref sig .tc := ⟨.hbm, 665, rfl⟩
abbrev main_c_165 : Ref sig .tc := ⟨.hbm, 666, rfl⟩
abbrev main_v497 : Ref sig .tc := ⟨.hbm, 667, rfl⟩
abbrev main_c_166 : Ref sig .tc := ⟨.hbm, 668, rfl⟩
abbrev main_v498 : Ref sig .tc := ⟨.hbm, 669, rfl⟩
abbrev main_v499 : Ref sig .tc := ⟨.hbm, 670, rfl⟩
abbrev main_v500 : Ref sig .tc := ⟨.hbm, 671, rfl⟩
abbrev main_v501 : Ref sig .tc := ⟨.hbm, 672, rfl⟩
abbrev main_v502 : Ref sig .tc := ⟨.hbm, 673, rfl⟩
abbrev main_c_167 : Ref sig .tc := ⟨.hbm, 674, rfl⟩
abbrev main_v503 : Ref sig .tc := ⟨.hbm, 675, rfl⟩
abbrev main_c_168 : Ref sig .tc := ⟨.hbm, 676, rfl⟩
abbrev main_v504 : Ref sig .tc := ⟨.hbm, 677, rfl⟩
abbrev main_v505 : Ref sig .tc := ⟨.hbm, 678, rfl⟩
abbrev main_v506 : Ref sig .tc := ⟨.hbm, 679, rfl⟩
abbrev main_v507 : Ref sig .tc := ⟨.hbm, 680, rfl⟩
abbrev main_v508 : Ref sig .tc := ⟨.hbm, 681, rfl⟩
abbrev main_c_169 : Ref sig .tc := ⟨.hbm, 682, rfl⟩
abbrev main_v509 : Ref sig .tc := ⟨.hbm, 683, rfl⟩
abbrev main_c_170 : Ref sig .tc := ⟨.hbm, 684, rfl⟩
abbrev main_v510 : Ref sig .tc := ⟨.hbm, 685, rfl⟩
abbrev main_v511 : Ref sig .tc := ⟨.hbm, 686, rfl⟩
abbrev main_v512 : Ref sig .tc := ⟨.hbm, 687, rfl⟩
abbrev main_v513 : Ref sig .tc := ⟨.hbm, 688, rfl⟩
abbrev main_v514 : Ref sig .tc := ⟨.hbm, 689, rfl⟩
abbrev main_c_171 : Ref sig .tc := ⟨.hbm, 690, rfl⟩
abbrev main_v515 : Ref sig .tc := ⟨.hbm, 691, rfl⟩
abbrev main_c_172 : Ref sig .tc := ⟨.hbm, 692, rfl⟩
abbrev main_v516 : Ref sig .tc := ⟨.hbm, 693, rfl⟩
abbrev main_v517 : Ref sig .tc := ⟨.hbm, 694, rfl⟩
abbrev main_v518 : Ref sig .tc := ⟨.hbm, 695, rfl⟩
abbrev main_v519 : Ref sig .tc := ⟨.hbm, 696, rfl⟩
abbrev main_v520 : Ref sig .tc := ⟨.hbm, 697, rfl⟩
abbrev main_c_173 : Ref sig .tc := ⟨.hbm, 698, rfl⟩
abbrev main_v521 : Ref sig .tc := ⟨.hbm, 699, rfl⟩
abbrev main_c_174 : Ref sig .tc := ⟨.hbm, 700, rfl⟩
abbrev main_v522 : Ref sig .tc := ⟨.hbm, 701, rfl⟩
abbrev main_v523 : Ref sig .tc := ⟨.hbm, 702, rfl⟩
abbrev main_v524 : Ref sig .tc := ⟨.hbm, 703, rfl⟩
abbrev main_v525 : Ref sig .tc := ⟨.hbm, 704, rfl⟩
abbrev main_v526 : Ref sig .tc := ⟨.hbm, 705, rfl⟩
abbrev main_c_175 : Ref sig .tc := ⟨.hbm, 706, rfl⟩
abbrev main_v527 : Ref sig .tc := ⟨.hbm, 707, rfl⟩
abbrev main_c_176 : Ref sig .tc := ⟨.hbm, 708, rfl⟩
abbrev main_v528 : Ref sig .tc := ⟨.hbm, 709, rfl⟩
abbrev main_v529 : Ref sig .tc := ⟨.hbm, 710, rfl⟩
abbrev main_v530 : Ref sig .tc := ⟨.hbm, 711, rfl⟩
abbrev main_v531 : Ref sig .tc := ⟨.hbm, 712, rfl⟩
abbrev main_v532 : Ref sig .tc := ⟨.hbm, 713, rfl⟩
abbrev main_c_177 : Ref sig .tc := ⟨.hbm, 714, rfl⟩
abbrev main_v533 : Ref sig .tc := ⟨.hbm, 715, rfl⟩
abbrev main_c_178 : Ref sig .tc := ⟨.hbm, 716, rfl⟩
abbrev main_v534 : Ref sig .tc := ⟨.hbm, 717, rfl⟩
abbrev main_v535 : Ref sig .tc := ⟨.hbm, 718, rfl⟩
abbrev main_v536 : Ref sig .tc := ⟨.hbm, 719, rfl⟩
abbrev main_v537 : Ref sig .tc := ⟨.hbm, 720, rfl⟩
abbrev main_v538 : Ref sig .tc := ⟨.hbm, 721, rfl⟩
abbrev main_c_179 : Ref sig .tc := ⟨.hbm, 722, rfl⟩
abbrev main_v539 : Ref sig .tc := ⟨.hbm, 723, rfl⟩
abbrev main_c_180 : Ref sig .tc := ⟨.hbm, 724, rfl⟩
abbrev main_v540 : Ref sig .tc := ⟨.hbm, 725, rfl⟩
abbrev main_v541 : Ref sig .tc := ⟨.hbm, 726, rfl⟩
abbrev main_v542 : Ref sig .tc := ⟨.hbm, 727, rfl⟩
abbrev main_v543 : Ref sig .tc := ⟨.hbm, 728, rfl⟩
abbrev main_v544 : Ref sig .tc := ⟨.hbm, 729, rfl⟩
abbrev main_c_181 : Ref sig .tc := ⟨.hbm, 730, rfl⟩
abbrev main_v545 : Ref sig .tc := ⟨.hbm, 731, rfl⟩
abbrev main_c_182 : Ref sig .tc := ⟨.hbm, 732, rfl⟩
abbrev main_v546 : Ref sig .tc := ⟨.hbm, 733, rfl⟩
abbrev main_v547 : Ref sig .tc := ⟨.hbm, 734, rfl⟩
abbrev main_v548 : Ref sig .tc := ⟨.hbm, 735, rfl⟩
abbrev main_v549 : Ref sig .tc := ⟨.hbm, 736, rfl⟩
abbrev main_v550 : Ref sig .tc := ⟨.hbm, 737, rfl⟩
abbrev main_c_183 : Ref sig .tc := ⟨.hbm, 738, rfl⟩
abbrev main_v551 : Ref sig .tc := ⟨.hbm, 739, rfl⟩
abbrev main_c_184 : Ref sig .tc := ⟨.hbm, 740, rfl⟩
abbrev main_v552 : Ref sig .tc := ⟨.hbm, 741, rfl⟩
abbrev main_v553 : Ref sig .tc := ⟨.hbm, 742, rfl⟩
abbrev main_v554 : Ref sig .tc := ⟨.hbm, 743, rfl⟩
abbrev main_v555 : Ref sig .tc := ⟨.hbm, 744, rfl⟩
abbrev main_v556 : Ref sig .tc := ⟨.hbm, 745, rfl⟩
abbrev main_c_185 : Ref sig .tc := ⟨.hbm, 746, rfl⟩
abbrev main_v557 : Ref sig .tc := ⟨.hbm, 747, rfl⟩
abbrev main_c_186 : Ref sig .tc := ⟨.hbm, 748, rfl⟩
abbrev main_v558 : Ref sig .tc := ⟨.hbm, 749, rfl⟩
abbrev main_v559 : Ref sig .tc := ⟨.hbm, 750, rfl⟩
abbrev main_v560 : Ref sig .tc := ⟨.hbm, 751, rfl⟩
abbrev main_v561 : Ref sig .tc := ⟨.hbm, 752, rfl⟩
abbrev main_v562 : Ref sig .tc := ⟨.hbm, 753, rfl⟩
abbrev main_c_187 : Ref sig .tc := ⟨.hbm, 754, rfl⟩
abbrev main_v563 : Ref sig .tc := ⟨.hbm, 755, rfl⟩
abbrev main_c_188 : Ref sig .tc := ⟨.hbm, 756, rfl⟩
abbrev main_v564 : Ref sig .tc := ⟨.hbm, 757, rfl⟩
abbrev main_v565 : Ref sig .tc := ⟨.hbm, 758, rfl⟩
abbrev main_v566 : Ref sig .tc := ⟨.hbm, 759, rfl⟩
abbrev main_v567 : Ref sig .tc := ⟨.hbm, 760, rfl⟩
abbrev main_v568 : Ref sig .tc := ⟨.hbm, 761, rfl⟩
abbrev main_c_189 : Ref sig .tc := ⟨.hbm, 762, rfl⟩
abbrev main_v569 : Ref sig .tc := ⟨.hbm, 763, rfl⟩
abbrev main_c_190 : Ref sig .tc := ⟨.hbm, 764, rfl⟩
abbrev main_v570 : Ref sig .tc := ⟨.hbm, 765, rfl⟩
abbrev main_v571 : Ref sig .tc := ⟨.hbm, 766, rfl⟩
abbrev main_v572 : Ref sig .tc := ⟨.hbm, 767, rfl⟩
abbrev main_v573 : Ref sig .tc := ⟨.hbm, 768, rfl⟩
abbrev main_v574 : Ref sig .tc := ⟨.hbm, 769, rfl⟩
abbrev main_c_191 : Ref sig .tc := ⟨.hbm, 770, rfl⟩
abbrev main_v575 : Ref sig .tc := ⟨.hbm, 771, rfl⟩
abbrev main_c_192 : Ref sig .tc := ⟨.hbm, 772, rfl⟩
abbrev main_v576 : Ref sig .tc := ⟨.hbm, 773, rfl⟩
abbrev main_v577 : Ref sig .tc := ⟨.hbm, 774, rfl⟩
abbrev main_v578 : Ref sig .tc := ⟨.hbm, 775, rfl⟩
abbrev main_v579 : Ref sig .tc := ⟨.hbm, 776, rfl⟩
abbrev main_v580 : Ref sig .tc := ⟨.hbm, 777, rfl⟩
abbrev main_c_193 : Ref sig .tc := ⟨.hbm, 778, rfl⟩
abbrev main_v581 : Ref sig .tc := ⟨.hbm, 779, rfl⟩
abbrev main_c_194 : Ref sig .tc := ⟨.hbm, 780, rfl⟩
abbrev main_v582 : Ref sig .tc := ⟨.hbm, 781, rfl⟩
abbrev main_v583 : Ref sig .tc := ⟨.hbm, 782, rfl⟩
abbrev main_v584 : Ref sig .tc := ⟨.hbm, 783, rfl⟩
abbrev main_v585 : Ref sig .tc := ⟨.hbm, 784, rfl⟩
abbrev main_v586 : Ref sig .tc := ⟨.hbm, 785, rfl⟩
abbrev main_c_195 : Ref sig .tc := ⟨.hbm, 786, rfl⟩
abbrev main_v587 : Ref sig .tc := ⟨.hbm, 787, rfl⟩
abbrev main_c_196 : Ref sig .tc := ⟨.hbm, 788, rfl⟩
abbrev main_v588 : Ref sig .tc := ⟨.hbm, 789, rfl⟩
abbrev main_v589 : Ref sig .tc := ⟨.hbm, 790, rfl⟩
abbrev main_v590 : Ref sig .tc := ⟨.hbm, 791, rfl⟩
abbrev main_v591 : Ref sig .tc := ⟨.hbm, 792, rfl⟩
abbrev main_v592 : Ref sig .tc := ⟨.hbm, 793, rfl⟩
abbrev main_c_197 : Ref sig .tc := ⟨.hbm, 794, rfl⟩
abbrev main_v593 : Ref sig .tc := ⟨.hbm, 795, rfl⟩
abbrev main_c_198 : Ref sig .tc := ⟨.hbm, 796, rfl⟩
abbrev main_v594 : Ref sig .tc := ⟨.hbm, 797, rfl⟩
abbrev main_v595 : Ref sig .tc := ⟨.hbm, 798, rfl⟩
abbrev main_v596 : Ref sig .tc := ⟨.hbm, 799, rfl⟩
abbrev main_v597 : Ref sig .tc := ⟨.hbm, 800, rfl⟩
abbrev main_v598 : Ref sig .tc := ⟨.hbm, 801, rfl⟩
abbrev main_c_199 : Ref sig .tc := ⟨.hbm, 802, rfl⟩
abbrev main_v599 : Ref sig .tc := ⟨.hbm, 803, rfl⟩
abbrev main_c_200 : Ref sig .tc := ⟨.hbm, 804, rfl⟩
abbrev main_v600 : Ref sig .tc := ⟨.hbm, 805, rfl⟩
abbrev main_v601 : Ref sig .tc := ⟨.hbm, 806, rfl⟩
abbrev main_v602 : Ref sig .tc := ⟨.hbm, 807, rfl⟩
abbrev main_v603 : Ref sig .tc := ⟨.hbm, 808, rfl⟩
abbrev main_v604 : Ref sig .tc := ⟨.hbm, 809, rfl⟩
abbrev main_c_201 : Ref sig .tc := ⟨.hbm, 810, rfl⟩
abbrev main_v605 : Ref sig .tc := ⟨.hbm, 811, rfl⟩
abbrev main_c_202 : Ref sig .tc := ⟨.hbm, 812, rfl⟩
abbrev main_v606 : Ref sig .tc := ⟨.hbm, 813, rfl⟩
abbrev main_v607 : Ref sig .tc := ⟨.hbm, 814, rfl⟩
abbrev main_v608 : Ref sig .tc := ⟨.hbm, 815, rfl⟩
abbrev main_v609 : Ref sig .tc := ⟨.hbm, 816, rfl⟩
abbrev main_v610 : Ref sig .tc := ⟨.hbm, 817, rfl⟩
abbrev main_c_203 : Ref sig .tc := ⟨.hbm, 818, rfl⟩
abbrev main_v611 : Ref sig .tc := ⟨.hbm, 819, rfl⟩
abbrev main_c_204 : Ref sig .tc := ⟨.hbm, 820, rfl⟩
abbrev main_v612 : Ref sig .tc := ⟨.hbm, 821, rfl⟩
abbrev main_v613 : Ref sig .tc := ⟨.hbm, 822, rfl⟩
abbrev main_v614 : Ref sig .tc := ⟨.hbm, 823, rfl⟩
abbrev main_v615 : Ref sig .tc := ⟨.hbm, 824, rfl⟩
abbrev main_v616 : Ref sig .tc := ⟨.hbm, 825, rfl⟩
abbrev main_c_205 : Ref sig .tc := ⟨.hbm, 826, rfl⟩
abbrev main_v617 : Ref sig .tc := ⟨.hbm, 827, rfl⟩
abbrev main_c_206 : Ref sig .tc := ⟨.hbm, 828, rfl⟩
abbrev main_v618 : Ref sig .tc := ⟨.hbm, 829, rfl⟩
abbrev main_v619 : Ref sig .tc := ⟨.hbm, 830, rfl⟩
abbrev main_v620 : Ref sig .tc := ⟨.hbm, 831, rfl⟩
abbrev main_v621 : Ref sig .tc := ⟨.hbm, 832, rfl⟩
abbrev main_v622 : Ref sig .tc := ⟨.hbm, 833, rfl⟩
abbrev main_c_207 : Ref sig .tc := ⟨.hbm, 834, rfl⟩
abbrev main_v623 : Ref sig .tc := ⟨.hbm, 835, rfl⟩
abbrev main_c_208 : Ref sig .tc := ⟨.hbm, 836, rfl⟩
abbrev main_v624 : Ref sig .tc := ⟨.hbm, 837, rfl⟩
abbrev main_v625 : Ref sig .tc := ⟨.hbm, 838, rfl⟩
abbrev main_v626 : Ref sig .tc := ⟨.hbm, 839, rfl⟩
abbrev main_v627 : Ref sig .tc := ⟨.hbm, 840, rfl⟩
abbrev main_v628 : Ref sig .tc := ⟨.hbm, 841, rfl⟩
abbrev main_c_209 : Ref sig .tc := ⟨.hbm, 842, rfl⟩
abbrev main_v629 : Ref sig .tc := ⟨.hbm, 843, rfl⟩
abbrev main_c_210 : Ref sig .tc := ⟨.hbm, 844, rfl⟩
abbrev main_v630 : Ref sig .tc := ⟨.hbm, 845, rfl⟩
abbrev main_v631 : Ref sig .tc := ⟨.hbm, 846, rfl⟩
abbrev main_v632 : Ref sig .tc := ⟨.hbm, 847, rfl⟩
abbrev main_v633 : Ref sig .tc := ⟨.hbm, 848, rfl⟩
abbrev main_v634 : Ref sig .tc := ⟨.hbm, 849, rfl⟩
abbrev main_c_211 : Ref sig .tc := ⟨.hbm, 850, rfl⟩
abbrev main_v635 : Ref sig .tc := ⟨.hbm, 851, rfl⟩
abbrev main_c_212 : Ref sig .tc := ⟨.hbm, 852, rfl⟩
abbrev main_v636 : Ref sig .tc := ⟨.hbm, 853, rfl⟩
abbrev main_v637 : Ref sig .tc := ⟨.hbm, 854, rfl⟩
abbrev main_v638 : Ref sig .tc := ⟨.hbm, 855, rfl⟩
abbrev main_v639 : Ref sig .tc := ⟨.hbm, 856, rfl⟩
abbrev main_v640 : Ref sig .tc := ⟨.hbm, 857, rfl⟩
abbrev main_c_213 : Ref sig .tc := ⟨.hbm, 858, rfl⟩
abbrev main_v641 : Ref sig .tc := ⟨.hbm, 859, rfl⟩
abbrev main_c_214 : Ref sig .tc := ⟨.hbm, 860, rfl⟩
abbrev main_v642 : Ref sig .tc := ⟨.hbm, 861, rfl⟩
abbrev main_v643 : Ref sig .tc := ⟨.hbm, 862, rfl⟩
abbrev main_v644 : Ref sig .tc := ⟨.hbm, 863, rfl⟩
abbrev main_v645 : Ref sig .tc := ⟨.hbm, 864, rfl⟩
abbrev main_v646 : Ref sig .tc := ⟨.hbm, 865, rfl⟩
abbrev main_c_215 : Ref sig .tc := ⟨.hbm, 866, rfl⟩
abbrev main_v647 : Ref sig .tc := ⟨.hbm, 867, rfl⟩
abbrev main_c_216 : Ref sig .tc := ⟨.hbm, 868, rfl⟩
abbrev main_v648 : Ref sig .tc := ⟨.hbm, 869, rfl⟩
abbrev main_v649 : Ref sig .tc := ⟨.hbm, 870, rfl⟩
abbrev main_v650 : Ref sig .tc := ⟨.hbm, 871, rfl⟩
abbrev main_v651 : Ref sig .tc := ⟨.hbm, 872, rfl⟩
abbrev main_v652 : Ref sig .tc := ⟨.hbm, 873, rfl⟩
abbrev main_c_217 : Ref sig .tc := ⟨.hbm, 874, rfl⟩
abbrev main_v653 : Ref sig .tc := ⟨.hbm, 875, rfl⟩
abbrev main_c_218 : Ref sig .tc := ⟨.hbm, 876, rfl⟩
abbrev main_v654 : Ref sig .tc := ⟨.hbm, 877, rfl⟩
abbrev main_v655 : Ref sig .tc := ⟨.hbm, 878, rfl⟩
abbrev main_v656 : Ref sig .tc := ⟨.hbm, 879, rfl⟩
abbrev main_v657 : Ref sig .tc := ⟨.hbm, 880, rfl⟩
abbrev main_v658 : Ref sig .tc := ⟨.hbm, 881, rfl⟩
abbrev main_c_219 : Ref sig .tc := ⟨.hbm, 882, rfl⟩
abbrev main_v659 : Ref sig .tc := ⟨.hbm, 883, rfl⟩
abbrev main_c_220 : Ref sig .tc := ⟨.hbm, 884, rfl⟩
abbrev main_v660 : Ref sig .tc := ⟨.hbm, 885, rfl⟩
abbrev main_v661 : Ref sig .tc := ⟨.hbm, 886, rfl⟩
abbrev main_v662 : Ref sig .tc := ⟨.hbm, 887, rfl⟩
abbrev main_v663 : Ref sig .tc := ⟨.hbm, 888, rfl⟩
abbrev main_v664 : Ref sig .tc := ⟨.hbm, 889, rfl⟩
abbrev main_c_221 : Ref sig .tc := ⟨.hbm, 890, rfl⟩
abbrev main_v665 : Ref sig .tc := ⟨.hbm, 891, rfl⟩
abbrev main_c_222 : Ref sig .tc := ⟨.hbm, 892, rfl⟩
abbrev main_v666 : Ref sig .tc := ⟨.hbm, 893, rfl⟩
abbrev main_v667 : Ref sig .tc := ⟨.hbm, 894, rfl⟩
abbrev main_v668 : Ref sig .tc := ⟨.hbm, 895, rfl⟩
abbrev main_v669 : Ref sig .tc := ⟨.hbm, 896, rfl⟩
abbrev main_v670 : Ref sig .tc := ⟨.hbm, 897, rfl⟩
abbrev main_c_223 : Ref sig .tc := ⟨.hbm, 898, rfl⟩
abbrev main_v671 : Ref sig .tc := ⟨.hbm, 899, rfl⟩
abbrev main_c_224 : Ref sig .tc := ⟨.hbm, 900, rfl⟩
abbrev main_v672 : Ref sig .tc := ⟨.hbm, 901, rfl⟩
abbrev main_v673 : Ref sig .tc := ⟨.hbm, 902, rfl⟩
abbrev main_v674 : Ref sig .tc := ⟨.hbm, 903, rfl⟩
abbrev main_v675 : Ref sig .tc := ⟨.hbm, 904, rfl⟩
abbrev main_v676 : Ref sig .tc := ⟨.hbm, 905, rfl⟩
abbrev main_c_225 : Ref sig .tc := ⟨.hbm, 906, rfl⟩
abbrev main_v677 : Ref sig .tc := ⟨.hbm, 907, rfl⟩
abbrev main_c_226 : Ref sig .tc := ⟨.hbm, 908, rfl⟩
abbrev main_v678 : Ref sig .tc := ⟨.hbm, 909, rfl⟩
abbrev main_v679 : Ref sig .tc := ⟨.hbm, 910, rfl⟩
abbrev main_v680 : Ref sig .tc := ⟨.hbm, 911, rfl⟩
abbrev main_v681 : Ref sig .tc := ⟨.hbm, 912, rfl⟩
abbrev main_v682 : Ref sig .tc := ⟨.hbm, 913, rfl⟩
abbrev main_c_227 : Ref sig .tc := ⟨.hbm, 914, rfl⟩
abbrev main_v683 : Ref sig .tc := ⟨.hbm, 915, rfl⟩
abbrev main_c_228 : Ref sig .tc := ⟨.hbm, 916, rfl⟩
abbrev main_v684 : Ref sig .tc := ⟨.hbm, 917, rfl⟩
abbrev main_v685 : Ref sig .tc := ⟨.hbm, 918, rfl⟩
abbrev main_v686 : Ref sig .tc := ⟨.hbm, 919, rfl⟩
abbrev main_v687 : Ref sig .tc := ⟨.hbm, 920, rfl⟩
abbrev main_v688 : Ref sig .tc := ⟨.hbm, 921, rfl⟩
abbrev main_c_229 : Ref sig .tc := ⟨.hbm, 922, rfl⟩
abbrev main_v689 : Ref sig .tc := ⟨.hbm, 923, rfl⟩
abbrev main_c_230 : Ref sig .tc := ⟨.hbm, 924, rfl⟩
abbrev main_v690 : Ref sig .tc := ⟨.hbm, 925, rfl⟩
abbrev main_v691 : Ref sig .tc := ⟨.hbm, 926, rfl⟩
abbrev main_v692 : Ref sig .tc := ⟨.hbm, 927, rfl⟩
abbrev main_v693 : Ref sig .tc := ⟨.hbm, 928, rfl⟩
abbrev main_v694 : Ref sig .tc := ⟨.hbm, 929, rfl⟩
abbrev main_c_231 : Ref sig .tc := ⟨.hbm, 930, rfl⟩
abbrev main_v695 : Ref sig .tc := ⟨.hbm, 931, rfl⟩
abbrev main_c_232 : Ref sig .tc := ⟨.hbm, 932, rfl⟩
abbrev main_v696 : Ref sig .tc := ⟨.hbm, 933, rfl⟩
abbrev main_v697 : Ref sig .tc := ⟨.hbm, 934, rfl⟩
abbrev main_v698 : Ref sig .tc := ⟨.hbm, 935, rfl⟩
abbrev main_v699 : Ref sig .tc := ⟨.hbm, 936, rfl⟩
abbrev main_v700 : Ref sig .tc := ⟨.hbm, 937, rfl⟩
abbrev main_c_233 : Ref sig .tc := ⟨.hbm, 938, rfl⟩
abbrev main_v701 : Ref sig .tc := ⟨.hbm, 939, rfl⟩
abbrev main_c_234 : Ref sig .tc := ⟨.hbm, 940, rfl⟩
abbrev main_v702 : Ref sig .tc := ⟨.hbm, 941, rfl⟩
abbrev main_v703 : Ref sig .tc := ⟨.hbm, 942, rfl⟩
abbrev main_v704 : Ref sig .tc := ⟨.hbm, 943, rfl⟩
abbrev main_v705 : Ref sig .tc := ⟨.hbm, 944, rfl⟩
abbrev main_v706 : Ref sig .tc := ⟨.hbm, 945, rfl⟩
abbrev main_c_235 : Ref sig .tc := ⟨.hbm, 946, rfl⟩
abbrev main_v707 : Ref sig .tc := ⟨.hbm, 947, rfl⟩
abbrev main_c_236 : Ref sig .tc := ⟨.hbm, 948, rfl⟩
abbrev main_v708 : Ref sig .tc := ⟨.hbm, 949, rfl⟩
abbrev main_v709 : Ref sig .tc := ⟨.hbm, 950, rfl⟩
abbrev main_v710 : Ref sig .tc := ⟨.hbm, 951, rfl⟩
abbrev main_v711 : Ref sig .tc := ⟨.hbm, 952, rfl⟩
abbrev main_v712 : Ref sig .tc := ⟨.hbm, 953, rfl⟩
abbrev main_c_237 : Ref sig .tc := ⟨.hbm, 954, rfl⟩
abbrev main_v713 : Ref sig .tc := ⟨.hbm, 955, rfl⟩
abbrev main_c_238 : Ref sig .tc := ⟨.hbm, 956, rfl⟩
abbrev main_v714 : Ref sig .tc := ⟨.hbm, 957, rfl⟩
abbrev main_v715 : Ref sig .tc := ⟨.hbm, 958, rfl⟩
abbrev main_v716 : Ref sig .tc := ⟨.hbm, 959, rfl⟩
abbrev main_v717 : Ref sig .tc := ⟨.hbm, 960, rfl⟩
abbrev main_v718 : Ref sig .tc := ⟨.hbm, 961, rfl⟩
abbrev main_c_239 : Ref sig .tc := ⟨.hbm, 962, rfl⟩
abbrev main_v719 : Ref sig .tc := ⟨.hbm, 963, rfl⟩
abbrev main_c_240 : Ref sig .tc := ⟨.hbm, 964, rfl⟩
abbrev main_v720 : Ref sig .tc := ⟨.hbm, 965, rfl⟩
abbrev main_v721 : Ref sig .tc := ⟨.hbm, 966, rfl⟩
abbrev main_v722 : Ref sig .tc := ⟨.hbm, 967, rfl⟩
abbrev main_v723 : Ref sig .tc := ⟨.hbm, 968, rfl⟩
abbrev main_v724 : Ref sig .tc := ⟨.hbm, 969, rfl⟩
abbrev main_c_241 : Ref sig .tc := ⟨.hbm, 970, rfl⟩
abbrev main_v725 : Ref sig .tc := ⟨.hbm, 971, rfl⟩
abbrev main_c_242 : Ref sig .tc := ⟨.hbm, 972, rfl⟩
abbrev main_v726 : Ref sig .tc := ⟨.hbm, 973, rfl⟩
abbrev main_v727 : Ref sig .tc := ⟨.hbm, 974, rfl⟩
abbrev main_v728 : Ref sig .tc := ⟨.hbm, 975, rfl⟩
abbrev main_v729 : Ref sig .tc := ⟨.hbm, 976, rfl⟩
abbrev main_v730 : Ref sig .tc := ⟨.hbm, 977, rfl⟩
abbrev main_c_243 : Ref sig .tc := ⟨.hbm, 978, rfl⟩
abbrev main_v731 : Ref sig .tc := ⟨.hbm, 979, rfl⟩
abbrev main_c_244 : Ref sig .tc := ⟨.hbm, 980, rfl⟩
abbrev main_v732 : Ref sig .tc := ⟨.hbm, 981, rfl⟩
abbrev main_v733 : Ref sig .tc := ⟨.hbm, 982, rfl⟩
abbrev main_v734 : Ref sig .tc := ⟨.hbm, 983, rfl⟩
abbrev main_v735 : Ref sig .tc := ⟨.hbm, 984, rfl⟩
abbrev main_v736 : Ref sig .tc := ⟨.hbm, 985, rfl⟩
abbrev main_c_245 : Ref sig .tc := ⟨.hbm, 986, rfl⟩
abbrev main_v737 : Ref sig .tc := ⟨.hbm, 987, rfl⟩
abbrev main_c_246 : Ref sig .tc := ⟨.hbm, 988, rfl⟩
abbrev main_v738 : Ref sig .tc := ⟨.hbm, 989, rfl⟩
abbrev main_v739 : Ref sig .tc := ⟨.hbm, 990, rfl⟩
abbrev main_v740 : Ref sig .tc := ⟨.hbm, 991, rfl⟩
abbrev main_v741 : Ref sig .tc := ⟨.hbm, 992, rfl⟩
abbrev main_v742 : Ref sig .tc := ⟨.hbm, 993, rfl⟩
abbrev main_c_247 : Ref sig .tc := ⟨.hbm, 994, rfl⟩
abbrev main_v743 : Ref sig .tc := ⟨.hbm, 995, rfl⟩
abbrev main_c_248 : Ref sig .tc := ⟨.hbm, 996, rfl⟩
abbrev main_v744 : Ref sig .tc := ⟨.hbm, 997, rfl⟩
abbrev main_v745 : Ref sig .tc := ⟨.hbm, 998, rfl⟩
abbrev main_v746 : Ref sig .tc := ⟨.hbm, 999, rfl⟩
abbrev main_v747 : Ref sig .tc := ⟨.hbm, 1000, rfl⟩
abbrev main_v748 : Ref sig .tc := ⟨.hbm, 1001, rfl⟩
abbrev main_c_249 : Ref sig .tc := ⟨.hbm, 1002, rfl⟩
abbrev main_v749 : Ref sig .tc := ⟨.hbm, 1003, rfl⟩
abbrev main_c_250 : Ref sig .tc := ⟨.hbm, 1004, rfl⟩
abbrev main_v750 : Ref sig .tc := ⟨.hbm, 1005, rfl⟩
abbrev main_v751 : Ref sig .tc := ⟨.hbm, 1006, rfl⟩
abbrev main_v752 : Ref sig .tc := ⟨.hbm, 1007, rfl⟩
abbrev main_v753 : Ref sig .tc := ⟨.hbm, 1008, rfl⟩
abbrev main_v754 : Ref sig .tc := ⟨.hbm, 1009, rfl⟩
abbrev main_c_251 : Ref sig .tc := ⟨.hbm, 1010, rfl⟩
abbrev main_v755 : Ref sig .tc := ⟨.hbm, 1011, rfl⟩
abbrev main_c_252 : Ref sig .tc := ⟨.hbm, 1012, rfl⟩
abbrev main_v756 : Ref sig .tc := ⟨.hbm, 1013, rfl⟩
abbrev main_v757 : Ref sig .tc := ⟨.hbm, 1014, rfl⟩
abbrev main_v758 : Ref sig .tc := ⟨.hbm, 1015, rfl⟩
abbrev main_v759 : Ref sig .tc := ⟨.hbm, 1016, rfl⟩
abbrev main_v760 : Ref sig .tc := ⟨.hbm, 1017, rfl⟩
abbrev main_c_253 : Ref sig .tc := ⟨.hbm, 1018, rfl⟩
abbrev main_v761 : Ref sig .tc := ⟨.hbm, 1019, rfl⟩
abbrev main_c_254 : Ref sig .tc := ⟨.hbm, 1020, rfl⟩
abbrev main_v762 : Ref sig .tc := ⟨.hbm, 1021, rfl⟩
abbrev main_v763 : Ref sig .tc := ⟨.hbm, 1022, rfl⟩
abbrev main_v764 : Ref sig .tc := ⟨.hbm, 1023, rfl⟩
abbrev main_v765 : Ref sig .tc := ⟨.hbm, 1024, rfl⟩
abbrev main_v766 : Ref sig .tc := ⟨.hbm, 1025, rfl⟩
abbrev main_c_255 : Ref sig .tc := ⟨.hbm, 1026, rfl⟩
abbrev main_v767 : Ref sig .tc := ⟨.hbm, 1027, rfl⟩
abbrev main_c_256 : Ref sig .tc := ⟨.hbm, 1028, rfl⟩
abbrev main_v768 : Ref sig .tc := ⟨.hbm, 1029, rfl⟩
abbrev main_v769 : Ref sig .tc := ⟨.hbm, 1030, rfl⟩
abbrev main_v770 : Ref sig .tc := ⟨.hbm, 1031, rfl⟩
abbrev main_v771 : Ref sig .tc := ⟨.hbm, 1032, rfl⟩
abbrev main_v772 : Ref sig .tc := ⟨.hbm, 1033, rfl⟩
abbrev main_c_257 : Ref sig .tc := ⟨.hbm, 1034, rfl⟩
abbrev main_v773 : Ref sig .tc := ⟨.hbm, 1035, rfl⟩
abbrev main_c_258 : Ref sig .tc := ⟨.hbm, 1036, rfl⟩
abbrev main_v774 : Ref sig .tc := ⟨.hbm, 1037, rfl⟩
abbrev main_v775 : Ref sig .tc := ⟨.hbm, 1038, rfl⟩
abbrev main_v776 : Ref sig .tc := ⟨.hbm, 1039, rfl⟩
abbrev main_v777 : Ref sig .tc := ⟨.hbm, 1040, rfl⟩
abbrev main_v778 : Ref sig .tc := ⟨.hbm, 1041, rfl⟩
abbrev main_c_259 : Ref sig .tc := ⟨.hbm, 1042, rfl⟩
abbrev main_v779 : Ref sig .tc := ⟨.hbm, 1043, rfl⟩
abbrev main_c_260 : Ref sig .tc := ⟨.hbm, 1044, rfl⟩
abbrev main_v780 : Ref sig .tc := ⟨.hbm, 1045, rfl⟩
abbrev main_v781 : Ref sig .tc := ⟨.hbm, 1046, rfl⟩
abbrev main_v782 : Ref sig .tc := ⟨.hbm, 1047, rfl⟩
abbrev main_v783 : Ref sig .tc := ⟨.hbm, 1048, rfl⟩
abbrev main_v784 : Ref sig .tc := ⟨.hbm, 1049, rfl⟩
abbrev main_c_261 : Ref sig .tc := ⟨.hbm, 1050, rfl⟩
abbrev main_v785 : Ref sig .tc := ⟨.hbm, 1051, rfl⟩
abbrev main_c_262 : Ref sig .tc := ⟨.hbm, 1052, rfl⟩
abbrev main_v786 : Ref sig .tc := ⟨.hbm, 1053, rfl⟩
abbrev main_v787 : Ref sig .tc := ⟨.hbm, 1054, rfl⟩
abbrev main_v788 : Ref sig .tc := ⟨.hbm, 1055, rfl⟩
abbrev main_v789 : Ref sig .tc := ⟨.hbm, 1056, rfl⟩
abbrev main_v790 : Ref sig .tc := ⟨.hbm, 1057, rfl⟩
abbrev main_v791 : Ref sig .tc := ⟨.hbm, 1058, rfl⟩
abbrev main_v792 : Ref sig .tc := ⟨.hbm, 1059, rfl⟩

abbrev nD : Nat := 1
abbrev τ : Topo := Topo.v7x

variable {F : FTy → Type} [FloatOps F]

class Facts₀ : Prop where
  bcast_S_S16x62001x64 : S_.BroadcastsInDim S16x62001x64 (![] : Fin 0 → Fin S16x62001x64.rank)
  bcast_S_S62001 : S_.BroadcastsInDim S62001 (![] : Fin 0 → Fin S62001.rank)
  bcast_S62001_S62001x1_0 : S62001.BroadcastsInDim S62001x1 (![0] : Fin 1 → Fin S62001x1.rank)
  shapeCasts_S16x62001x64_S16x249x249x8x8 : S16x62001x64.ShapeCasts S16x249x249x8x8
  bcast_S_S16x256x256 : S_.BroadcastsInDim S16x256x256 (![] : Fin 0 → Fin S16x256x256.rank)
  slices_S16x249x249x8x8_S16x249x249x1x1_0_0_0_0_0 : S16x249x249x8x8.Slices ![0, 0, 0, 0, 0] S16x249x249x1x1
  shapeCasts_S16x249x249x1x1_S16x249x249 : S16x249x249x1x1.ShapeCasts S16x249x249
  bcast_S_S1 : S_.BroadcastsInDim S1 (![] : Fin 0 → Fin S1.rank)
  concatenates_S1_S1_S2_d0 : Shape.Concatenates [S1, S1] S2 0
  slices_S16x249x249x8x8_S16x249x249x1x1_0_0_0_0_1 : S16x249x249x8x8.Slices ![0, 0, 0, 0, 1] S16x249x249x1x1
  slices_S16x249x249x8x8_S16x249x249x1x1_0_0_0_0_2 : S16x249x249x8x8.Slices ![0, 0, 0, 0, 2] S16x249x249x1x1
  slices_S16x249x249x8x8_S16x249x249x1x1_0_0_0_0_3 : S16x249x249x8x8.Slices ![0, 0, 0, 0, 3] S16x249x249x1x1
  slices_S16x249x249x8x8_S16x249x249x1x1_0_0_0_0_4 : S16x249x249x8x8.Slices ![0, 0, 0, 0, 4] S16x249x249x1x1
  slices_S16x249x249x8x8_S16x249x249x1x1_0_0_0_0_5 : S16x249x249x8x8.Slices ![0, 0, 0, 0, 5] S16x249x249x1x1
  slices_S16x249x249x8x8_S16x249x249x1x1_0_0_0_0_6 : S16x249x249x8x8.Slices ![0, 0, 0, 0, 6] S16x249x249x1x1
  slices_S16x249x249x8x8_S16x249x249x1x1_0_0_0_0_7 : S16x249x249x8x8.Slices ![0, 0, 0, 0, 7] S16x249x249x1x1
  slices_S16x249x249x8x8_S16x249x249x1x1_0_0_0_1_0 : S16x249x249x8x8.Slices ![0, 0, 0, 1, 0] S16x249x249x1x1
  slices_S16x249x249x8x8_S16x249x249x1x1_0_0_0_1_1 : S16x249x249x8x8.Slices ![0, 0, 0, 1, 1] S16x249x249x1x1
  slices_S16x249x249x8x8_S16x249x249x1x1_0_0_0_1_2 : S16x249x249x8x8.Slices ![0, 0, 0, 1, 2] S16x249x249x1x1
  slices_S16x249x249x8x8_S16x249x249x1x1_0_0_0_1_3 : S16x249x249x8x8.Slices ![0, 0, 0, 1, 3] S16x249x249x1x1
  slices_S16x249x249x8x8_S16x249x249x1x1_0_0_0_1_4 : S16x249x249x8x8.Slices ![0, 0, 0, 1, 4] S16x249x249x1x1
  slices_S16x249x249x8x8_S16x249x249x1x1_0_0_0_1_5 : S16x249x249x8x8.Slices ![0, 0, 0, 1, 5] S16x249x249x1x1
  slices_S16x249x249x8x8_S16x249x249x1x1_0_0_0_1_6 : S16x249x249x8x8.Slices ![0, 0, 0, 1, 6] S16x249x249x1x1
  slices_S16x249x249x8x8_S16x249x249x1x1_0_0_0_1_7 : S16x249x249x8x8.Slices ![0, 0, 0, 1, 7] S16x249x249x1x1
  slices_S16x249x249x8x8_S16x249x249x1x1_0_0_0_2_0 : S16x249x249x8x8.Slices ![0, 0, 0, 2, 0] S16x249x249x1x1
  slices_S16x249x249x8x8_S16x249x249x1x1_0_0_0_2_1 : S16x249x249x8x8.Slices ![0, 0, 0, 2, 1] S16x249x249x1x1
  slices_S16x249x249x8x8_S16x249x249x1x1_0_0_0_2_2 : S16x249x249x8x8.Slices ![0, 0, 0, 2, 2] S16x249x249x1x1
  slices_S16x249x249x8x8_S16x249x249x1x1_0_0_0_2_3 : S16x249x249x8x8.Slices ![0, 0, 0, 2, 3] S16x249x249x1x1
  slices_S16x249x249x8x8_S16x249x249x1x1_0_0_0_2_4 : S16x249x249x8x8.Slices ![0, 0, 0, 2, 4] S16x249x249x1x1
  slices_S16x249x249x8x8_S16x249x249x1x1_0_0_0_2_5 : S16x249x249x8x8.Slices ![0, 0, 0, 2, 5] S16x249x249x1x1
  slices_S16x249x249x8x8_S16x249x249x1x1_0_0_0_2_6 : S16x249x249x8x8.Slices ![0, 0, 0, 2, 6] S16x249x249x1x1
  slices_S16x249x249x8x8_S16x249x249x1x1_0_0_0_2_7 : S16x249x249x8x8.Slices ![0, 0, 0, 2, 7] S16x249x249x1x1
  slices_S16x249x249x8x8_S16x249x249x1x1_0_0_0_3_0 : S16x249x249x8x8.Slices ![0, 0, 0, 3, 0] S16x249x249x1x1
  slices_S16x249x249x8x8_S16x249x249x1x1_0_0_0_3_1 : S16x249x249x8x8.Slices ![0, 0, 0, 3, 1] S16x249x249x1x1
  slices_S16x249x249x8x8_S16x249x249x1x1_0_0_0_3_2 : S16x249x249x8x8.Slices ![0, 0, 0, 3, 2] S16x249x249x1x1
  slices_S16x249x249x8x8_S16x249x249x1x1_0_0_0_3_3 : S16x249x249x8x8.Slices ![0, 0, 0, 3, 3] S16x249x249x1x1
  slices_S16x249x249x8x8_S16x249x249x1x1_0_0_0_3_4 : S16x249x249x8x8.Slices ![0, 0, 0, 3, 4] S16x249x249x1x1
  slices_S16x249x249x8x8_S16x249x249x1x1_0_0_0_3_5 : S16x249x249x8x8.Slices ![0, 0, 0, 3, 5] S16x249x249x1x1
  slices_S16x249x249x8x8_S16x249x249x1x1_0_0_0_3_6 : S16x249x249x8x8.Slices ![0, 0, 0, 3, 6] S16x249x249x1x1
  slices_S16x249x249x8x8_S16x249x249x1x1_0_0_0_3_7 : S16x249x249x8x8.Slices ![0, 0, 0, 3, 7] S16x249x249x1x1
  slices_S16x249x249x8x8_S16x249x249x1x1_0_0_0_4_0 : S16x249x249x8x8.Slices ![0, 0, 0, 4, 0] S16x249x249x1x1
  slices_S16x249x249x8x8_S16x249x249x1x1_0_0_0_4_1 : S16x249x249x8x8.Slices ![0, 0, 0, 4, 1] S16x249x249x1x1
  slices_S16x249x249x8x8_S16x249x249x1x1_0_0_0_4_2 : S16x249x249x8x8.Slices ![0, 0, 0, 4, 2] S16x249x249x1x1
  slices_S16x249x249x8x8_S16x249x249x1x1_0_0_0_4_3 : S16x249x249x8x8.Slices ![0, 0, 0, 4, 3] S16x249x249x1x1
  slices_S16x249x249x8x8_S16x249x249x1x1_0_0_0_4_4 : S16x249x249x8x8.Slices ![0, 0, 0, 4, 4] S16x249x249x1x1
  slices_S16x249x249x8x8_S16x249x249x1x1_0_0_0_4_5 : S16x249x249x8x8.Slices ![0, 0, 0, 4, 5] S16x249x249x1x1
  slices_S16x249x249x8x8_S16x249x249x1x1_0_0_0_4_6 : S16x249x249x8x8.Slices ![0, 0, 0, 4, 6] S16x249x249x1x1
  slices_S16x249x249x8x8_S16x249x249x1x1_0_0_0_4_7 : S16x249x249x8x8.Slices ![0, 0, 0, 4, 7] S16x249x249x1x1
  slices_S16x249x249x8x8_S16x249x249x1x1_0_0_0_5_0 : S16x249x249x8x8.Slices ![0, 0, 0, 5, 0] S16x249x249x1x1
  slices_S16x249x249x8x8_S16x249x249x1x1_0_0_0_5_1 : S16x249x249x8x8.Slices ![0, 0, 0, 5, 1] S16x249x249x1x1
  slices_S16x249x249x8x8_S16x249x249x1x1_0_0_0_5_2 : S16x249x249x8x8.Slices ![0, 0, 0, 5, 2] S16x249x249x1x1
  slices_S16x249x249x8x8_S16x249x249x1x1_0_0_0_5_3 : S16x249x249x8x8.Slices ![0, 0, 0, 5, 3] S16x249x249x1x1
  slices_S16x249x249x8x8_S16x249x249x1x1_0_0_0_5_4 : S16x249x249x8x8.Slices ![0, 0, 0, 5, 4] S16x249x249x1x1
  slices_S16x249x249x8x8_S16x249x249x1x1_0_0_0_5_5 : S16x249x249x8x8.Slices ![0, 0, 0, 5, 5] S16x249x249x1x1
  slices_S16x249x249x8x8_S16x249x249x1x1_0_0_0_5_6 : S16x249x249x8x8.Slices ![0, 0, 0, 5, 6] S16x249x249x1x1
  slices_S16x249x249x8x8_S16x249x249x1x1_0_0_0_5_7 : S16x249x249x8x8.Slices ![0, 0, 0, 5, 7] S16x249x249x1x1
  slices_S16x249x249x8x8_S16x249x249x1x1_0_0_0_6_0 : S16x249x249x8x8.Slices ![0, 0, 0, 6, 0] S16x249x249x1x1
  slices_S16x249x249x8x8_S16x249x249x1x1_0_0_0_6_1 : S16x249x249x8x8.Slices ![0, 0, 0, 6, 1] S16x249x249x1x1
  slices_S16x249x249x8x8_S16x249x249x1x1_0_0_0_6_2 : S16x249x249x8x8.Slices ![0, 0, 0, 6, 2] S16x249x249x1x1
  slices_S16x249x249x8x8_S16x249x249x1x1_0_0_0_6_3 : S16x249x249x8x8.Slices ![0, 0, 0, 6, 3] S16x249x249x1x1
  slices_S16x249x249x8x8_S16x249x249x1x1_0_0_0_6_4 : S16x249x249x8x8.Slices ![0, 0, 0, 6, 4] S16x249x249x1x1
  slices_S16x249x249x8x8_S16x249x249x1x1_0_0_0_6_5 : S16x249x249x8x8.Slices ![0, 0, 0, 6, 5] S16x249x249x1x1
  slices_S16x249x249x8x8_S16x249x249x1x1_0_0_0_6_6 : S16x249x249x8x8.Slices ![0, 0, 0, 6, 6] S16x249x249x1x1
  slices_S16x249x249x8x8_S16x249x249x1x1_0_0_0_6_7 : S16x249x249x8x8.Slices ![0, 0, 0, 6, 7] S16x249x249x1x1
  slices_S16x249x249x8x8_S16x249x249x1x1_0_0_0_7_0 : S16x249x249x8x8.Slices ![0, 0, 0, 7, 0] S16x249x249x1x1
  slices_S16x249x249x8x8_S16x249x249x1x1_0_0_0_7_1 : S16x249x249x8x8.Slices ![0, 0, 0, 7, 1] S16x249x249x1x1
  slices_S16x249x249x8x8_S16x249x249x1x1_0_0_0_7_2 : S16x249x249x8x8.Slices ![0, 0, 0, 7, 2] S16x249x249x1x1
  slices_S16x249x249x8x8_S16x249x249x1x1_0_0_0_7_3 : S16x249x249x8x8.Slices ![0, 0, 0, 7, 3] S16x249x249x1x1
  slices_S16x249x249x8x8_S16x249x249x1x1_0_0_0_7_4 : S16x249x249x8x8.Slices ![0, 0, 0, 7, 4] S16x249x249x1x1
  slices_S16x249x249x8x8_S16x249x249x1x1_0_0_0_7_5 : S16x249x249x8x8.Slices ![0, 0, 0, 7, 5] S16x249x249x1x1
  slices_S16x249x249x8x8_S16x249x249x1x1_0_0_0_7_6 : S16x249x249x8x8.Slices ![0, 0, 0, 7, 6] S16x249x249x1x1
  slices_S16x249x249x8x8_S16x249x249x1x1_0_0_0_7_7 : S16x249x249x8x8.Slices ![0, 0, 0, 7, 7] S16x249x249x1x1
  bcast_S_S62001x64 : S_.BroadcastsInDim S62001x64 (![] : Fin 0 → Fin S62001x64.rank)
  shapeCasts_S62001x64_S249x249x8x8 : S62001x64.ShapeCasts S249x249x8x8
  bcast_S_S256x256 : S_.BroadcastsInDim S256x256 (![] : Fin 0 → Fin S256x256.rank)
  slices_S249x249x8x8_S249x249x1x1_0_0_0_0 : S249x249x8x8.Slices ![0, 0, 0, 0] S249x249x1x1
  shapeCasts_S249x249x1x1_S249x249 : S249x249x1x1.ShapeCasts S249x249
  slices_S249x249x8x8_S249x249x1x1_0_0_0_1 : S249x249x8x8.Slices ![0, 0, 0, 1] S249x249x1x1
  slices_S249x249x8x8_S249x249x1x1_0_0_0_2 : S249x249x8x8.Slices ![0, 0, 0, 2] S249x249x1x1
  slices_S249x249x8x8_S249x249x1x1_0_0_0_3 : S249x249x8x8.Slices ![0, 0, 0, 3] S249x249x1x1
  slices_S249x249x8x8_S249x249x1x1_0_0_0_4 : S249x249x8x8.Slices ![0, 0, 0, 4] S249x249x1x1
  slices_S249x249x8x8_S249x249x1x1_0_0_0_5 : S249x249x8x8.Slices ![0, 0, 0, 5] S249x249x1x1
  slices_S249x249x8x8_S249x249x1x1_0_0_0_6 : S249x249x8x8.Slices ![0, 0, 0, 6] S249x249x1x1
  slices_S249x249x8x8_S249x249x1x1_0_0_0_7 : S249x249x8x8.Slices ![0, 0, 0, 7] S249x249x1x1
  slices_S249x249x8x8_S249x249x1x1_0_0_1_0 : S249x249x8x8.Slices ![0, 0, 1, 0] S249x249x1x1
  slices_S249x249x8x8_S249x249x1x1_0_0_1_1 : S249x249x8x8.Slices ![0, 0, 1, 1] S249x249x1x1
  slices_S249x249x8x8_S249x249x1x1_0_0_1_2 : S249x249x8x8.Slices ![0, 0, 1, 2] S249x249x1x1
  slices_S249x249x8x8_S249x249x1x1_0_0_1_3 : S249x249x8x8.Slices ![0, 0, 1, 3] S249x249x1x1
  slices_S249x249x8x8_S249x249x1x1_0_0_1_4 : S249x249x8x8.Slices ![0, 0, 1, 4] S249x249x1x1
  slices_S249x249x8x8_S249x249x1x1_0_0_1_5 : S249x249x8x8.Slices ![0, 0, 1, 5] S249x249x1x1
  slices_S249x249x8x8_S249x249x1x1_0_0_1_6 : S249x249x8x8.Slices ![0, 0, 1, 6] S249x249x1x1
  slices_S249x249x8x8_S249x249x1x1_0_0_1_7 : S249x249x8x8.Slices ![0, 0, 1, 7] S249x249x1x1
  slices_S249x249x8x8_S249x249x1x1_0_0_2_0 : S249x249x8x8.Slices ![0, 0, 2, 0] S249x249x1x1
  slices_S249x249x8x8_S249x249x1x1_0_0_2_1 : S249x249x8x8.Slices ![0, 0, 2, 1] S249x249x1x1
  slices_S249x249x8x8_S249x249x1x1_0_0_2_2 : S249x249x8x8.Slices ![0, 0, 2, 2] S249x249x1x1
  slices_S249x249x8x8_S249x249x1x1_0_0_2_3 : S249x249x8x8.Slices ![0, 0, 2, 3] S249x249x1x1
  slices_S249x249x8x8_S249x249x1x1_0_0_2_4 : S249x249x8x8.Slices ![0, 0, 2, 4] S249x249x1x1
  slices_S249x249x8x8_S249x249x1x1_0_0_2_5 : S249x249x8x8.Slices ![0, 0, 2, 5] S249x249x1x1
  slices_S249x249x8x8_S249x249x1x1_0_0_2_6 : S249x249x8x8.Slices ![0, 0, 2, 6] S249x249x1x1
  slices_S249x249x8x8_S249x249x1x1_0_0_2_7 : S249x249x8x8.Slices ![0, 0, 2, 7] S249x249x1x1
  slices_S249x249x8x8_S249x249x1x1_0_0_3_0 : S249x249x8x8.Slices ![0, 0, 3, 0] S249x249x1x1
  slices_S249x249x8x8_S249x249x1x1_0_0_3_1 : S249x249x8x8.Slices ![0, 0, 3, 1] S249x249x1x1
  slices_S249x249x8x8_S249x249x1x1_0_0_3_2 : S249x249x8x8.Slices ![0, 0, 3, 2] S249x249x1x1
  slices_S249x249x8x8_S249x249x1x1_0_0_3_3 : S249x249x8x8.Slices ![0, 0, 3, 3] S249x249x1x1
  slices_S249x249x8x8_S249x249x1x1_0_0_3_4 : S249x249x8x8.Slices ![0, 0, 3, 4] S249x249x1x1
  slices_S249x249x8x8_S249x249x1x1_0_0_3_5 : S249x249x8x8.Slices ![0, 0, 3, 5] S249x249x1x1
  slices_S249x249x8x8_S249x249x1x1_0_0_3_6 : S249x249x8x8.Slices ![0, 0, 3, 6] S249x249x1x1
  slices_S249x249x8x8_S249x249x1x1_0_0_3_7 : S249x249x8x8.Slices ![0, 0, 3, 7] S249x249x1x1
  slices_S249x249x8x8_S249x249x1x1_0_0_4_0 : S249x249x8x8.Slices ![0, 0, 4, 0] S249x249x1x1
  slices_S249x249x8x8_S249x249x1x1_0_0_4_1 : S249x249x8x8.Slices ![0, 0, 4, 1] S249x249x1x1
  slices_S249x249x8x8_S249x249x1x1_0_0_4_2 : S249x249x8x8.Slices ![0, 0, 4, 2] S249x249x1x1
  slices_S249x249x8x8_S249x249x1x1_0_0_4_3 : S249x249x8x8.Slices ![0, 0, 4, 3] S249x249x1x1
  slices_S249x249x8x8_S249x249x1x1_0_0_4_4 : S249x249x8x8.Slices ![0, 0, 4, 4] S249x249x1x1
  slices_S249x249x8x8_S249x249x1x1_0_0_4_5 : S249x249x8x8.Slices ![0, 0, 4, 5] S249x249x1x1
  slices_S249x249x8x8_S249x249x1x1_0_0_4_6 : S249x249x8x8.Slices ![0, 0, 4, 6] S249x249x1x1
  slices_S249x249x8x8_S249x249x1x1_0_0_4_7 : S249x249x8x8.Slices ![0, 0, 4, 7] S249x249x1x1
  slices_S249x249x8x8_S249x249x1x1_0_0_5_0 : S249x249x8x8.Slices ![0, 0, 5, 0] S249x249x1x1
  slices_S249x249x8x8_S249x249x1x1_0_0_5_1 : S249x249x8x8.Slices ![0, 0, 5, 1] S249x249x1x1
  slices_S249x249x8x8_S249x249x1x1_0_0_5_2 : S249x249x8x8.Slices ![0, 0, 5, 2] S249x249x1x1
  slices_S249x249x8x8_S249x249x1x1_0_0_5_3 : S249x249x8x8.Slices ![0, 0, 5, 3] S249x249x1x1
  slices_S249x249x8x8_S249x249x1x1_0_0_5_4 : S249x249x8x8.Slices ![0, 0, 5, 4] S249x249x1x1
  slices_S249x249x8x8_S249x249x1x1_0_0_5_5 : S249x249x8x8.Slices ![0, 0, 5, 5] S249x249x1x1
  slices_S249x249x8x8_S249x249x1x1_0_0_5_6 : S249x249x8x8.Slices ![0, 0, 5, 6] S249x249x1x1
  slices_S249x249x8x8_S249x249x1x1_0_0_5_7 : S249x249x8x8.Slices ![0, 0, 5, 7] S249x249x1x1
  slices_S249x249x8x8_S249x249x1x1_0_0_6_0 : S249x249x8x8.Slices ![0, 0, 6, 0] S249x249x1x1
  slices_S249x249x8x8_S249x249x1x1_0_0_6_1 : S249x249x8x8.Slices ![0, 0, 6, 1] S249x249x1x1
  slices_S249x249x8x8_S249x249x1x1_0_0_6_2 : S249x249x8x8.Slices ![0, 0, 6, 2] S249x249x1x1
  slices_S249x249x8x8_S249x249x1x1_0_0_6_3 : S249x249x8x8.Slices ![0, 0, 6, 3] S249x249x1x1
  slices_S249x249x8x8_S249x249x1x1_0_0_6_4 : S249x249x8x8.Slices ![0, 0, 6, 4] S249x249x1x1
  slices_S249x249x8x8_S249x249x1x1_0_0_6_5 : S249x249x8x8.Slices ![0, 0, 6, 5] S249x249x1x1
  slices_S249x249x8x8_S249x249x1x1_0_0_6_6 : S249x249x8x8.Slices ![0, 0, 6, 6] S249x249x1x1
  slices_S249x249x8x8_S249x249x1x1_0_0_6_7 : S249x249x8x8.Slices ![0, 0, 6, 7] S249x249x1x1
  slices_S249x249x8x8_S249x249x1x1_0_0_7_0 : S249x249x8x8.Slices ![0, 0, 7, 0] S249x249x1x1
  slices_S249x249x8x8_S249x249x1x1_0_0_7_1 : S249x249x8x8.Slices ![0, 0, 7, 1] S249x249x1x1
  slices_S249x249x8x8_S249x249x1x1_0_0_7_2 : S249x249x8x8.Slices ![0, 0, 7, 2] S249x249x1x1
  slices_S249x249x8x8_S249x249x1x1_0_0_7_3 : S249x249x8x8.Slices ![0, 0, 7, 3] S249x249x1x1
  slices_S249x249x8x8_S249x249x1x1_0_0_7_4 : S249x249x8x8.Slices ![0, 0, 7, 4] S249x249x1x1
  slices_S249x249x8x8_S249x249x1x1_0_0_7_5 : S249x249x8x8.Slices ![0, 0, 7, 5] S249x249x1x1
  slices_S249x249x8x8_S249x249x1x1_0_0_7_6 : S249x249x8x8.Slices ![0, 0, 7, 6] S249x249x1x1
  slices_S249x249x8x8_S249x249x1x1_0_0_7_7 : S249x249x8x8.Slices ![0, 0, 7, 7] S249x249x1x1
  bcast_S256x256_S1x256x256_1_2 : S256x256.BroadcastsInDim S1x256x256 (![1, 2] : Fin 2 → Fin S1x256x256.rank)
  bcast_S1x256x256_S16x256x256_0_1_2 : S1x256x256.BroadcastsInDim S16x256x256 (![0, 1, 2] : Fin 3 → Fin S16x256x256.rank)
  shapeCasts_S16x256x256_S2x8x256x256 : S16x256x256.ShapeCasts S2x8x256x256
  scatter_S16x62001x64_S62001x1_S16x62001x64_02_1_1_1_wf : ScatterDims.WF S16x62001x64 S62001x1 S16x62001x64 [0, 2] [1] [1] 1
  scatter_S16x256x256_S2_S16x249x249_012_n_12_0_wf : ScatterDims.WF S16x256x256 S2 S16x249x249 [0, 1, 2] [] [1, 2] 0
  scatter_S62001x64_S62001x1_S62001x64_1_0_0_1_wf : ScatterDims.WF S62001x64 S62001x1 S62001x64 [1] [0] [0] 1
  scatter_S256x256_S2_S249x249_01_n_01_0_wf : ScatterDims.WF S256x256 S2 S249x249 [0, 1] [] [0, 1] 0

variable [Facts₀]

def scatter_S16x62001x64_S62001x1_S16x62001x64_02_1_1_1 : ScatterDims S16x62001x64 S62001x1 S16x62001x64 where
  updateWindowDims := [0, 2]
  insertedWindowDims := [1]
  scatterDimsToOperandDims := [1]
  indexVectorDim := 1
  wf := scatter_S16x62001x64_S62001x1_S16x62001x64_02_1_1_1_wf
def scatter_S16x256x256_S2_S16x249x249_012_n_12_0 : ScatterDims S16x256x256 S2 S16x249x249 where
  updateWindowDims := [0, 1, 2]
  insertedWindowDims := []
  scatterDimsToOperandDims := [1, 2]
  indexVectorDim := 0
  wf := scatter_S16x256x256_S2_S16x249x249_012_n_12_0_wf
def scatter_S62001x64_S62001x1_S62001x64_1_0_0_1 : ScatterDims S62001x64 S62001x1 S62001x64 where
  updateWindowDims := [1]
  insertedWindowDims := [0]
  scatterDimsToOperandDims := [0]
  indexVectorDim := 1
  wf := scatter_S62001x64_S62001x1_S62001x64_1_0_0_1_wf
def scatter_S256x256_S2_S249x249_01_n_01_0 : ScatterDims S256x256 S2 S249x249 where
  updateWindowDims := [0, 1]
  insertedWindowDims := []
  scatterDimsToOperandDims := [0, 1]
  indexVectorDim := 0
  wf := scatter_S256x256_S2_S249x249_01_n_01_0_wf

class Facts : Prop extends Facts₀ where

variable [Facts]
-- ==== Proof.Spec.lean ====
/-
  The overlap-add fold as a pure function. A patch grid holds, for each of the 64 in-patch offsets
  (i, j) with 0 ≤ i, j < 8, a 249 × 249 slab; the image is 256 × 256. One step adds slab (i, j) into the
  image window whose top-left corner is (i, j): pixel (a, b) receives slab entry (a - i, b - j) when that
  entry exists, and is left alone otherwise. The fold runs the 64 steps in the order of the flat offset
  k = 8 i + j, starting from the zero image.

  The slabs come from scattering the input rows: row p of the input goes to position mask(p) of an array of
  62001 = 249 * 249 positions (a negative position first moved up by 62001, a position still outside dropped,
  the later row winning where two rows name one position); position 249 r + c is entry (r, c) of every
  slab. The count map is the same fold of the scattered constant one. The result is the fold of the rows
  divided, pixel by pixel, by the fold of the counts.
-/
import Idealize.ShloMosaic.PureOps.Ideal
import Idealize.ShloMosaic.Lib.ValueIdx

noncomputable section

namespace Cert.Fold

open Idealize.ShloMosaic Idealize.ShloMosaic.ValueIdx

/-! The shapes of the arrays the fold is stated over. -/
abbrev Sx : Shape := ⟨3, ![16, 62001, 64]⟩
abbrev Sm : Shape := ⟨1, ![62001]⟩
abbrev Sps : Shape := ⟨4, ![16, 249, 249, 64]⟩
abbrev Sone : Shape := ⟨3, ![249, 249, 64]⟩
abbrev Sxo : Shape := ⟨2, ![62001, 64]⟩
abbrev SiK : Shape := ⟨2, ![62001, 2]⟩
abbrev SiR : Shape := ⟨2, ![62001, 1]⟩
abbrev Simg : Shape := ⟨3, ![16, 256, 256]⟩
abbrev Sslab : Shape := ⟨3, ![16, 249, 249]⟩
abbrev Simg2 : Shape := ⟨2, ![256, 256]⟩
abbrev Sslab2 : Shape := ⟨2, ![249, 249]⟩
abbrev S2i : Shape := ⟨1, ![2]⟩

/-- One shifted add: pixel (a, b) gains slab entry (a - i, b - j) when i ≤ a < i + 249 and
    j ≤ b < j + 249, and keeps its value otherwise. -/
def addWin (i j : ℕ) (slab : Fin 249 → Fin 249 → EReal) (acc : Fin 256 → Fin 256 → EReal) :
    Fin 256 → Fin 256 → EReal :=
  fun a b =>
    if h : i ≤ a.val ∧ a.val < i + 249 ∧ j ≤ b.val ∧ b.val < j + 249 then
      acc a b + slab ⟨a.val - i, by omega⟩ ⟨b.val - j, by omega⟩
    else acc a b

/-- The 64 shifted adds in the order of the flat offset k = 8 i + j, from the zero image (the zero is kept
    as the float word both programs write). -/
def foldImg (Q : Fin 64 → Fin 249 → Fin 249 → EReal) : Fin 256 → Fin 256 → EReal :=
  (List.finRange 64).foldl (fun acc k => addWin (k.val / 8) (k.val % 8) (Q k) acc)
    (fun _ _ => Ideal.ofBits .f32 0x00000000#32)

/-- The normalised image: for each of the 16 batch entries the fold of its slabs, divided pixel by pixel
    by the fold of the count slabs (how many patches cover the pixel). -/
def Gpre (A : Fin 16 → Fin 64 → Fin 249 → Fin 249 → EReal) (B : Fin 64 → Fin 249 → Fin 249 → EReal) :
    Simg.Idx → EReal :=
  fun y => Ideal.div (foldImg (A (y 0)) (y 1) (y 2)) (foldImg B (y 1) (y 2))

/-- A negative word moved up by `k`. -/
def wrapW (k : BitVec 32) (v : BitVec 32) : BitVec 32 :=
  Scalar.select (IntOp.cmpi .slt v 0#32) (IntOp.addi v k) v

/-- The flat position of grid entry (r, c). -/
def posOf (r c : Fin 249) : Fin 62001 := ⟨249 * r.val + c.val, by omega⟩

/-- The dimension numbers of the row scatter into 62001 positions: one index per update row, naming the
    position axis; the batch and offset axes are carried whole. -/
def dRow : ScatterDims Sx SiR Sx where
  updateWindowDims := [0, 2]
  insertedWindowDims := [1]
  scatterDimsToOperandDims := [1]
  indexVectorDim := 1

/-- The same without the batch axis (the count rows). -/
def dRow1 : ScatterDims Sxo SiR Sxo where
  updateWindowDims := [1]
  insertedWindowDims := [0]
  scatterDimsToOperandDims := [0]
  indexVectorDim := 1

/-- The position each update row is sent to: its mask word, moved up by 62001 when negative. -/
def posIdx (mask : IVec Sm 32) : IVec SiR 32 := fun q => wrapW 62001#32 (mask (ix1 (q 0)))

/-- The input rows scattered to their positions, over zeros. -/
def patchRows (x : Sx.Idx → EReal) (mask : IVec Sm 32) : Sx.Idx → EReal :=
  Host.scatter dRow (fun _ b => b) (fun _ => Ideal.ofBits .f32 0x00000000#32) (posIdx mask) x

/-- The constant one scattered to the same positions, over zeros: which positions are filled. -/
def patchOnes (mask : IVec Sm 32) : Sxo.Idx → EReal :=
  Host.scatter dRow1 (fun _ b => b) (fun _ => Ideal.ofBits .f32 0x00000000#32) (posIdx mask)
    (fun _ => Ideal.ofBits .f32 0x3F800000#32)

/-- The whole result before its last reshape, as a function of the input rows and the mask. -/
def Gfinal (x : Sx.Idx → EReal) (mask : IVec Sm 32) : Simg.Idx → EReal :=
  Gpre (fun n k r c => patchRows x mask (ix3 n (posOf r c) k)) (fun k r c => patchOnes mask (ix2 (posOf r c) k))

end Cert.Fold

end
-- ==== Proof.KBody.lean ====
/-
  What the kernel body leaves in its output block. The body zeroes the 256 x 256 block and then, for each of
  the 64 offsets k = 8 i + j in order, loads slab k of its input block, loads the block's window at (i, j),
  adds, and stores the sum back to that window: one shifted add per offset. Read back, the block is the fold
  of the input block's 64 slabs.
-/
import proofs.«164016_j4801773436971_1_alg».proof.Proof.KernelIdealFrameP
import proofs.«164016_j4801773436971_1_alg».proof.Proof.Spec
import Idealize.ShloMosaic.Lib.ValueIdx
import Idealize.ShloMosaic.Lib.Pipeline.Value
import Idealize.ShloMosaic.Lib.ValueLayout

set_option maxRecDepth 16384

noncomputable section

namespace Cert.KernelIdeal.KBody

open Cert.KernelIdeal Cert.KernelIdeal.Gen Cert.KernelIdeal.GenP Cert.Fold
open Idealize.ShloMosaic Idealize.ShloMosaic.TcCoe Idealize.ShloMosaic.ValueIdx

/-! ### The image plane of the block after a list of stores -/

/-- The 256 x 256 plane the block holds after the stores `L` (last store first). -/
private def img (L : List (View.Piece (Elt Ideal) S1x256x256 .f32)) : Fin 256 → Fin 256 → EReal :=
  fun a b => View.canon L (ix3 (0 : Fin 1) a b)

/-- The fold of the first `n` shifted adds, by recursion on `n`. -/
private def foldN (Q : Fin 64 → Fin 249 → Fin 249 → EReal) : (n : ℕ) → n ≤ 64 → Fin 256 → Fin 256 → EReal
  | 0, _ => fun _ _ => Ideal.ofBits .f32 0x00000000#32
  | n + 1, h => addWin (n / 8) (n % 8) (Q ⟨n, h⟩) (foldN Q n (Nat.le_of_succ_le h))

/-- The window at (i, j) places its entry (r, c) at pixel (i + r, j + c). -/
private theorem win_emb (i j : ℕ) (hi : i ≤ 7) (hj : j ≤ 7)
    (h : ∀ a, (![0, i, j] : Fin 3 → ℕ) a + S1x249x249.size a ≤ S1x256x256.size a) (u : Fin 1) (r c : Fin 249) :
    (Rect.unit (s := S1x256x256) ![0, i, j] S1x249x249.size h).emb (ix3 u r c)
      = ix3 (0 : Fin 1) (⟨i + r.val, by omega⟩ : Fin 256) (⟨j + c.val, by omega⟩ : Fin 256) := by
  funext a
  match a with
  | ⟨0, _⟩ => apply Fin.ext; show 0 + 1 * u.val = 0; omega
  | ⟨1, _⟩ => apply Fin.ext; show i + 1 * r.val = i + r.val; omega
  | ⟨2, _⟩ => apply Fin.ext; show j + 1 * c.val = j + c.val; omega

/-- Pixel (a, b) lies in the window at (i, j) exactly when i ≤ a < i + 249 and j ≤ b < j + 249. -/
private theorem mem_win (i j : ℕ)
    (h : ∀ a, (![0, i, j] : Fin 3 → ℕ) a + S1x249x249.size a ≤ S1x256x256.size a) (a b : Fin 256) :
    ix3 (0 : Fin 1) a b ∈ (Rect.unit (s := S1x256x256) ![0, i, j] S1x249x249.size h).set ↔
      (i ≤ a.val ∧ a.val < i + 249 ∧ j ≤ b.val ∧ b.val < j + 249) := by
  rw [Rect.mem_set_unit]
  constructor
  · intro H
    have h1 : i ≤ a.val ∧ a.val < i + 249 := H 1
    have h2 : j ≤ b.val ∧ b.val < j + 249 := H 2
    exact ⟨h1.1, h1.2, h2.1, h2.2⟩
  · intro H x
    match x with
    | ⟨0, _⟩ => show (0 : ℕ) ≤ 0 ∧ (0 : ℕ) < 0 + 1; omega
    | ⟨1, _⟩ => show i ≤ a.val ∧ a.val < i + 249; omega
    | ⟨2, _⟩ => show j ≤ b.val ∧ b.val < j + 249; omega

/-- One store to the window at (i, j) whose payload is the window's old contents plus a slab is one shifted add. -/
private theorem img_cons_win (L : List (View.Piece (Elt Ideal) S1x256x256 .f32)) (i j : ℕ) (hi : i ≤ 7) (hj : j ≤ 7)
    (h : ∀ a, (![0, i, j] : Fin 3 → ℕ) a + S1x249x249.size a ≤ S1x256x256.size a)
    (w : (Rect.unit (s := S1x256x256) ![0, i, j] S1x249x249.size h).shape.Idx → EReal)
    (slab : Fin 249 → Fin 249 → EReal)
    (hw : ∀ r c : Fin 249, w (ix3 (0 : Fin 1) r c)
        = img L (⟨i + r.val, by omega⟩ : Fin 256) (⟨j + c.val, by omega⟩ : Fin 256) + slab r c) :
    img (⟨Rect.unit (s := S1x256x256) ![0, i, j] S1x249x249.size h, w⟩ :: L) = addWin i j slab (img L) := by
  funext a b
  unfold addWin
  by_cases hc : i ≤ a.val ∧ a.val < i + 249 ∧ j ≤ b.val ∧ b.val < j + 249
  · rw [dif_pos hc]
    have key := View.canon_cons_emb (Val := Elt Ideal) (Rect.unit (s := S1x256x256) ![0, i, j] S1x249x249.size h) w L
      (ix3 (0 : Fin 1) (⟨a.val - i, by omega⟩ : Fin 249) (⟨b.val - j, by omega⟩ : Fin 249))
    rw [win_emb i j hi hj h, hw] at key
    have ea : (⟨i + (a.val - i), by omega⟩ : Fin 256) = a := Fin.ext (by show i + (a.val - i) = a.val; omega)
    have eb : (⟨j + (b.val - j), by omega⟩ : Fin 256) = b := Fin.ext (by show j + (b.val - j) = b.val; omega)
    rw [ea, eb] at key
    exact key
  · rw [dif_neg hc]
    exact View.canon_cons_of_not_mem (Val := Elt Ideal) _ L (fun hm => hc ((mem_win i j h a b).mp hm))

/-- The zero block: one store of the zero word through the whole block. -/
private theorem img_zero (h : ∀ a, (![0, 0, 0] : Fin 3 → ℕ) a + S1x256x256.size a ≤ S1x256x256.size a) :
    img ([⟨Rect.unit (s := S1x256x256) ![0, 0, 0] S1x256x256.size h, k0_pay3 (F := Ideal)⟩] :
        List (View.Piece (Elt Ideal) S1x256x256 .f32))
      = fun _ _ => Ideal.ofBits .f32 0x00000000#32 := by
  have hz : (![0, 0, 0] : Fin 3 → ℕ) = fun _ => 0 := funext fun a => by
    match a with
    | ⟨0, _⟩ => rfl
    | ⟨1, _⟩ => rfl
    | ⟨2, _⟩ => rfl
  funext a b
  show View.canon (Val := Elt Ideal) ([⟨Rect.unit (s := S1x256x256) ![0, 0, 0] S1x256x256.size h, k0_pay3 (F := Ideal)⟩] :
      List (View.Piece (Elt Ideal) S1x256x256 .f32)) (ix3 (0 : Fin 1) a b) = _
  rw [View.canon_unit_zero (S := S1x256x256) hz]
  rfl

/-- The same for the count region's body. -/
private theorem img_zero1 (h : ∀ a, (![0, 0, 0] : Fin 3 → ℕ) a + S1x256x256.size a ≤ S1x256x256.size a) :
    img ([⟨Rect.unit (s := S1x256x256) ![0, 0, 0] S1x256x256.size h, k1_pay3 (F := Ideal)⟩] :
        List (View.Piece (Elt Ideal) S1x256x256 .f32))
      = fun _ _ => Ideal.ofBits .f32 0x00000000#32 := by
  have hz : (![0, 0, 0] : Fin 3 → ℕ) = fun _ => 0 := funext fun a => by
    match a with
    | ⟨0, _⟩ => rfl
    | ⟨1, _⟩ => rfl
    | ⟨2, _⟩ => rfl
  funext a b
  show View.canon (Val := Elt Ideal) ([⟨Rect.unit (s := S1x256x256) ![0, 0, 0] S1x256x256.size h, k1_pay3 (F := Ideal)⟩] :
      List (View.Piece (Elt Ideal) S1x256x256 .f32)) (ix3 (0 : Fin 1) a b) = _
  rw [View.canon_unit_zero (S := S1x256x256) hz]
  rfl

/-! ### The fold as a recursion on the number of offsets done -/

private theorem foldl_fin_eq_foldN (Q : Fin 64 → Fin 249 → Fin 249 → EReal) : ∀ (m : ℕ) (hm : m ≤ 64),
    Fin.foldl m (fun acc (k : Fin m) => addWin (k.val / 8) (k.val % 8) (Q ⟨k.val, Nat.lt_of_lt_of_le k.isLt hm⟩) acc)
      (fun _ _ => Ideal.ofBits .f32 0x00000000#32) = foldN Q m hm
  | 0, _ => by rw [Fin.foldl_zero]; rfl
  | m + 1, hm => by
    rw [Fin.foldl_succ_last]
    show addWin (m / 8) (m % 8) (Q ⟨m, hm⟩)
        (Fin.foldl m (fun acc (k : Fin m) => addWin (k.val / 8) (k.val % 8)
          (Q ⟨k.val, Nat.lt_of_lt_of_le k.isLt (Nat.le_of_succ_le hm)⟩) acc) (fun _ _ => Ideal.ofBits .f32 0x00000000#32))
      = foldN Q (m + 1) hm
    rw [foldl_fin_eq_foldN Q m (Nat.le_of_succ_le hm)]
    rfl

private theorem foldImg_eq_foldN (Q : Fin 64 → Fin 249 → Fin 249 → EReal) :
    foldImg Q = foldN Q 64 (Nat.le_refl 64) := by
  unfold foldImg
  rw [← Fin.foldl_eq_finRange_foldl]
  exact foldl_fin_eq_foldN Q 64 (Nat.le_refl 64)

/-- One more offset: the store for offset n = 8 i + j on top of the first n. -/
private theorem img_step (Q : Fin 64 → Fin 249 → Fin 249 → EReal) (L : List (View.Piece (Elt Ideal) S1x256x256 .f32))
    (n i j : ℕ) (hn : n + 1 ≤ 64) (hi : i ≤ 7) (hj : j ≤ 7) (hij : n = 8 * i + j)
    (h : ∀ a, (![0, i, j] : Fin 3 → ℕ) a + S1x249x249.size a ≤ S1x256x256.size a)
    (w : (Rect.unit (s := S1x256x256) ![0, i, j] S1x249x249.size h).shape.Idx → EReal)
    (hw : ∀ r c : Fin 249, w (ix3 (0 : Fin 1) r c)
        = img L (⟨i + r.val, by omega⟩ : Fin 256) (⟨j + c.val, by omega⟩ : Fin 256) + Q ⟨n, hn⟩ r c)
    (hacc : img L = foldN Q n (Nat.le_of_succ_le hn)) :
    img (⟨Rect.unit (s := S1x256x256) ![0, i, j] S1x249x249.size h, w⟩ :: L) = foldN Q (n + 1) hn := by
  rw [img_cons_win L i j hi hj h w (Q ⟨n, hn⟩) hw, hacc]
  have e1 : n / 8 = i := by omega
  have e2 : n % 8 = j := by omega
  show addWin i j (Q ⟨n, hn⟩) (foldN Q n (Nat.le_of_succ_le hn))
    = addWin (n / 8) (n % 8) (Q ⟨n, hn⟩) (foldN Q n (Nat.le_of_succ_le hn))
  rw [e1, e2]

/-! ### Reading the payloads -/

/-- A [1, 1, a, b] array viewed as [a, b] reads, at (i, j), the operand at (0, 0, i, j). -/
private theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- The stored sum at entry (r, c): the loaded window's entry plus the loaded slab's entry. -/
private theorem pay_apply (Vw : Vec Ideal S1x249x249 .f32) (Vs : Vec Ideal S1x1x249x249 .f32)
    (h1 : S1x249x249.ShapeCasts S249x249) (h2 : S1x1x249x249.ShapeCasts S249x249) (h3 : S249x249.ShapeCasts S1x249x249)
    (r c : Fin 249) :
    shapeCast S1x249x249 (addf (F := Ideal) (s := S249x249) (φ := .f32) (shapeCast S249x249 Vw h1) (shapeCast S249x249 Vs h2)) h3
        (ix3 (0 : Fin 1) r c)
      = Vw (ix3 (0 : Fin 1) r c) + Vs (ix4 (0 : Fin 1) (0 : Fin 1) r c) := by
  rw [shapeCast_ab_1ab_apply, addf_apply, shapeCast_1ab_ab_apply, shapeCast_11ab_ab_apply]

/-- A load of the window at (i, j) after the stores `L` reads the image at (i + r, j + c). -/
private theorem readCov_win {sg : RefSig} {κ : Kind} {sp : Space} (v : View sg κ sp S1x256x256 .f32)
    (L : List (View.Piece (Elt Ideal) S1x256x256 .f32)) (i j : ℕ) (hi : i ≤ 7) (hj : j ≤ 7)
    (h : ∀ a, (![0, i, j] : Fin 3 → ℕ) a + S1x249x249.size a ≤ S1x256x256.size a) (r c : Fin 249) :
    v.readCov L (Rect.unit (s := S1x256x256) ![0, i, j] S1x249x249.size h).toLoadRect (ix3 (0 : Fin 1) r c)
      = img L (⟨i + r.val, by omega⟩ : Fin 256) (⟨j + c.val, by omega⟩ : Fin 256) := by
  rw [View.readCov_eq_canon']
  show View.canon L ((Rect.unit (s := S1x256x256) ![0, i, j] S1x249x249.size h).emb (ix3 (0 : Fin 1) r c)) = _
  rw [win_emb i j hi hj h]
  rfl

/-- A load of slab k of the input block reads, at (r, c), the block at (0, k, r, c). -/
private theorem ld_slab (x0 : S1x64x249x249.Idx → EReal) (k : ℕ) (hk : k < 64)
    (h : ∀ a, (![0, k, 0, 0] : Fin 4 → ℕ) a + S1x1x249x249.size a ≤ S1x64x249x249.size a) (r c : Fin 249) :
    View.ld (Val := Elt Ideal) (e' := .f32) x0 (Rect.unit (s := S1x64x249x249) ![0, k, 0, 0] S1x1x249x249.size h)
        (ix4 (0 : Fin 1) (0 : Fin 1) r c)
      = x0 (ix4 (0 : Fin 1) (⟨k, hk⟩ : Fin 64) r c) := by
  show x0 ((Rect.unit (s := S1x64x249x249) ![0, k, 0, 0] S1x1x249x249.size h).toLoadRect.idx (ix4 (0 : Fin 1) (0 : Fin 1) r c)) = _
  congr 1
  funext a
  match a with
  | ⟨0, _⟩ => apply Fin.ext; show 0 + 1 * 0 = 0; omega
  | ⟨1, _⟩ => apply Fin.ext; show k + 1 * 0 = k; omega
  | ⟨2, _⟩ => apply Fin.ext; show 0 + 1 * r.val = r.val; omega
  | ⟨3, _⟩ => apply Fin.ext; show 0 + 1 * c.val = c.val; omega

/-- A load of slab k through the input block's whole staging memref. -/
private theorem readAt_slab (m : Memref sig .tc .vmem S1x64x249x249 .f32) (hm : m.IsWhole)
    (x0 : Vec Ideal S1x64x249x249 .f32) (k : ℕ) (hk : k < 64)
    (h : ∀ a, (![0, k, 0, 0] : Fin 4 → ℕ) a + S1x1x249x249.size a ≤ S1x64x249x249.size a) (r c : Fin 249) :
    View.readAt (Elt Ideal) m.view (Rect.unit (s := S1x64x249x249) ![0, k, 0, 0] S1x1x249x249.size h).toLoadRect
        (hm.unread x0) (ix4 (0 : Fin 1) (0 : Fin 1) r c)
      = x0 (ix4 (0 : Fin 1) (⟨k, hk⟩ : Fin 64) r c) := by
  rw [View.readAt_eq_ld, hm.read_unread]
  exact ld_slab x0 k hk h r c

/-- The payload of the store for offset k = 8 i + j, at entry (r, c): the image so far at (i + r, j + c) plus
    the input block at (0, k, r, c). -/
private theorem hw_canon (m : Memref sig .tc .vmem S1x64x249x249 .f32) (hm : m.IsWhole)
    (x0 : Vec Ideal S1x64x249x249 .f32) {sg : RefSig} {κ : Kind} {sp : Space} (v : View sg κ sp S1x256x256 .f32)
    (L : List (View.Piece (Elt Ideal) S1x256x256 .f32)) (i j k : ℕ) (hi : i ≤ 7) (hj : j ≤ 7) (hk : k < 64)
    (h : ∀ a, (![0, i, j] : Fin 3 → ℕ) a + S1x249x249.size a ≤ S1x256x256.size a)
    (h' : ∀ a, (![0, k, 0, 0] : Fin 4 → ℕ) a + S1x1x249x249.size a ≤ S1x64x249x249.size a)
    (h1 : S1x249x249.ShapeCasts S249x249) (h2 : S1x1x249x249.ShapeCasts S249x249) (h3 : S249x249.ShapeCasts S1x249x249)
    (r c : Fin 249) :
    shapeCast S1x249x249
        (addf (F := Ideal) (s := S249x249) (φ := .f32)
          (shapeCast S249x249 (v.readCov L (Rect.unit (s := S1x256x256) ![0, i, j] S1x249x249.size h).toLoadRect) h1)
          (shapeCast S249x249
            (View.readAt (Elt Ideal) m.view (Rect.unit (s := S1x64x249x249) ![0, k, 0, 0] S1x1x249x249.size h').toLoadRect
              (hm.unread x0)) h2)) h3
        (ix3 (0 : Fin 1) r c)
      = img L (⟨i + r.val, by omega⟩ : Fin 256) (⟨j + c.val, by omega⟩ : Fin 256)
          + x0 (ix4 (0 : Fin 1) (⟨k, hk⟩ : Fin 64) r c) := by
  rw [pay_apply, readCov_win v L i j hi hj h, readAt_slab m hm x0 k hk h']

/-- One offset of the fold: open the next store, check the three index facts, read its payload. -/
macro "kstep" : tactic => `(tactic| (
  refine img_step _ _ _ _ _ _ ?_ ?_ ?_ _ _ ?_ ?_
  · omega
  · omega
  · omega
  · intro r c
    refine hw_canon _ _ _ _ _ _ _ _ ?_ ?_ ?_ _ _ _ _ _ r c <;> omega))

/-- Region 0 (the 16 batch images): the block after the body is the fold of the input block's slabs. -/
theorem out0_eq (c : Dev nD) (i : grid0.Coords) (arg1 : Memref sig .tc .vmem S1x64x249x249 .f32) (harg1 : arg1.IsWhole)
    (arg2 : Memref sig .tc .vmem S1x256x256 .f32) (harg2 : arg2.IsWhole) (x0 : Vec Ideal S1x64x249x249 .f32) :
    out0_A_1 (F := Ideal) c i arg1 harg1 arg2 harg2 x0
      = fun y => foldImg (fun k r c' => x0 (ix4 0 k r c')) (y 1) (y 2) := by
  unfold out0_A_1
  rw [View.read_writes_junk_eq_canon]
  funext y
  obtain ⟨u, a, b, rfl⟩ : ∃ (u : Fin 1) (a b : Fin 256), y = ix3 u a b := ⟨y 0, y 1, y 2, eq_ix3 y⟩
  obtain rfl : u = 0 := Subsingleton.elim _ _
  show img (kernelRun0_A (F := Ideal) c i arg1 harg1 arg2 harg2 x0).1 a b
    = foldImg (fun k r c' => x0 (ix4 0 k r c')) a b
  rw [foldImg_eq_foldN]
  refine congrFun (congrFun ?_ a) b
  unfold kernelRun0_A
  dsimp only
  iterate 64 kstep
  exact img_zero _

/-- Region 1 (the count map): the same body at a grid of one point. -/
theorem out1_eq (c : Dev nD) (i : grid1.Coords) (arg1 : Memref sig .tc .vmem S1x64x249x249 .f32) (harg1 : arg1.IsWhole)
    (arg2 : Memref sig .tc .vmem S1x256x256 .f32) (harg2 : arg2.IsWhole) (x0 : Vec Ideal S1x64x249x249 .f32) :
    out1_A_1 (F := Ideal) c i arg1 harg1 arg2 harg2 x0
      = fun y => foldImg (fun k r c' => x0 (ix4 0 k r c')) (y 1) (y 2) := by
  unfold out1_A_1
  rw [View.read_writes_junk_eq_canon]
  funext y
  obtain ⟨u, a, b, rfl⟩ : ∃ (u : Fin 1) (a b : Fin 256), y = ix3 u a b := ⟨y 0, y 1, y 2, eq_ix3 y⟩
  obtain rfl : u = 0 := Subsingleton.elim _ _
  show img (kernelRun1_A (F := Ideal) c i arg1 harg1 arg2 harg2 x0).1 a b
    = foldImg (fun k r c' => x0 (ix4 0 k r c')) a b
  rw [foldImg_eq_foldN]
  refine congrFun (congrFun ?_ a) b
  unfold kernelRun1_A
  dsimp only
  iterate 64 kstep
  exact img_zero1 _

end Cert.KernelIdeal.KBody

end
-- ==== Proof.IndexWords.lean ====
/-
  The index arithmetic on one 32-bit word, read as integers. The patch position p = mask is split into a
  row, the floor of p / 249, and a column, p mod 249 taken non-negative; a negative row or column is then
  moved up by 249, and on the other side a negative position is moved up by 62001 = 249 * 249. Each chain of
  word operations is shown to compute the stated integer function of the word's signed value; no overflow
  can occur because the divisor is the positive constant 249.
-/
import proofs.«164016_j4801773436971_1_alg».proof.Proof.Spec
import Idealize.ShloMosaic.Lib.Affine

namespace Cert.Fold

open Idealize.ShloMosaic

/- On the integers `/` and `%` below are floor division and the non-negative remainder for the positive
   divisor 249: at -1 they give -1 and 248 (truncation would give 0 and -1). -/
example : (-1 : Int) / 249 = -1 := by decide
example : (-1 : Int) % 249 = 248 := by decide
example : (-62001 : Int) / 249 = -249 := by decide

/-- The sign of a word as a word: 0, -1 or 1. -/
def signW (x : BitVec 32) : BitVec 32 := if x = 0 then 0 else if x.msb then -1 else 1

/-- Floor division of a word by 249, as the program composes it from truncated division, the signs and
    the truncated remainder. -/
def floorDivW (m : BitVec 32) : BitVec 32 :=
  Scalar.select
    (IntOp.andi (IntOp.cmpi .ne (signW m) (signW 249#32)) (IntOp.cmpi .ne (IntOp.remsi .host m 249#32) 0#32))
    (IntOp.subi (IntOp.divsi .host m 249#32) 1#32) (IntOp.divsi .host m 249#32)

/-- The non-negative remainder of a word by 249, as the program composes it (the divisor is first guarded
    against zero). -/
def modW (m : BitVec 32) : BitVec 32 :=
  let d : BitVec 32 := Scalar.select (IntOp.cmpi .eq 249#32 0#32) 1#32 249#32
  let r := IntOp.remsi .host m d
  Scalar.select
    (IntOp.andi (IntOp.cmpi .ne (IntOp.cmpi .slt r 0#32) (IntOp.cmpi .slt d 0#32)) (IntOp.cmpi .ne r 0#32))
    (IntOp.addi r d) r

/-! ### The facts the five statements rest on -/

private theorem toInt_249 : (249#32 : BitVec 32).toInt = 249 := by decide
private theorem toInt_62001 : (62001#32 : BitVec 32).toInt = 62001 := by decide

/-- The signed value of a 32-bit word lies in [-2^31, 2^31). -/
private theorem toInt_bounds (m : BitVec 32) : -2147483648 ≤ m.toInt ∧ m.toInt < 2147483648 := by
  have h1 : -2 ^ 31 ≤ m.toInt := BitVec.le_toInt m
  have h2 : m.toInt < 2 ^ 31 := BitVec.toInt_lt
  constructor <;> omega

/-- An integer in the signed 32-bit range is its own balanced remainder modulo 2^32. -/
private theorem bmod_small {n : Int} (h1 : -2147483648 ≤ n) (h2 : n < 2147483648) :
    n.bmod (2 ^ 32) = n := Int.bmod_eq_of_le (by omega) (by omega)

/-- Truncated division by 249 against floor division: they differ by one exactly when the dividend is
    negative and not a multiple of 249. -/
private theorem tdiv249 (a : Int) :
    a.tdiv 249 = if 0 ≤ a ∨ a % 249 = 0 then a / 249 else a / 249 + 1 := by
  simp only [Int.tdiv_eq_ediv, Int.dvd_iff_emod_eq_zero]
  split
  · simp
  · rfl

/-- The truncated remainder by 249 against the non-negative one: it is 249 less exactly when the dividend
    is negative and not a multiple of 249. -/
private theorem tmod249 (a : Int) :
    a.tmod 249 = if 0 ≤ a ∨ a % 249 = 0 then a % 249 else a % 249 - 249 := by
  simp only [Int.tmod_eq_emod, Int.dvd_iff_emod_eq_zero]
  split
  · simp
  · rfl

/-- A positive divisor never meets the corner of signed division: the quotient is the truncated one. -/
private theorem divsi_of_pos (u : ArithUnit) {x y : BitVec 32} (hy : 0 < y.toInt) :
    IntOp.divsi u x y = x.sdiv y := if_neg (IntOp.not_corner_of_pos hy)

private theorem divsi_toInt (m : BitVec 32) :
    (IntOp.divsi .host m 249#32).toInt = m.toInt.tdiv 249 := by
  rw [divsi_of_pos .host (by decide), BitVec.toInt_sdiv_of_ne_or_ne m _ (Or.inr (by decide)), toInt_249]

private theorem remsi_toInt (m : BitVec 32) :
    (IntOp.remsi .host m 249#32).toInt = m.toInt.tmod 249 := by
  rw [IntOp.remsi_of_pos .host (by decide), BitVec.toInt_srem, toInt_249]

/-- A word is nonzero exactly when its signed value is. -/
private theorem ne_zero_iff (r : BitVec 32) : r ≠ 0#32 ↔ r.toInt ≠ 0 := by
  rw [Ne, Ne, ← BitVec.toInt_inj, BitVec.toInt_zero]

/-- A one-bit word other than 0 is 1. -/
private theorem bit_ne_zero {c : BitVec 1} : c ≠ 0#1 ↔ c = 1#1 := by revert c; decide

/-- A select on a one-bit condition, with the condition compared to the one-bit word 1. -/
private theorem select_eq {α : Type} (c : BitVec 1) (a b : α) :
    Scalar.select c a b = if c = 1#1 then a else b := rfl

private theorem signW_249 : signW 249#32 = 1#32 := by decide

/-- The sign of a word differs from the sign of 249 exactly when the word is zero or negative. -/
private theorem signW_ne_iff (m : BitVec 32) : signW m ≠ signW 249#32 ↔ m.toInt ≤ 0 := by
  rw [signW_249]
  unfold signW
  by_cases h0 : m = 0
  · subst h0; simp
  · rw [if_neg h0]
    have hne : m.toInt ≠ 0 := (ne_zero_iff m).mp h0
    cases hm : m.msb
    · have := BitVec.toInt_nonneg_of_msb_false hm
      simp; omega
    · have := BitVec.toInt_neg_of_msb_true hm
      simp; omega

private theorem modW_d : Scalar.select (IntOp.cmpi .eq 249#32 0#32) 1#32 249#32 = 249#32 := by decide
private theorem slt_249_0 : IntOp.cmpi .slt 249#32 0#32 = 0#1 := by decide

/-- A negative word moved up by a non-negative word: the sum stays in range, so on signed values it is
    plain addition. -/
private theorem wrapW_toInt (k v : BitVec 32) (hk : 0 ≤ k.toInt) :
    (wrapW k v).toInt = if v.toInt < 0 then v.toInt + k.toInt else v.toInt := by
  obtain ⟨hlo, hhi⟩ := toInt_bounds v
  obtain ⟨klo, khi⟩ := toInt_bounds k
  unfold wrapW
  rw [select_eq]
  split
  · rename_i hc
    rw [IntOp.cmpi_slt, BitVec.toInt_zero] at hc
    show (v + k).toInt = _
    rw [BitVec.toInt_add, if_pos hc, bmod_small] <;> omega
  · rename_i hc
    rw [IntOp.cmpi_slt, BitVec.toInt_zero] at hc
    rw [if_neg hc]

/-! ### The five statements -/

theorem floorDivW_toInt (m : BitVec 32) : (floorDivW m).toInt = m.toInt / 249 := by
  obtain ⟨hlo, hhi⟩ := toInt_bounds m
  have hq := divsi_toInt m
  have hr := remsi_toInt m
  unfold floorDivW
  rw [select_eq]
  split
  · rename_i hc
    rw [IntOp.andi_eq_one, IntOp.cmpi_ne, IntOp.cmpi_ne, signW_ne_iff, ne_zero_iff, hr, tmod249] at hc
    show (IntOp.divsi .host m 249#32 - 1#32).toInt = _
    rw [BitVec.toInt_sub, hq, tdiv249, BitVec.toInt_one (by decide), bmod_small] <;> omega
  · rename_i hc
    rw [IntOp.andi_eq_one, IntOp.cmpi_ne, IntOp.cmpi_ne, signW_ne_iff, ne_zero_iff, hr, tmod249] at hc
    rw [hq, tdiv249]; omega

theorem modW_toInt (m : BitVec 32) : (modW m).toInt = m.toInt % 249 := by
  obtain ⟨hlo, hhi⟩ := toInt_bounds m
  have hr := remsi_toInt m
  unfold modW
  simp only [modW_d, slt_249_0]
  rw [select_eq]
  split
  · rename_i hc
    rw [IntOp.andi_eq_one, IntOp.cmpi_ne, bit_ne_zero, IntOp.cmpi_slt, IntOp.cmpi_ne, ne_zero_iff,
      BitVec.toInt_zero, hr, tmod249] at hc
    show (IntOp.remsi .host m 249#32 + 249#32).toInt = _
    rw [BitVec.toInt_add, hr, toInt_249, tmod249, bmod_small] <;> omega
  · rename_i hc
    rw [IntOp.andi_eq_one, IntOp.cmpi_ne, bit_ne_zero, IntOp.cmpi_slt, IntOp.cmpi_ne, ne_zero_iff,
      BitVec.toInt_zero, hr, tmod249] at hc
    rw [hr, tmod249]; omega

/-- The row index the two-index scatter reads: the floor quotient, moved up by 249 when negative. -/
theorem row_toInt (m : BitVec 32) :
    (wrapW 249#32 (floorDivW m)).toInt = if m.toInt / 249 < 0 then m.toInt / 249 + 249 else m.toInt / 249 := by
  rw [wrapW_toInt _ _ (by decide), floorDivW_toInt, toInt_249]

/-- The column index the two-index scatter reads: the non-negative remainder (never moved). -/
theorem col_toInt (m : BitVec 32) : (wrapW 249#32 (modW m)).toInt = m.toInt % 249 := by
  rw [wrapW_toInt _ _ (by decide), modW_toInt, toInt_249]
  omega

/-- The position the one-index scatter reads: the word, moved up by 62001 when negative. -/
theorem pos_toInt (m : BitVec 32) :
    (wrapW 62001#32 m).toInt = if m.toInt < 0 then m.toInt + 62001 else m.toInt := by
  rw [wrapW_toInt _ _ (by decide), toInt_62001]

end Cert.Fold
-- ==== Proof.ScatterGen.lean ====
/-
  Two general facts about the host scatter, read as the left fold over its updates in row-major order,
  each update replacing the element it lands on by the body applied to that element and the update, and an
  update that lands outside the operand being dropped.

  * Simulation: take two scatters over the same updates, into operands whose indices correspond by a
    bijection, and suppose every update lands at corresponding indices (or is dropped by both). If the two
    operands agree through the bijection, so do the two results. No property of the body is used, so this
    covers overwriting with repeated indices, where the last update in row-major order wins on both sides.

  * Unique landing: if no two updates land on the same element, the result at an element is the body
    applied to the old value and the one update that lands there, and the old value where none lands.
-/
import Idealize.ShloMosaic.PureOps.ShapeOps

namespace Cert.Fold

open Idealize.ShloMosaic

variable {α : Type}

/-- One step of the scatter's fold. -/
def scatterStep {s si u : Shape} {w : ℕ} (d : ScatterDims s si u) (f : α → α → α) (idx : IVec si w)
    (upd : u.Idx → α) (r : s.Idx → α) (n : Fin u.numel) : s.Idx → α :=
  match d.resultIdx? (u.rowMajor.symm n) idx with
  | some i => fun i' => if i' = i then f (r i) (upd (u.rowMajor.symm n)) else r i'
  | none => r

theorem scatter_eq_foldl {s si u : Shape} {w : ℕ} (d : ScatterDims s si u) (f : α → α → α) (x : s.Idx → α)
    (idx : IVec si w) (upd : u.Idx → α) :
    Host.scatter d f x idx upd = (List.finRange u.numel).foldl (scatterStep d f idx upd) x := rfl

theorem scatterStep_some {s si u : Shape} {w : ℕ} (d : ScatterDims s si u) (f : α → α → α) (idx : IVec si w)
    (upd : u.Idx → α) (r : s.Idx → α) (n : Fin u.numel) (i : s.Idx)
    (h : d.resultIdx? (u.rowMajor.symm n) idx = some i) :
    scatterStep d f idx upd r n = fun i' => if i' = i then f (r i) (upd (u.rowMajor.symm n)) else r i' := by
  unfold scatterStep; rw [h]

theorem scatterStep_none {s si u : Shape} {w : ℕ} (d : ScatterDims s si u) (f : α → α → α) (idx : IVec si w)
    (upd : u.Idx → α) (r : s.Idx → α) (n : Fin u.numel)
    (h : d.resultIdx? (u.rowMajor.symm n) idx = none) :
    scatterStep d f idx upd r n = r := by
  unfold scatterStep; rw [h]

/-- Simulation of one scatter by another through a bijection of the operands' indices. -/
theorem scatter_sim {s₁ s₂ si₁ si₂ u : Shape} {w₁ w₂ : ℕ} (d₁ : ScatterDims s₁ si₁ u) (d₂ : ScatterDims s₂ si₂ u)
    (f : α → α → α) (φ : s₁.Idx ≃ s₂.Idx) (x₁ : s₁.Idx → α) (x₂ : s₂.Idx → α) (hx : ∀ i, x₂ (φ i) = x₁ i)
    (idx₁ : IVec si₁ w₁) (idx₂ : IVec si₂ w₂) (upd : u.Idx → α)
    (h : ∀ j, d₂.resultIdx? j idx₂ = (d₁.resultIdx? j idx₁).map φ) (i : s₁.Idx) :
    Host.scatter d₂ f x₂ idx₂ upd (φ i) = Host.scatter d₁ f x₁ idx₁ upd i := by
  rw [scatter_eq_foldl, scatter_eq_foldl]
  have key : ∀ (L : List (Fin u.numel)) (r₁ : s₁.Idx → α) (r₂ : s₂.Idx → α), (∀ i, r₂ (φ i) = r₁ i) →
      ∀ i, (L.foldl (scatterStep d₂ f idx₂ upd) r₂) (φ i) = (L.foldl (scatterStep d₁ f idx₁ upd) r₁) i := by
    intro L
    induction L with
    | nil => intro r₁ r₂ hr i; exact hr i
    | cons n L ih =>
      intro r₁ r₂ hr i
      rw [List.foldl_cons, List.foldl_cons]
      apply ih
      intro i'
      have e := h (u.rowMajor.symm n)
      cases h₁ : d₁.resultIdx? (u.rowMajor.symm n) idx₁ with
      | none =>
        rw [h₁, Option.map_none] at e
        rw [scatterStep_none d₂ f idx₂ upd r₂ n e, scatterStep_none d₁ f idx₁ upd r₁ n h₁]
        exact hr i'
      | some k =>
        rw [h₁, Option.map_some] at e
        rw [scatterStep_some d₂ f idx₂ upd r₂ n (φ k) e, scatterStep_some d₁ f idx₁ upd r₁ n k h₁]
        show (if φ i' = φ k then f (r₂ (φ k)) (upd (u.rowMajor.symm n)) else r₂ (φ i')) =
          (if i' = k then f (r₁ k) (upd (u.rowMajor.symm n)) else r₁ i')
        rw [hr k, hr i']
        by_cases hik : i' = k
        · rw [if_pos hik, if_pos (by rw [hik])]
        · rw [if_neg hik, if_neg (fun hh => hik (φ.injective hh))]
  exact key _ x₁ x₂ hx i

/-- The fold over a list without repeats, at one element, when landing is injective. -/
theorem foldl_scatterStep_unique {s si u : Shape} {w : ℕ} (d : ScatterDims s si u) (f : α → α → α) (idx : IVec si w)
    (upd : u.Idx → α)
    (hinj : ∀ j j' i, d.resultIdx? j idx = some i → d.resultIdx? j' idx = some i → j = j') (i : s.Idx) :
    ∀ (L : List (Fin u.numel)), L.Nodup → ∀ (r : s.Idx → α),
      (∀ n ∈ L, d.resultIdx? (u.rowMajor.symm n) idx = some i →
          (L.foldl (scatterStep d f idx upd) r) i = f (r i) (upd (u.rowMajor.symm n))) ∧
      ((∀ n ∈ L, d.resultIdx? (u.rowMajor.symm n) idx ≠ some i) →
          (L.foldl (scatterStep d f idx upd) r) i = r i) := by
  intro L
  induction L with
  | nil => intro _ r; exact ⟨fun n hn => absurd hn List.not_mem_nil, fun _ => rfl⟩
  | cons m L ih =>
    intro hnd r
    have hnd' := (List.nodup_cons.mp hnd)
    rw [List.foldl_cons]
    have ihr := ih hnd'.2 (scatterStep d f idx upd r m)
    -- the value of the stepped accumulator at i
    have hstep_ne : d.resultIdx? (u.rowMajor.symm m) idx ≠ some i → scatterStep d f idx upd r m i = r i := by
      intro hne
      cases hm : d.resultIdx? (u.rowMajor.symm m) idx with
      | none => rw [scatterStep_none d f idx upd r m hm]
      | some k =>
        rw [scatterStep_some d f idx upd r m k hm]
        have : i ≠ k := fun hik => hne (by rw [hm, hik])
        exact if_neg this
    have hstep_eq : d.resultIdx? (u.rowMajor.symm m) idx = some i →
        scatterStep d f idx upd r m i = f (r i) (upd (u.rowMajor.symm m)) := by
      intro hm
      rw [scatterStep_some d f idx upd r m i hm]
      exact if_pos rfl
    refine ⟨fun n hn hland => ?_, fun hnone => ?_⟩
    · rcases List.mem_cons.mp hn with rfl | hnL
      · -- the head lands at i: nothing later does
        have hlater : ∀ n' ∈ L, d.resultIdx? (u.rowMajor.symm n') idx ≠ some i := by
          intro n' hn' hl'
          have := hinj _ _ i hland hl'
          have : n = n' := u.rowMajor.symm.injective this
          exact hnd'.1 (this ▸ hn')
        rw [ihr.2 hlater, hstep_eq hland]
      · -- a later one lands at i: the head does not
        have hhead : d.resultIdx? (u.rowMajor.symm m) idx ≠ some i := by
          intro hl'
          have := hinj _ _ i hl' hland
          have : m = n := u.rowMajor.symm.injective this
          exact hnd'.1 (this ▸ hnL)
        rw [ihr.1 n hnL hland, hstep_ne hhead]
    · rw [ihr.2 (fun n hn => hnone n (List.mem_cons_of_mem _ hn)), hstep_ne (hnone m List.mem_cons_self)]

/-- Unique landing: the scatter at an element some update lands on. -/
theorem scatter_apply_of_lands {s si u : Shape} {w : ℕ} (d : ScatterDims s si u) (f : α → α → α) (x : s.Idx → α)
    (idx : IVec si w) (upd : u.Idx → α)
    (hinj : ∀ j j' i, d.resultIdx? j idx = some i → d.resultIdx? j' idx = some i → j = j')
    (i : s.Idx) (j : u.Idx) (hj : d.resultIdx? j idx = some i) :
    Host.scatter d f x idx upd i = f (x i) (upd j) := by
  rw [scatter_eq_foldl]
  have := (foldl_scatterStep_unique d f idx upd hinj i (List.finRange u.numel) (List.nodup_finRange _) x).1
    (u.rowMajor j) (List.mem_finRange _) (by rw [Equiv.symm_apply_apply]; exact hj)
  rw [this, Equiv.symm_apply_apply]

/-- Unique landing: the scatter at an element no update lands on. -/
theorem scatter_apply_of_no_land {s si u : Shape} {w : ℕ} (d : ScatterDims s si u) (f : α → α → α) (x : s.Idx → α)
    (idx : IVec si w) (upd : u.Idx → α)
    (hinj : ∀ j j' i, d.resultIdx? j idx = some i → d.resultIdx? j' idx = some i → j = j')
    (i : s.Idx) (hnone : ∀ j, d.resultIdx? j idx ≠ some i) :
    Host.scatter d f x idx upd i = x i := by
  rw [scatter_eq_foldl]
  exact (foldl_scatterStep_unique d f idx upd hinj i (List.finRange u.numel) (List.nodup_finRange _) x).2
    (fun n _ => hnone _)

end Cert.Fold
-- ==== Proof.Bridge.lean ====
/-
  The two ways of scattering the patch rows agree. One program writes row p of the updates at position
  pos(p) of an array with 62001 positions; the other writes it at (row(p), col(p)) of a 249 × 249 grid, where
  for the integer z = mask(p): row = floor(z / 249) moved up by 249 when negative, col = z mod 249, and
  pos = z moved up by 62001 when negative. Since 62001 = 249 * 249, (row, col) is inside the grid exactly when pos
  is inside the array, and then pos = 249 * row + col. Both scatters overwrite, in the same order of the
  updates, so with repeated positions the same update wins on both sides: the grid entry (r, c) holds what
  the flat array holds at 249 r + c.
-/
import proofs.«164016_j4801773436971_1_alg».proof.Proof.Spec
import proofs.«164016_j4801773436971_1_alg».proof.Proof.ScatterGen

namespace Cert.Fold

open Idealize.ShloMosaic Idealize.ShloMosaic.ValueIdx

/-! ## The arithmetic of the two addressings -/

/-- For an integer z, with row = ⌊z / 249⌋ moved up by 249 when negative, col = z mod 249 and pos = z moved up
    by 62001 when negative: the column is always inside [0, 249); the row is inside [0, 249) exactly when pos is
    inside [0, 62001); and then pos = 249 row + col. -/
private theorem grid_flat (z R C P : ℤ)
    (hR : R = if z / 249 < 0 then z / 249 + 249 else z / 249) (hC : C = z % 249)
    (hP : P = if z < 0 then z + 62001 else z) :
    (0 ≤ C ∧ C < 249) ∧ ((0 ≤ R ∧ R < 249) ↔ (0 ≤ P ∧ P < 62001)) ∧
      ((0 ≤ P ∧ P < 62001) → P = 249 * R + C) := by
  subst hR hC hP
  by_cases h1 : z / 249 < 0 <;> by_cases h2 : z < 0
  · rw [if_pos h1, if_pos h2]; omega
  · rw [if_pos h1, if_neg h2]; omega
  · rw [if_neg h1, if_pos h2]; omega
  · rw [if_neg h1, if_neg h2]; omega

/-! ## Where an update lands, from the sum of start and window on every axis -/

/-- If on every axis the window's start plus the window coordinate is the coordinate of `i`, the update
    lands at `i`. -/
private theorem resultIdx?_some {s si u : Shape} {w : ℕ} (d : ScatterDims s si u) (j : u.Idx) (idx : IVec si w)
    (i : s.Idx) (h : ∀ a, d.start j idx a + (d.window j a : ℤ) = ((i a).val : ℤ)) :
    d.resultIdx? j idx = some i := by
  have hall : ∀ a, 0 ≤ d.start j idx a + d.window j a ∧ d.start j idx a + d.window j a < s.size a := by
    intro a
    have hb : (i a).val < s.size a := (i a).isLt
    rw [h a]; omega
  unfold ScatterDims.resultIdx?
  rw [dif_pos hall]
  congr 1
  funext a
  apply Fin.ext
  show (d.start j idx a + (d.window j a : ℤ)).toNat = (i a).val
  rw [h a]; omega

/-- If on some axis the window's start plus the window coordinate is outside the operand, the update is
    dropped. -/
private theorem resultIdx?_none {s si u : Shape} {w : ℕ} (d : ScatterDims s si u) (j : u.Idx) (idx : IVec si w)
    (a : Fin s.rank)
    (h : d.start j idx a + (d.window j a : ℤ) < 0 ∨ (s.size a : ℤ) ≤ d.start j idx a + (d.window j a : ℤ)) :
    d.resultIdx? j idx = none := by
  unfold ScatterDims.resultIdx?
  rw [dif_neg]
  intro hall
  have := hall a
  omega

/-! ## The batched rows: grid (16, 249, 249, 64) against flat (16, 62001, 64) -/

/-- Grid index (n, r, c, k) ↔ flat index (n, 249 r + c, k). -/
private def gridFlat : Sps.Idx ≃ Sx.Idx where
  toFun i := ix3 (n0 := 16) (n1 := 62001) (n2 := 64) (i 0) (posOf (i 1) (i 2)) (i 3)
  invFun q := ix4 (n0 := 16) (n1 := 249) (n2 := 249) (n3 := 64) (q 0)
    ⟨(q 1).val / 249, by have h : (q 1).val < 62001 := (q 1).isLt; omega⟩
    ⟨(q 1).val % 249, by omega⟩ (q 2)
  left_inv i := by
    obtain ⟨a, b, c, d, rfl⟩ : ∃ (a : Fin 16) (b : Fin 249) (c : Fin 249) (d : Fin 64), i = ix4 a b c d :=
      ⟨i 0, i 1, i 2, i 3, eq_ix4 i⟩
    have hb := b.isLt
    have hc := c.isLt
    funext e
    match e with
    | ⟨0, _⟩ => rfl
    | ⟨1, _⟩ => exact Fin.ext (show (249 * b.val + c.val) / 249 = b.val by omega)
    | ⟨2, _⟩ => exact Fin.ext (show (249 * b.val + c.val) % 249 = c.val by omega)
    | ⟨3, _⟩ => rfl
  right_inv q := by
    obtain ⟨a, b, c, rfl⟩ : ∃ (a : Fin 16) (b : Fin 62001) (c : Fin 64), q = ix3 a b c :=
      ⟨q 0, q 1, q 2, eq_ix3 q⟩
    funext e
    match e with
    | ⟨0, _⟩ => rfl
    | ⟨1, _⟩ => exact Fin.ext (show 249 * (b.val / 249) + b.val % 249 = b.val by omega)
    | ⟨2, _⟩ => rfl

private theorem gridFlat_ix4 (n : Fin 16) (r c : Fin 249) (k : Fin 64) :
    gridFlat (ix4 n r c k) = ix3 n (posOf r c) k := rfl

section Grid
variable (dK : ScatterDims Sps SiK Sx)
    (hK : dK.updateWindowDims = [0, 2] ∧ dK.insertedWindowDims = [1, 2] ∧ dK.scatterDimsToOperandDims = [1, 2] ∧ dK.indexVectorDim = 1)
    (idxK : IVec SiK 32)

include hK

/-- Axis 0 (batch) is a window axis: start 0, window the update's batch coordinate. -/
private theorem K_axis0 (j : Sx.Idx) : dK.start j idxK 0 + (dK.window j 0 : ℤ) = ((j 0).val : ℤ) := by
  obtain ⟨uw, iw, sd, iv, wf⟩ := dK; simp only at hK; obtain ⟨rfl, rfl, rfl, rfl⟩ := hK
  have e1 : ScatterDims.start ⟨[0, 2], [1, 2], [1, 2], 1, wf⟩ j idxK 0 = 0 := rfl
  have e2 : ScatterDims.window ⟨[0, 2], [1, 2], [1, 2], 1, wf⟩ j 0 = (j 0).val := rfl
  rw [e1, e2]; omega

/-- Axis 1 (grid row) is named by the first index component: start that word read signed, window 0. -/
private theorem K_axis1 (j : Sx.Idx) : dK.start j idxK 1 + (dK.window j 1 : ℤ) = (idxK (ix2 (j 1) 0)).toInt := by
  obtain ⟨uw, iw, sd, iv, wf⟩ := dK; simp only at hK; obtain ⟨rfl, rfl, rfl, rfl⟩ := hK
  have e1 : ScatterDims.start ⟨[0, 2], [1, 2], [1, 2], 1, wf⟩ j idxK 1 = (idxK (ix2 (j 1) 0)).toInt := by
    unfold ScatterDims.start
    rw [dif_pos (show (1 : Fin 4) ∈ [(1 : Fin 4), 2] by decide)]
    congr 2
    funext b
    match b with
    | ⟨0, _⟩ => rfl
    | ⟨1, _⟩ => rfl
  have e2 : ScatterDims.window ⟨[0, 2], [1, 2], [1, 2], 1, wf⟩ j 1 = 0 := rfl
  rw [e1, e2]; omega

/-- Axis 2 (grid column) is named by the second index component. -/
private theorem K_axis2 (j : Sx.Idx) : dK.start j idxK 2 + (dK.window j 2 : ℤ) = (idxK (ix2 (j 1) 1)).toInt := by
  obtain ⟨uw, iw, sd, iv, wf⟩ := dK; simp only at hK; obtain ⟨rfl, rfl, rfl, rfl⟩ := hK
  have e1 : ScatterDims.start ⟨[0, 2], [1, 2], [1, 2], 1, wf⟩ j idxK 2 = (idxK (ix2 (j 1) 1)).toInt := by
    unfold ScatterDims.start
    rw [dif_pos (show (2 : Fin 4) ∈ [(1 : Fin 4), 2] by decide)]
    congr 2
    funext b
    match b with
    | ⟨0, _⟩ => rfl
    | ⟨1, _⟩ => rfl
  have e2 : ScatterDims.window ⟨[0, 2], [1, 2], [1, 2], 1, wf⟩ j 2 = 0 := rfl
  rw [e1, e2]; omega

/-- Axis 3 (offset) is a window axis. -/
private theorem K_axis3 (j : Sx.Idx) : dK.start j idxK 3 + (dK.window j 3 : ℤ) = ((j 2).val : ℤ) := by
  obtain ⟨uw, iw, sd, iv, wf⟩ := dK; simp only at hK; obtain ⟨rfl, rfl, rfl, rfl⟩ := hK
  have e1 : ScatterDims.start ⟨[0, 2], [1, 2], [1, 2], 1, wf⟩ j idxK 3 = 0 := rfl
  have e2 : ScatterDims.window ⟨[0, 2], [1, 2], [1, 2], 1, wf⟩ j 3 = (j 2).val := rfl
  rw [e1, e2]; omega

/-- An update row whose (row, column) is inside the grid lands there, batch and offset carried. -/
private theorem K_some (j : Sx.Idx) (R C : ℤ) (hR : (idxK (ix2 (j 1) 0)).toInt = R) (hC : (idxK (ix2 (j 1) 1)).toInt = C)
    (hRin : 0 ≤ R ∧ R < 249) (hCin : 0 ≤ C ∧ C < 249) :
    dK.resultIdx? j idxK = some (ix4 (n0 := 16) (n1 := 249) (n2 := 249) (n3 := 64) (j 0)
      ⟨R.toNat, by omega⟩ ⟨C.toNat, by omega⟩ (j 2)) := by
  apply resultIdx?_some
  intro a
  match a with
  | ⟨0, _⟩ => exact K_axis0 dK hK idxK j
  | ⟨1, _⟩ =>
    show dK.start j idxK 1 + (dK.window j 1 : ℤ) = ((R.toNat : ℕ) : ℤ)
    rw [K_axis1 dK hK idxK j, hR]; omega
  | ⟨2, _⟩ =>
    show dK.start j idxK 2 + (dK.window j 2 : ℤ) = ((C.toNat : ℕ) : ℤ)
    rw [K_axis2 dK hK idxK j, hC]; omega
  | ⟨3, _⟩ => exact K_axis3 dK hK idxK j

/-- An update row whose row is outside the grid is dropped. -/
private theorem K_none (j : Sx.Idx) (R : ℤ) (hR : (idxK (ix2 (j 1) 0)).toInt = R) (hRout : ¬ (0 ≤ R ∧ R < 249)) :
    dK.resultIdx? j idxK = none := by
  apply resultIdx?_none dK j idxK 1
  show dK.start j idxK 1 + (dK.window j 1 : ℤ) < 0 ∨ ((249 : ℕ) : ℤ) ≤ dK.start j idxK 1 + (dK.window j 1 : ℤ)
  rw [K_axis1 dK hK idxK j, hR]; omega

end Grid

section Flat
variable (dR : ScatterDims Sx SiR Sx)
    (hR : dR.updateWindowDims = [0, 2] ∧ dR.insertedWindowDims = [1] ∧ dR.scatterDimsToOperandDims = [1] ∧ dR.indexVectorDim = 1)
    (idxR : IVec SiR 32)

include hR

private theorem R_axis0 (j : Sx.Idx) : dR.start j idxR 0 + (dR.window j 0 : ℤ) = ((j 0).val : ℤ) := by
  obtain ⟨uw, iw, sd, iv, wf⟩ := dR; simp only at hR; obtain ⟨rfl, rfl, rfl, rfl⟩ := hR
  have e1 : ScatterDims.start ⟨[0, 2], [1], [1], 1, wf⟩ j idxR 0 = 0 := rfl
  have e2 : ScatterDims.window ⟨[0, 2], [1], [1], 1, wf⟩ j 0 = (j 0).val := rfl
  rw [e1, e2]; omega

private theorem R_axis1 (j : Sx.Idx) : dR.start j idxR 1 + (dR.window j 1 : ℤ) = (idxR (ix2 (j 1) 0)).toInt := by
  obtain ⟨uw, iw, sd, iv, wf⟩ := dR; simp only at hR; obtain ⟨rfl, rfl, rfl, rfl⟩ := hR
  have e1 : ScatterDims.start ⟨[0, 2], [1], [1], 1, wf⟩ j idxR 1 = (idxR (ix2 (j 1) 0)).toInt := by
    unfold ScatterDims.start
    rw [dif_pos (show (1 : Fin 3) ∈ [(1 : Fin 3)] by decide)]
    congr 2
    funext b
    match b with
    | ⟨0, _⟩ => rfl
    | ⟨1, _⟩ => rfl
  have e2 : ScatterDims.window ⟨[0, 2], [1], [1], 1, wf⟩ j 1 = 0 := rfl
  rw [e1, e2]; omega

private theorem R_axis2 (j : Sx.Idx) : dR.start j idxR 2 + (dR.window j 2 : ℤ) = ((j 2).val : ℤ) := by
  obtain ⟨uw, iw, sd, iv, wf⟩ := dR; simp only at hR; obtain ⟨rfl, rfl, rfl, rfl⟩ := hR
  have e1 : ScatterDims.start ⟨[0, 2], [1], [1], 1, wf⟩ j idxR 2 = 0 := rfl
  have e2 : ScatterDims.window ⟨[0, 2], [1], [1], 1, wf⟩ j 2 = (j 2).val := rfl
  rw [e1, e2]; omega

/-- An update row whose position is inside the array lands there. -/
private theorem R_some (j : Sx.Idx) (P : ℤ) (hP : (idxR (ix2 (j 1) 0)).toInt = P) (hPin : 0 ≤ P ∧ P < 62001) :
    dR.resultIdx? j idxR = some (ix3 (n0 := 16) (n1 := 62001) (n2 := 64) (j 0) ⟨P.toNat, by omega⟩ (j 2)) := by
  apply resultIdx?_some
  intro a
  match a with
  | ⟨0, _⟩ => exact R_axis0 dR hR idxR j
  | ⟨1, _⟩ =>
    show dR.start j idxR 1 + (dR.window j 1 : ℤ) = ((P.toNat : ℕ) : ℤ)
    rw [R_axis1 dR hR idxR j, hP]; omega
  | ⟨2, _⟩ => exact R_axis2 dR hR idxR j

/-- An update row whose position is outside the array is dropped. -/
private theorem R_none (j : Sx.Idx) (P : ℤ) (hP : (idxR (ix2 (j 1) 0)).toInt = P) (hPout : ¬ (0 ≤ P ∧ P < 62001)) :
    dR.resultIdx? j idxR = none := by
  apply resultIdx?_none dR j idxR 1
  show dR.start j idxR 1 + (dR.window j 1 : ℤ) < 0 ∨ ((62001 : ℕ) : ℤ) ≤ dR.start j idxR 1 + (dR.window j 1 : ℤ)
  rw [R_axis1 dR hR idxR j, hP]; omega

end Flat

/-! ## The unbatched rows: grid (249, 249, 64) against flat (62001, 64) -/

/-- Grid index (r, c, k) ↔ flat index (249 r + c, k). -/
private def gridFlat1 : Sone.Idx ≃ Sxo.Idx where
  toFun i := ix2 (n0 := 62001) (n1 := 64) (posOf (i 0) (i 1)) (i 2)
  invFun q := ix3 (n0 := 249) (n1 := 249) (n2 := 64)
    ⟨(q 0).val / 249, by have h : (q 0).val < 62001 := (q 0).isLt; omega⟩
    ⟨(q 0).val % 249, by omega⟩ (q 1)
  left_inv i := by
    obtain ⟨b, c, d, rfl⟩ : ∃ (b : Fin 249) (c : Fin 249) (d : Fin 64), i = ix3 b c d :=
      ⟨i 0, i 1, i 2, eq_ix3 i⟩
    have hb := b.isLt
    have hc := c.isLt
    funext e
    match e with
    | ⟨0, _⟩ => exact Fin.ext (show (249 * b.val + c.val) / 249 = b.val by omega)
    | ⟨1, _⟩ => exact Fin.ext (show (249 * b.val + c.val) % 249 = c.val by omega)
    | ⟨2, _⟩ => rfl
  right_inv q := by
    obtain ⟨b, c, rfl⟩ : ∃ (b : Fin 62001) (c : Fin 64), q = ix2 b c := ⟨q 0, q 1, eq_ix2 q⟩
    funext e
    match e with
    | ⟨0, _⟩ => exact Fin.ext (show 249 * (b.val / 249) + b.val % 249 = b.val by omega)
    | ⟨1, _⟩ => rfl

private theorem gridFlat1_ix3 (r c : Fin 249) (k : Fin 64) :
    gridFlat1 (ix3 r c k) = ix2 (posOf r c) k := rfl

section Grid1
variable (dK : ScatterDims Sone SiK Sxo)
    (hK : dK.updateWindowDims = [1] ∧ dK.insertedWindowDims = [0, 1] ∧ dK.scatterDimsToOperandDims = [0, 1] ∧ dK.indexVectorDim = 1)
    (idxK : IVec SiK 32)

include hK

/-- Axis 0 (grid row) is named by the first index component: start that word read signed, window 0. -/
private theorem K1_axis0 (j : Sxo.Idx) : dK.start j idxK 0 + (dK.window j 0 : ℤ) = (idxK (ix2 (j 0) 0)).toInt := by
  obtain ⟨uw, iw, sd, iv, wf⟩ := dK; simp only at hK; obtain ⟨rfl, rfl, rfl, rfl⟩ := hK
  have e1 : ScatterDims.start ⟨[1], [0, 1], [0, 1], 1, wf⟩ j idxK 0 = (idxK (ix2 (j 0) 0)).toInt := by
    unfold ScatterDims.start
    rw [dif_pos (show (0 : Fin 3) ∈ [(0 : Fin 3), 1] by decide)]
    congr 2
    funext b
    match b with
    | ⟨0, _⟩ => rfl
    | ⟨1, _⟩ => rfl
  have e2 : ScatterDims.window ⟨[1], [0, 1], [0, 1], 1, wf⟩ j 0 = 0 := rfl
  rw [e1, e2]; omega

/-- Axis 1 (grid column) is named by the second index component. -/
private theorem K1_axis1 (j : Sxo.Idx) : dK.start j idxK 1 + (dK.window j 1 : ℤ) = (idxK (ix2 (j 0) 1)).toInt := by
  obtain ⟨uw, iw, sd, iv, wf⟩ := dK; simp only at hK; obtain ⟨rfl, rfl, rfl, rfl⟩ := hK
  have e1 : ScatterDims.start ⟨[1], [0, 1], [0, 1], 1, wf⟩ j idxK 1 = (idxK (ix2 (j 0) 1)).toInt := by
    unfold ScatterDims.start
    rw [dif_pos (show (1 : Fin 3) ∈ [(0 : Fin 3), 1] by decide)]
    congr 2
    funext b
    match b with
    | ⟨0, _⟩ => rfl
    | ⟨1, _⟩ => rfl
  have e2 : ScatterDims.window ⟨[1], [0, 1], [0, 1], 1, wf⟩ j 1 = 0 := rfl
  rw [e1, e2]; omega

/-- Axis 2 (offset) is a window axis: start 0, window the update's offset coordinate. -/
private theorem K1_axis2 (j : Sxo.Idx) : dK.start j idxK 2 + (dK.window j 2 : ℤ) = ((j 1).val : ℤ) := by
  obtain ⟨uw, iw, sd, iv, wf⟩ := dK; simp only at hK; obtain ⟨rfl, rfl, rfl, rfl⟩ := hK
  have e1 : ScatterDims.start ⟨[1], [0, 1], [0, 1], 1, wf⟩ j idxK 2 = 0 := rfl
  have e2 : ScatterDims.window ⟨[1], [0, 1], [0, 1], 1, wf⟩ j 2 = (j 1).val := rfl
  rw [e1, e2]; omega

/-- An update row whose (row, column) is inside the grid lands there, the offset carried. -/
private theorem K1_some (j : Sxo.Idx) (R C : ℤ) (hR : (idxK (ix2 (j 0) 0)).toInt = R) (hC : (idxK (ix2 (j 0) 1)).toInt = C)
    (hRin : 0 ≤ R ∧ R < 249) (hCin : 0 ≤ C ∧ C < 249) :
    dK.resultIdx? j idxK = some (ix3 (n0 := 249) (n1 := 249) (n2 := 64)
      ⟨R.toNat, by omega⟩ ⟨C.toNat, by omega⟩ (j 1)) := by
  apply resultIdx?_some
  intro a
  match a with
  | ⟨0, _⟩ =>
    show dK.start j idxK 0 + (dK.window j 0 : ℤ) = ((R.toNat : ℕ) : ℤ)
    rw [K1_axis0 dK hK idxK j, hR]; omega
  | ⟨1, _⟩ =>
    show dK.start j idxK 1 + (dK.window j 1 : ℤ) = ((C.toNat : ℕ) : ℤ)
    rw [K1_axis1 dK hK idxK j, hC]; omega
  | ⟨2, _⟩ => exact K1_axis2 dK hK idxK j

/-- An update row whose row is outside the grid is dropped. -/
private theorem K1_none (j : Sxo.Idx) (R : ℤ) (hR : (idxK (ix2 (j 0) 0)).toInt = R) (hRout : ¬ (0 ≤ R ∧ R < 249)) :
    dK.resultIdx? j idxK = none := by
  apply resultIdx?_none dK j idxK 0
  show dK.start j idxK 0 + (dK.window j 0 : ℤ) < 0 ∨ ((249 : ℕ) : ℤ) ≤ dK.start j idxK 0 + (dK.window j 0 : ℤ)
  rw [K1_axis0 dK hK idxK j, hR]; omega

end Grid1

section Flat1
variable (dR : ScatterDims Sxo SiR Sxo)
    (hR : dR.updateWindowDims = [1] ∧ dR.insertedWindowDims = [0] ∧ dR.scatterDimsToOperandDims = [0] ∧ dR.indexVectorDim = 1)
    (idxR : IVec SiR 32)

include hR

private theorem R1_axis0 (j : Sxo.Idx) : dR.start j idxR 0 + (dR.window j 0 : ℤ) = (idxR (ix2 (j 0) 0)).toInt := by
  obtain ⟨uw, iw, sd, iv, wf⟩ := dR; simp only at hR; obtain ⟨rfl, rfl, rfl, rfl⟩ := hR
  have e1 : ScatterDims.start ⟨[1], [0], [0], 1, wf⟩ j idxR 0 = (idxR (ix2 (j 0) 0)).toInt := by
    unfold ScatterDims.start
    rw [dif_pos (show (0 : Fin 2) ∈ [(0 : Fin 2)] by decide)]
    congr 2
    funext b
    match b with
    | ⟨0, _⟩ => rfl
    | ⟨1, _⟩ => rfl
  have e2 : ScatterDims.window ⟨[1], [0], [0], 1, wf⟩ j 0 = 0 := rfl
  rw [e1, e2]; omega

private theorem R1_axis1 (j : Sxo.Idx) : dR.start j idxR 1 + (dR.window j 1 : ℤ) = ((j 1).val : ℤ) := by
  obtain ⟨uw, iw, sd, iv, wf⟩ := dR; simp only at hR; obtain ⟨rfl, rfl, rfl, rfl⟩ := hR
  have e1 : ScatterDims.start ⟨[1], [0], [0], 1, wf⟩ j idxR 1 = 0 := rfl
  have e2 : ScatterDims.window ⟨[1], [0], [0], 1, wf⟩ j 1 = (j 1).val := rfl
  rw [e1, e2]; omega

/-- An update row whose position is inside the array lands there. -/
private theorem R1_some (j : Sxo.Idx) (P : ℤ) (hP : (idxR (ix2 (j 0) 0)).toInt = P) (hPin : 0 ≤ P ∧ P < 62001) :
    dR.resultIdx? j idxR = some (ix2 (n0 := 62001) (n1 := 64) ⟨P.toNat, by omega⟩ (j 1)) := by
  apply resultIdx?_some
  intro a
  match a with
  | ⟨0, _⟩ =>
    show dR.start j idxR 0 + (dR.window j 0 : ℤ) = ((P.toNat : ℕ) : ℤ)
    rw [R1_axis0 dR hR idxR j, hP]; omega
  | ⟨1, _⟩ => exact R1_axis1 dR hR idxR j

/-- An update row whose position is outside the array is dropped. -/
private theorem R1_none (j : Sxo.Idx) (P : ℤ) (hP : (idxR (ix2 (j 0) 0)).toInt = P) (hPout : ¬ (0 ≤ P ∧ P < 62001)) :
    dR.resultIdx? j idxR = none := by
  apply resultIdx?_none dR j idxR 0
  show dR.start j idxR 0 + (dR.window j 0 : ℤ) < 0 ∨ ((62001 : ℕ) : ℤ) ≤ dR.start j idxR 0 + (dR.window j 0 : ℤ)
  rw [R1_axis0 dR hR idxR j, hP]; omega

end Flat1

/-- Batched rows (16 batch entries, 64 offsets per row): the two-index scatter into the 249 × 249 grid reads,
    at (n, r, c, k), what the one-index scatter into the 62001 positions reads at (n, 249 r + c, k). -/
theorem rows_sim {α : Type} (dK : ScatterDims Sps SiK Sx)
    (hK : dK.updateWindowDims = [0, 2] ∧ dK.insertedWindowDims = [1, 2] ∧ dK.scatterDimsToOperandDims = [1, 2] ∧ dK.indexVectorDim = 1)
    (dR : ScatterDims Sx SiR Sx)
    (hR : dR.updateWindowDims = [0, 2] ∧ dR.insertedWindowDims = [1] ∧ dR.scatterDimsToOperandDims = [1] ∧ dR.indexVectorDim = 1)
    (z : α) (x : Sx.Idx → α) (mask : IVec Sm 32) (idxK : IVec SiK 32) (idxR : IVec SiR 32)
    (h0 : ∀ p : Fin 62001, (idxK (ix2 p 0)).toInt =
      if (mask (ix1 p)).toInt / 249 < 0 then (mask (ix1 p)).toInt / 249 + 249 else (mask (ix1 p)).toInt / 249)
    (h1 : ∀ p : Fin 62001, (idxK (ix2 p 1)).toInt = (mask (ix1 p)).toInt % 249)
    (hP : ∀ p : Fin 62001, (idxR (ix2 p 0)).toInt =
      if (mask (ix1 p)).toInt < 0 then (mask (ix1 p)).toInt + 62001 else (mask (ix1 p)).toInt)
    (n : Fin 16) (r c : Fin 249) (k : Fin 64) :
    Host.scatter dK (fun _ b => b) (fun _ => z) idxK x (ix4 n r c k)
      = Host.scatter dR (fun _ b => b) (fun _ => z) idxR x (ix3 n (posOf r c) k) := by
  rw [← gridFlat_ix4 n r c k]
  refine (scatter_sim dK dR (fun _ b => b) gridFlat (fun _ => z) (fun _ => z) (fun _ => rfl) idxK idxR x ?_
    (ix4 n r c k)).symm
  intro j
  -- the row, the column and the position the update row (j 1) is sent to
  obtain ⟨hCin, hiff, hpos⟩ := grid_flat (mask (ix1 (j 1))).toInt (idxK (ix2 (j 1) 0)).toInt
    (idxK (ix2 (j 1) 1)).toInt (idxR (ix2 (j 1) 0)).toInt (h0 (j 1)) (h1 (j 1)) (hP (j 1))
  by_cases hRin : 0 ≤ (idxK (ix2 (j 1) 0)).toInt ∧ (idxK (ix2 (j 1) 0)).toInt < 249
  · have hPin := hiff.1 hRin
    have hp := hpos hPin
    rw [K_some dK hK idxK j _ _ rfl rfl hRin hCin, R_some dR hR idxR j _ rfl hPin, Option.map_some]
    congr 1
    funext e
    match e with
    | ⟨0, _⟩ => rfl
    | ⟨1, _⟩ =>
      apply Fin.ext
      show (idxR (ix2 (j 1) 0)).toInt.toNat
        = 249 * (idxK (ix2 (j 1) 0)).toInt.toNat + (idxK (ix2 (j 1) 1)).toInt.toNat
      omega
    | ⟨2, _⟩ => rfl
  · have hPout : ¬ (0 ≤ (idxR (ix2 (j 1) 0)).toInt ∧ (idxR (ix2 (j 1) 0)).toInt < 62001) :=
      fun h => hRin (hiff.2 h)
    rw [K_none dK hK idxK j _ rfl hRin, R_none dR hR idxR j _ rfl hPout]
    rfl

/-- The same for one unbatched array of rows (the count map's rows). -/
theorem rows_sim1 {α : Type} (dK : ScatterDims Sone SiK Sxo)
    (hK : dK.updateWindowDims = [1] ∧ dK.insertedWindowDims = [0, 1] ∧ dK.scatterDimsToOperandDims = [0, 1] ∧ dK.indexVectorDim = 1)
    (dR : ScatterDims Sxo SiR Sxo)
    (hR : dR.updateWindowDims = [1] ∧ dR.insertedWindowDims = [0] ∧ dR.scatterDimsToOperandDims = [0] ∧ dR.indexVectorDim = 1)
    (z : α) (x : Sxo.Idx → α) (mask : IVec Sm 32) (idxK : IVec SiK 32) (idxR : IVec SiR 32)
    (h0 : ∀ p : Fin 62001, (idxK (ix2 p 0)).toInt =
      if (mask (ix1 p)).toInt / 249 < 0 then (mask (ix1 p)).toInt / 249 + 249 else (mask (ix1 p)).toInt / 249)
    (h1 : ∀ p : Fin 62001, (idxK (ix2 p 1)).toInt = (mask (ix1 p)).toInt % 249)
    (hP : ∀ p : Fin 62001, (idxR (ix2 p 0)).toInt =
      if (mask (ix1 p)).toInt < 0 then (mask (ix1 p)).toInt + 62001 else (mask (ix1 p)).toInt)
    (r c : Fin 249) (k : Fin 64) :
    Host.scatter dK (fun _ b => b) (fun _ => z) idxK x (ix3 r c k)
      = Host.scatter dR (fun _ b => b) (fun _ => z) idxR x (ix2 (posOf r c) k) := by
  rw [← gridFlat1_ix3 r c k]
  refine (scatter_sim dK dR (fun _ b => b) gridFlat1 (fun _ => z) (fun _ => z) (fun _ => rfl) idxK idxR x ?_
    (ix3 r c k)).symm
  intro j
  -- the row, the column and the position the update row (j 0) is sent to
  obtain ⟨hCin, hiff, hpos⟩ := grid_flat (mask (ix1 (j 0))).toInt (idxK (ix2 (j 0) 0)).toInt
    (idxK (ix2 (j 0) 1)).toInt (idxR (ix2 (j 0) 0)).toInt (h0 (j 0)) (h1 (j 0)) (hP (j 0))
  by_cases hRin : 0 ≤ (idxK (ix2 (j 0) 0)).toInt ∧ (idxK (ix2 (j 0) 0)).toInt < 249
  · have hPin := hiff.1 hRin
    have hp := hpos hPin
    rw [K1_some dK hK idxK j _ _ rfl rfl hRin hCin, R1_some dR hR idxR j _ rfl hPin, Option.map_some]
    congr 1
    funext e
    match e with
    | ⟨0, _⟩ =>
      apply Fin.ext
      show (idxR (ix2 (j 0) 0)).toInt.toNat
        = 249 * (idxK (ix2 (j 0) 0)).toInt.toNat + (idxK (ix2 (j 0) 1)).toInt.toNat
      omega
    | ⟨1, _⟩ => rfl
  · have hPout : ¬ (0 ≤ (idxR (ix2 (j 0) 0)).toInt ∧ (idxR (ix2 (j 0) 0)).toInt < 62001) :=
      fun h => hRin (hiff.2 h)
    rw [K1_none dK hK idxK j _ rfl hRin, R1_none dR hR idxR j _ rfl hPout]
    rfl

end Cert.Fold
-- ==== Proof.KIndex.lean ====
/-
  The grid scatter against the scattered rows of the specification. The grid side reads, for update row p,
  the pair (row, col) computed from the mask word: the floor quotient by 249 and the non-negative remainder,
  each moved up by 249 when negative. With the word arithmetic read as integers and the comparison of the
  two scatters, entry (r, c) of the grid is the specification's scattered row at position 249 r + c.
-/
import proofs.«164016_j4801773436971_1_alg».proof.Proof.Spec
import proofs.«164016_j4801773436971_1_alg».proof.Proof.IndexWords
import proofs.«164016_j4801773436971_1_alg».proof.Proof.Bridge

noncomputable section

namespace Cert.Fold

open Idealize.ShloMosaic Idealize.ShloMosaic.ValueIdx

/-- The index pairs of the grid scatter, as a function of the mask: component 0 the wrapped floor quotient,
    component 1 the wrapped remainder. -/
def idxKOf (mask : IVec Sm 32) : IVec SiK 32 := fun q =>
  if (q 1).val = 0 then wrapW 249#32 (floorDivW (mask (ix1 (q 0)))) else wrapW 249#32 (modW (mask (ix1 (q 0))))

theorem idxKOf_row (mask : IVec Sm 32) (p : Fin 62001) :
    (idxKOf mask (ix2 p 0)).toInt =
      if (mask (ix1 p)).toInt / 249 < 0 then (mask (ix1 p)).toInt / 249 + 249 else (mask (ix1 p)).toInt / 249 :=
  row_toInt (mask (ix1 p))

theorem idxKOf_col (mask : IVec Sm 32) (p : Fin 62001) :
    (idxKOf mask (ix2 p 1)).toInt = (mask (ix1 p)).toInt % 249 :=
  col_toInt (mask (ix1 p))

theorem posIdx_pos (mask : IVec Sm 32) (p : Fin 62001) :
    (posIdx mask (ix2 p 0)).toInt =
      if (mask (ix1 p)).toInt < 0 then (mask (ix1 p)).toInt + 62001 else (mask (ix1 p)).toInt :=
  pos_toInt (mask (ix1 p))

/-- The batched grid scatter of the rows is the specification's scattered rows, entry by entry. -/
theorem gridRows_eq (dK : ScatterDims Sps SiK Sx)
    (hK : dK.updateWindowDims = [0, 2] ∧ dK.insertedWindowDims = [1, 2] ∧ dK.scatterDimsToOperandDims = [1, 2] ∧ dK.indexVectorDim = 1)
    (x : Sx.Idx → EReal) (mask : IVec Sm 32) (n : Fin 16) (r c : Fin 249) (k : Fin 64) :
    Host.scatter dK (fun _ b => b) (fun _ => Ideal.ofBits .f32 0x00000000#32) (idxKOf mask) x (ix4 n r c k)
      = patchRows x mask (ix3 n (posOf r c) k) :=
  rows_sim dK hK dRow ⟨rfl, rfl, rfl, rfl⟩ _ x mask (idxKOf mask) (posIdx mask)
    (idxKOf_row mask) (idxKOf_col mask) (posIdx_pos mask) n r c k

/-- The grid scatter of the constant one is the specification's scattered ones, entry by entry. -/
theorem gridOnes_eq (dK : ScatterDims Sone SiK Sxo)
    (hK : dK.updateWindowDims = [1] ∧ dK.insertedWindowDims = [0, 1] ∧ dK.scatterDimsToOperandDims = [0, 1] ∧ dK.indexVectorDim = 1)
    (mask : IVec Sm 32) (r c : Fin 249) (k : Fin 64) :
    Host.scatter dK (fun _ b => b) (fun _ => Ideal.ofBits .f32 0x00000000#32) (idxKOf mask)
        (fun _ => Ideal.ofBits .f32 0x3F800000#32) (ix3 r c k)
      = patchOnes mask (ix2 (posOf r c) k) :=
  rows_sim1 dK hK dRow1 ⟨rfl, rfl, rfl, rfl⟩ _ _ mask (idxKOf mask) (posIdx mask)
    (idxKOf_row mask) (idxKOf_col mask) (posIdx_pos mask) r c k

end Cert.Fold

end
-- ==== Proof.KArr.lean ====
/-
  From blocks to arrays. Region 0 runs the fold body once per batch entry: grid point t reads block t of the
  slab array (all 64 slabs of batch entry t) and writes block t of the image array, so image n is the fold of
  batch entry n's slabs. Region 1 is the same at a grid of one point.
-/
import proofs.«164016_j4801773436971_1_alg».proof.Proof.KernelIdealFrameP
import proofs.«164016_j4801773436971_1_alg».proof.Proof.KBody
import proofs.«164016_j4801773436971_1_alg».proof.Proof.Spec
import Idealize.ShloMosaic.Lib.ValueIdx
import Idealize.ShloMosaic.Lib.Pipeline.Value

set_option maxRecDepth 16384

noncomputable section

namespace Cert.KernelIdeal.KArr

open Cert.KernelIdeal Cert.KernelIdeal.Gen Cert.KernelIdeal.GenP Cert.Fold
open Idealize.ShloMosaic Idealize.ShloMosaic.TcCoe Idealize.ShloMosaic.ValueIdx

variable (V : (c : Dev nD) → (b : Ref sig .tc) → Buf (Elt Ideal) ((c : Thread nD τ).loc b))

/-! ## Region 0: sixteen points, point t on batch entry t -/

/-- The image array of region 0 as one function of the slab array: image n is the fold of batch entry n's slabs. -/
abbrev img0 (c : Dev nD) : S16x256x256.Idx → EReal :=
  fun y => foldImg (fun k r c' => V c main_v17 (ix4 (y 0) k r c')) (y 1) (y 2)

/-- The two index maps over the sixteen points: both windows sit at block (t, 0, …) at point t. -/
theorem idx0 : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

/-- The fold read at equal slabs and equal pixel coordinates. -/
theorem foldImg_congr (Q Q' : Fin 64 → Fin 249 → Fin 249 → EReal) (a a' b b' : Fin 256)
    (hQ : Q = Q') (ha : a.val = a'.val) (hb : b.val = b'.val) : foldImg Q a b = foldImg Q' a' b' := by
  subst hQ
  obtain rfl : a = a' := Fin.ext ha
  obtain rfl : b = b' := Fin.ext hb
  rfl

/-- The input block of point t, at (0, k, r, c'), is the slab array at (t, k, r, c'). -/
theorem iblk0_apply (c : Dev nD) (t : Fin cfg0.N) (k : Fin 64) (r c' : Fin 249) (n : Fin 16) (hn : n.val = t.val) :
    (iblk0 (F := Ideal) V c 0 t : Vec Ideal S1x64x249x249 .f32) (ix4 0 k r c') = V c main_v17 (ix4 n k r c') := by
  obtain ⟨e0, e1, e2, e3, -⟩ := idx0 t
  unfold iblk0
  rw [View.read_apply]
  show V c main_v17 _ = V c main_v17 _
  congr 1
  funext a
  apply Fin.ext
  match a with
  | ⟨0, _⟩ => show win0_0.index t (0 : Fin 4) * 1 + 1 * 0 = n.val; rw [e0]; omega
  | ⟨1, _⟩ => show win0_0.index t (1 : Fin 4) * 64 + 1 * k.val = k.val; rw [e1]; omega
  | ⟨2, _⟩ => show win0_0.index t (2 : Fin 4) * 249 + 1 * r.val = r.val; rw [e2]; omega
  | ⟨3, _⟩ => show win0_0.index t (3 : Fin 4) * 249 + 1 * c'.val = c'.val; rw [e3]; omega

/-- What point t writes back is block t of the image array. -/
theorem flushed0_eq (c : Dev nD) (t : Fin cfg0.N) :
    (dat0 (F := Ideal) V c).flushed 1 t = ((cfg0.win 1).blk t).view.read (Elt Ideal) (img0 V c) := by
  obtain ⟨-, -, -, -, f0, f1, f2⟩ := idx0 t
  show (cfg0.win 1).cut (grid0.coords t) ((dat0 (F := Ideal) V c).after 1 t) = _
  rw [after0_1]
  unfold outsAt0
  rw [KBody.out0_eq c (grid0.coords t) (ms0_0 t) (hs0_0 t) (ms0_1 t) (hs0_1 t) (iblk0 V c 0 t)]
  funext j
  rw [View.read_apply]
  have hj0 : (j 0).val < 1 := (j 0).isLt
  have hj1 : (j 1).val < 256 := (j 1).isLt
  have hj2 : (j 2).val < 256 := (j 2).isLt
  show foldImg _ _ _ = foldImg _ _ _
  refine foldImg_congr _ _ _ _ _ _ ?_ ?_ ?_
  · funext k r c'
    refine iblk0_apply V c t k r c' _ ?_
    show win0_1.index t (0 : Fin 3) * 1 + 1 * (j 0).val = t.val
    rw [f0]; omega
  · show (j 1).val = win0_1.index t (1 : Fin 3) * 256 + 1 * (j 1).val
    rw [f1]; omega
  · show (j 2).val = win0_1.index t (2 : Fin 3) * 256 + 1 * (j 2).val
    rw [f2]; omega

/-- An index of the image array is in point t's block iff each coordinate is in the block's range on its axis. -/
theorem mem_blk0 (t : Fin cfg0.N) (i : S16x256x256.Idx) :
    i ∈ ((cfg0.win 1).blk t).view.set ↔
      ∀ a : Fin 3, win0_1.index t a * S1x256x256.size a ≤ (i a).val
        ∧ (i a).val < win0_1.index t a * S1x256x256.size a + S1x256x256.size a := by
  show i ∈ ((View.whole main_v18).slice (win0_1.rect t)).set ↔ _
  rw [View.set_slice_whole, Rect.mem_set_unit]
  exact Iff.rfl

/-- Image n is covered by point n. -/
theorem cover0 (i : S16x256x256.Idx) :
    ∃ t : Fin cfg0.N, (cfg0.win 1).flush t = true ∧ i ∈ ((cfg0.win 1).blk t).view.set := by
  have hi0 : (i 0).val < 16 := (i 0).isLt
  have hi1 : (i 1).val < 256 := (i 1).isLt
  have hi2 : (i 2).val < 256 := (i 2).isLt
  have hN : (i 0).val < cfg0.N := by show (i 0).val < grid0.N; rw [N_0]; exact hi0
  obtain ⟨-, -, -, -, f0, f1, f2⟩ := idx0 ⟨(i 0).val, hN⟩
  have f0' : win0_1.index ⟨(i 0).val, hN⟩ (0 : Fin 3) = (i 0).val := f0
  refine ⟨⟨(i 0).val, hN⟩, flush0_1 _, ?_⟩
  rw [mem_blk0]
  intro a
  match a with
  | ⟨0, _⟩ =>
    show win0_1.index ⟨(i 0).val, hN⟩ (0 : Fin 3) * 1 ≤ (i 0).val
      ∧ (i 0).val < win0_1.index ⟨(i 0).val, hN⟩ (0 : Fin 3) * 1 + 1
    rw [f0']; omega
  | ⟨1, _⟩ =>
    show win0_1.index ⟨(i 0).val, hN⟩ (1 : Fin 3) * 256 ≤ (i 1).val
      ∧ (i 1).val < win0_1.index ⟨(i 0).val, hN⟩ (1 : Fin 3) * 256 + 256
    rw [f1]; omega
  | ⟨2, _⟩ =>
    show win0_1.index ⟨(i 0).val, hN⟩ (2 : Fin 3) * 256 ≤ (i 2).val
      ∧ (i 2).val < win0_1.index ⟨(i 0).val, hN⟩ (2 : Fin 3) * 256 + 256
    rw [f2]; omega

/-- Region 0: the image array after the region, as one function of the slab array the region found. -/
theorem arr0 (c : Dev nD) :
    (dat0 (F := Ideal) V c).arrAt 1 cfg0.N
      = fun y : S16x256x256.Idx => foldImg (fun k r c' => V c main_v17 (ix4 (y 0) k r c')) (y 1) (y 2) := by
  exact (dat0 (F := Ideal) V c).arrAt_eq_of_cover 1 (img0 V c) (fun t _ => flushed0_eq V c t) cover0

/-! ## Region 1: one point, the whole count array -/

/-- The count image of region 1 as one function of the count slabs. -/
abbrev img1 (c : Dev nD) : S1x256x256.Idx → EReal :=
  fun y => foldImg (fun k r c' => V c main_v36 (ix4 (y 0) k r c')) (y 1) (y 2)

/-- The two index maps at the one point: both windows sit at block (0, 0, …). -/
theorem idx1 : ∀ t : Fin cfg1.N,
    win1_0.index t (0 : Fin 4) = 0 ∧ win1_0.index t (1 : Fin 4) = 0 ∧ win1_0.index t (2 : Fin 4) = 0
    ∧ win1_0.index t (3 : Fin 4) = 0
    ∧ win1_1.index t (0 : Fin 3) = 0 ∧ win1_1.index t (1 : Fin 3) = 0 ∧ win1_1.index t (2 : Fin 3) = 0 :=
  (by decide +kernel : ∀ t : Fin grid1.N, _)

/-- The input block of the one point, at (0, k, r, c'), is the count slab array at (0, k, r, c'). -/
theorem iblk1_apply (c : Dev nD) (t : Fin cfg1.N) (k : Fin 64) (r c' : Fin 249) (n : Fin 1) :
    (iblk1 (F := Ideal) V c 0 t : Vec Ideal S1x64x249x249 .f32) (ix4 0 k r c') = V c main_v36 (ix4 n k r c') := by
  obtain ⟨e0, e1, e2, e3, -⟩ := idx1 t
  have hn : n.val < 1 := n.isLt
  unfold iblk1
  rw [View.read_apply]
  show V c main_v36 _ = V c main_v36 _
  congr 1
  funext a
  apply Fin.ext
  match a with
  | ⟨0, _⟩ => show win1_0.index t (0 : Fin 4) * 1 + 1 * 0 = n.val; rw [e0]; omega
  | ⟨1, _⟩ => show win1_0.index t (1 : Fin 4) * 64 + 1 * k.val = k.val; rw [e1]; omega
  | ⟨2, _⟩ => show win1_0.index t (2 : Fin 4) * 249 + 1 * r.val = r.val; rw [e2]; omega
  | ⟨3, _⟩ => show win1_0.index t (3 : Fin 4) * 249 + 1 * c'.val = c'.val; rw [e3]; omega

/-- What the one point writes back is the whole count image. -/
theorem flushed1_eq (c : Dev nD) (t : Fin cfg1.N) :
    (dat1 (F := Ideal) V c).flushed 1 t = ((cfg1.win 1).blk t).view.read (Elt Ideal) (img1 V c) := by
  obtain ⟨-, -, -, -, f0, f1, f2⟩ := idx1 t
  show (cfg1.win 1).cut (grid1.coords t) ((dat1 (F := Ideal) V c).after 1 t) = _
  rw [after1_1]
  unfold outsAt1
  rw [KBody.out1_eq c (grid1.coords t) (ms1_0 t) (hs1_0 t) (ms1_1 t) (hs1_1 t) (iblk1 V c 0 t)]
  funext j
  rw [View.read_apply]
  have hj1 : (j 1).val < 256 := (j 1).isLt
  have hj2 : (j 2).val < 256 := (j 2).isLt
  show foldImg _ _ _ = foldImg _ _ _
  refine foldImg_congr _ _ _ _ _ _ ?_ ?_ ?_
  · funext k r c'
    exact iblk1_apply V c t k r c' _
  · show (j 1).val = win1_1.index t (1 : Fin 3) * 256 + 1 * (j 1).val
    rw [f1]; omega
  · show (j 2).val = win1_1.index t (2 : Fin 3) * 256 + 1 * (j 2).val
    rw [f2]; omega

/-- An index of the count image is in the point's block iff each coordinate is in the block's range on its axis. -/
theorem mem_blk1 (t : Fin cfg1.N) (i : S1x256x256.Idx) :
    i ∈ ((cfg1.win 1).blk t).view.set ↔
      ∀ a : Fin 3, win1_1.index t a * S1x256x256.size a ≤ (i a).val
        ∧ (i a).val < win1_1.index t a * S1x256x256.size a + S1x256x256.size a := by
  show i ∈ ((View.whole main_v37).slice (win1_1.rect t)).set ↔ _
  rw [View.set_slice_whole, Rect.mem_set_unit]
  exact Iff.rfl

/-- The one point covers the whole count image. -/
theorem cover1 (i : S1x256x256.Idx) :
    ∃ t : Fin cfg1.N, (cfg1.win 1).flush t = true ∧ i ∈ ((cfg1.win 1).blk t).view.set := by
  have hi0 : (i 0).val < 1 := (i 0).isLt
  have hi1 : (i 1).val < 256 := (i 1).isLt
  have hi2 : (i 2).val < 256 := (i 2).isLt
  obtain ⟨-, -, -, -, f0, f1, f2⟩ := idx1 t1_0
  refine ⟨t1_0, flush1_1 _, ?_⟩
  rw [mem_blk1]
  intro a
  match a with
  | ⟨0, _⟩ =>
    show win1_1.index t1_0 (0 : Fin 3) * 1 ≤ (i 0).val ∧ (i 0).val < win1_1.index t1_0 (0 : Fin 3) * 1 + 1
    rw [f0]; omega
  | ⟨1, _⟩ =>
    show win1_1.index t1_0 (1 : Fin 3) * 256 ≤ (i 1).val ∧ (i 1).val < win1_1.index t1_0 (1 : Fin 3) * 256 + 256
    rw [f1]; omega
  | ⟨2, _⟩ =>
    show win1_1.index t1_0 (2 : Fin 3) * 256 ≤ (i 2).val ∧ (i 2).val < win1_1.index t1_0 (2 : Fin 3) * 256 + 256
    rw [f2]; omega

/-- Region 1: the count image after the region. -/
theorem arr1 (c : Dev nD) :
    (dat1 (F := Ideal) V c).arrAt 1 cfg1.N
      = fun y : S1x256x256.Idx => foldImg (fun k r c' => V c main_v36 (ix4 (y 0) k r c')) (y 1) (y 2) := by
  exact (dat1 (F := Ideal) V c).arrAt_eq_of_cover 1 (img1 V c) (fun t _ => flushed1_eq V c t) cover1

end Cert.KernelIdeal.KArr

end
-- ==== Proof.KHost.lean ====
/-
  The host operations of the kernel's program, read at an index. Before region 0: the mask is split into
  (row, col), the input rows are scattered into the 249 x 249 grid and the offset axis is moved to the front —
  entry (n, k, r, c) of the slab array is the specification's scattered row at position 249 r + c, offset k.
  Before region 1 the same for the constant one. After region 1: the count image is broadcast over the batch,
  the images are divided by it pixel by pixel, and the result is reshaped to 2 x 8 images.
-/
import proofs.«164016_j4801773436971_1_alg».proof.Proof.KernelIdealFrameP
import proofs.«164016_j4801773436971_1_alg».proof.Proof.KIndex
import proofs.«164016_j4801773436971_1_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.KHost

open Cert.KernelIdeal Cert.KernelIdeal.Gen Cert.KernelIdeal.GenP Cert.Fold
open Idealize.ShloMosaic Idealize.ShloMosaic.TcCoe Idealize.SL.Sem Idealize.ShloMosaic.ValueIdx

/-! ## The host stretches over any contents of the buffers

Each stretch of host operations is read once as a function of the contents it starts from; the run's own
contents are put in afterwards. -/

section Stretches

variable (V : Valuation τ sig (Elt Ideal))

/-- The floor-division stretch (with the constant 249 written just before it): its result is the floor
    quotient of each mask word, as the word operations compose it. -/
theorem v0_of :
    StableHlo.after (hostOps0_1 (F := Ideal)) (StableHlo.after (hostOps0 (F := Ideal)) V) (Proc.devRef .tc main_v0)
      = fun i : S62001.Idx => floorDivW (V (Proc.devRef .tc main_arg1) i) := by
  after_results
  simp only [StableHlo.TRef.ofBuf, StableHlo.TRef.toBuf, cast_eq]
  rfl

set_option maxHeartbeats 4000000 in
/-- The remainder stretch (with its constant 249): the non-negative remainder of each mask word. -/
theorem v1_of :
    StableHlo.after (hostOps0_3 (F := Ideal)) (StableHlo.after (hostOps0_2 (F := Ideal)) V) (Proc.devRef .tc main_v1)
      = fun i : S62001.Idx => modW (V (Proc.devRef .tc main_arg1) i) := by
  after_results_simp
  simp only [StableHlo.TRef.ofBuf, StableHlo.TRef.toBuf, cast_eq]
  rfl

set_option maxHeartbeats 4000000 in
/-- The first two stretches leave the mask as it was. -/
theorem keep_arg1_01 :
    StableHlo.after (hostOps0_1 (F := Ideal)) (StableHlo.after (hostOps0 (F := Ideal)) V) (Proc.devRef .tc main_arg1)
      = V (Proc.devRef .tc main_arg1) := by
  after_results_simp <;> rfl

set_option maxHeartbeats 4000000 in
/-- The remainder stretch leaves the floor quotients as they were. -/
theorem keep_v0_23 :
    StableHlo.after (hostOps0_3 (F := Ideal)) (StableHlo.after (hostOps0_2 (F := Ideal)) V) (Proc.devRef .tc main_v0)
      = V (Proc.devRef .tc main_v0) := by
  after_results_simp <;> rfl

set_option maxHeartbeats 4000000 in
/-- The first four stretches leave the input rows as they were. -/
theorem keep_arg0_0123 :
    StableHlo.after (hostOps0_3 (F := Ideal)) (StableHlo.after (hostOps0_2 (F := Ideal))
        (StableHlo.after (hostOps0_1 (F := Ideal)) (StableHlo.after (hostOps0 (F := Ideal)) V))) (Proc.devRef .tc main_arg0)
      = V (Proc.devRef .tc main_arg0) := by
  after_results_simp <;> rfl

set_option maxHeartbeats 4000000 in
/-- The scatter stretch leaves the floor quotients and the remainders as they were. -/
theorem keep_v0_4 :
    StableHlo.after (hostOps0_4 (F := Ideal)) V (Proc.devRef .tc main_v0) = V (Proc.devRef .tc main_v0) := by
  after_results_simp <;> rfl

set_option maxHeartbeats 4000000 in
theorem keep_v1_4 :
    StableHlo.after (hostOps0_4 (F := Ideal)) V (Proc.devRef .tc main_v1) = V (Proc.devRef .tc main_v1) := by
  after_results_simp <;> rfl

/-- Two index columns joined along the second axis, read at a pair index: component 0 comes from the first
    column, component 1 from the second. -/
theorem idxPair_apply (a b : IVec S62001 32) (q : S62001x2.Idx) :
    concatenate S62001x2 1
        [⟨S62001x1, broadcastInDim S62001x1 ![0] bcast_S62001_S62001x1_0 a⟩,
          ⟨S62001x1, broadcastInDim S62001x1 ![0] bcast_S62001_S62001x1_0 b⟩]
        concatenates_S62001x1_S62001x1_S62001x2_d1 q
      = if (q 1).val = 0 then a (ix1 (q 0)) else b (ix1 (q 0)) := by
  have hcol : ∀ (x : IVec S62001 32) (p : Fin 62001) (z : Fin 1),
      broadcastInDim S62001x1 ![0] bcast_S62001_S62001x1_0 x (ix2 p z) = x (ix1 p) := by
    intro x p z
    refine broadcastInDim_apply _ _ x (ix2 p z) (ix1 p) fun ax => ?_
    match ax with
    | ⟨0, _⟩ => rfl
  have hq1 : (q 1).val < 2 := (q 1).isLt
  by_cases h0 : (q 1).val = 0
  · rw [if_pos h0]
    refine (concatenate_pair_apply_left (t := S62001x2) (s₁ := S62001x1) (s₂ := S62001x1) (1 : Fin 2) _ _ _ q rfl (ix2 (q 0) (0 : Fin 1)) fun ax => ?_).trans
      (hcol a (q 0) 0)
    match ax with
    | ⟨0, _⟩ => rfl
    | ⟨1, _⟩ => exact h0.symm
  · rw [if_neg h0]
    refine (concatenate_pair_apply_right (t := S62001x2) (s₁ := S62001x1) (s₂ := S62001x1) (1 : Fin 2) _ _ _ q rfl rfl (ix2 (q 0) (0 : Fin 1)) (fun ax hax => ?_) ?_).trans
      (hcol b (q 0) 0)
    · match ax, hax with
      | ⟨0, _⟩, _ => rfl
      | ⟨1, _⟩, hax => exact absurd rfl hax
    · show 0 + 1 = (q 1).val
      omega

/-- A scatter depends on its operand, its indices and its updates only through their values. -/
theorem scatter_congr {s si u : Shape} {α : Type} {w : Nat} (d : ScatterDims s si u) (f : α → α → α)
    {Z Z' : s.Idx → α} {I I' : IVec si w} {U U' : u.Idx → α} (j : s.Idx) (hZ : Z = Z') (hI : I = I') (hU : U = U') :
    Host.scatter d f Z I U j = Host.scatter d f Z' I' U' j := by
  subst hZ hI hU; rfl

set_option maxHeartbeats 40000000 in
/-- The scatter stretch before region 0, read at (n, k, r, c): the transpose reads the grid scatter at
    (n, r, c, k); its operand is zero everywhere and its index pairs are the two wrapped columns. -/
theorem v17_at (n : Fin 16) (k : Fin 64) (r c' : Fin 249) :
    StableHlo.after (hostOps0_4 (F := Ideal)) V (Proc.devRef .tc main_v17) (ix4 n k r c')
      = Host.scatter scatter_S16x249x249x64_S62001x2_S16x62001x64_02_12_12_1 (fun _ b => b)
          (fun _ => Ideal.ofBits .f32 0x00000000#32)
          (fun q : S62001x2.Idx =>
            if (q 1).val = 0 then wrapW 249#32 (V (Proc.devRef .tc main_v0) (ix1 (q 0)))
            else wrapW 249#32 (V (Proc.devRef .tc main_v1) (ix1 (q 0))))
          (V (Proc.devRef .tc main_arg0)) (ix4 n r c' k) := by
  after_results
  refine (transpose_apply _ _ _ (ix4 n k r c') (ix4 n r c' k) ?_).trans ?_
  · intro ax
    match ax with
    | ⟨0, _⟩ => rfl
    | ⟨1, _⟩ => rfl
    | ⟨2, _⟩ => rfl
    | ⟨3, _⟩ => rfl
  refine scatter_congr _ _ _ rfl (funext fun q => ?_) rfl
  refine (idxPair_apply _ _ q).trans ?_
  split <;> rfl

set_option maxHeartbeats 40000000 in
/-- The scatter stretch before region 1, read at (z, k, r, c): the broadcast and the transpose read the grid
    scatter of the constant one at (r, c, k). -/
theorem v36_at (z : Fin 1) (k : Fin 64) (r c' : Fin 249) :
    StableHlo.after (hostOps1 (F := Ideal)) V (Proc.devRef .tc main_v36) (ix4 z k r c')
      = Host.scatter scatter_S249x249x64_S62001x2_S62001x64_1_01_01_1 (fun _ b => b)
          (fun _ => Ideal.ofBits .f32 0x00000000#32)
          (fun q : S62001x2.Idx =>
            if (q 1).val = 0 then wrapW 249#32 (V (Proc.devRef .tc main_v0) (ix1 (q 0)))
            else wrapW 249#32 (V (Proc.devRef .tc main_v1) (ix1 (q 0))))
          (fun _ => Ideal.ofBits .f32 0x3F800000#32) (ix3 r c' k) := by
  after_results
  refine (broadcastInDim_apply _ _ _ (ix4 z k r c') (ix3 k r c') ?_).trans ?_
  · intro ax
    match ax with
    | ⟨0, _⟩ => rfl
    | ⟨1, _⟩ => rfl
    | ⟨2, _⟩ => rfl
  refine (transpose_apply _ _ _ (ix3 k r c') (ix3 r c' k) ?_).trans ?_
  · intro ax
    match ax with
    | ⟨0, _⟩ => rfl
    | ⟨1, _⟩ => rfl
    | ⟨2, _⟩ => rfl
  refine scatter_congr _ _ _ rfl (funext fun q => ?_) rfl
  refine (idxPair_apply _ _ q).trans ?_
  split <;> rfl

set_option maxHeartbeats 4000000 in
/-- The stretch before region 1 leaves region 0's image array as it was. -/
theorem keep_v18_1 :
    StableHlo.after (hostOps1 (F := Ideal)) V (Proc.devRef .tc main_v18) = V (Proc.devRef .tc main_v18) := by
  after_results_simp <;> rfl

end Stretches

/-- The count image broadcast over the batch, read at (n, a, b): the reshape to 256 x 256 and the two broadcasts
    give the count image at (0, a, b). -/
theorem bcastCount_apply (X : S1x256x256.Idx → EReal) (n : Fin 16) (a b : Fin 256) :
    broadcastInDim S16x256x256 ![0, 1, 2] bcast_S1x256x256_S16x256x256_0_1_2
      (broadcastInDim S1x256x256 ![1, 2] bcast_S256x256_S1x256x256_1_2
        (shapeCast S256x256 X shapeCasts_S1x256x256_S256x256)) (ix3 n a b) = X (ix3 0 a b) := by
  refine (broadcastInDim_apply _ _ _ (ix3 n a b) (ix3 (0 : Fin 1) a b) ?_).trans ?_
  · intro ax
    match ax with
    | ⟨0, _⟩ => rfl
    | ⟨1, _⟩ => rfl
    | ⟨2, _⟩ => rfl
  refine (broadcastInDim_apply _ _ _ (ix3 (0 : Fin 1) a b) (ix2 a b) ?_).trans ?_
  · intro ax
    match ax with
    | ⟨0, _⟩ => rfl
    | ⟨1, _⟩ => rfl
  refine shapeCast_apply X _ (ix2 a b) (ix3 (0 : Fin 1) a b) ?_
  rw [Shape.rowMajor_val_three, Shape.rowMajor_val_two]
  show ((0 : ℕ) * 256 + a.val) * 256 + b.val = a.val * 256 + b.val
  omega

/-- The five host operations after region 1, over any contents of the buffers: the result buffer holds the images
    divided by the broadcast count image, reshaped. -/
theorem tail_after (Vv : Valuation τ sig (Elt Ideal)) :
    StableHlo.after (hostOps2 (F := Ideal)) Vv (Proc.devRef .tc main_v42)
      = shapeCast S2x8x256x256
          (Host.divf (F := Ideal) (s := S16x256x256) (φ := .f32) (Vv (Proc.devRef .tc main_v18))
            (broadcastInDim S16x256x256 ![0, 1, 2] bcast_S1x256x256_S16x256x256_0_1_2
              (broadcastInDim S1x256x256 ![1, 2] bcast_S256x256_S1x256x256_1_2
                (shapeCast S256x256 (Vv (Proc.devRef .tc main_v37) : FVec Ideal S1x256x256 .f32) shapeCasts_S1x256x256_S256x256))))
          shapeCasts_S16x256x256_S2x8x256x256 := by
  after_results
  rfl

variable (m : (ℓ : Loc nD τ sig) → Buf (Elt Ideal) ℓ) (ρ : Dev nD → PrngReg)

/-! ## The run's own contents at the stretches' inputs -/

/-- After the floor-division stretch the mask is as launched. -/
theorem W2_arg1 (c : Dev nD) :
    W2 (F := Ideal) m ρ c (Proc.devRef .tc main_arg1) = m ((c.tc : Thread nD τ).loc main_arg1) :=
  keep_arg1_01 (W0 (F := Ideal) m ρ c)

/-- The floor quotients of the launched mask. -/
theorem W2_v0 (c : Dev nD) :
    W2 (F := Ideal) m ρ c (Proc.devRef .tc main_v0)
      = fun i : S62001.Idx => floorDivW (m ((c.tc : Thread nD τ).loc main_arg1) i) :=
  v0_of (W0 (F := Ideal) m ρ c)

theorem W4_v0 (c : Dev nD) :
    W4 (F := Ideal) m ρ c (Proc.devRef .tc main_v0)
      = fun i : S62001.Idx => floorDivW (m ((c.tc : Thread nD τ).loc main_arg1) i) :=
  (keep_v0_23 (W2 (F := Ideal) m ρ c)).trans (W2_v0 m ρ c)

/-- The remainders of the launched mask. -/
theorem W4_v1 (c : Dev nD) :
    W4 (F := Ideal) m ρ c (Proc.devRef .tc main_v1)
      = fun i : S62001.Idx => modW (m ((c.tc : Thread nD τ).loc main_arg1) i) :=
  (v1_of (W2 (F := Ideal) m ρ c)).trans
    (congrArg (fun a : IVec S62001 32 => fun i : S62001.Idx => modW (a i)) (W2_arg1 m ρ c))

/-- Before the scatter stretch the input rows are as launched. -/
theorem W4_arg0 (c : Dev nD) :
    W4 (F := Ideal) m ρ c (Proc.devRef .tc main_arg0) = m ((c.tc : Thread nD τ).loc main_arg0) :=
  keep_arg0_0123 (W0 (F := Ideal) m ρ c)

/-- The quotients and remainders are still there when region 0 is over. -/
theorem W6_v0 (c : Dev nD) :
    W6 (F := Ideal) m ρ c (Proc.devRef .tc main_v0)
      = fun i : S62001.Idx => floorDivW (m ((c.tc : Thread nD τ).loc main_arg1) i) :=
  (W6_of_ne m ρ c main_v0 (by decide)).trans ((keep_v0_4 (W4 (F := Ideal) m ρ c)).trans (W4_v0 m ρ c))

theorem W6_v1 (c : Dev nD) :
    W6 (F := Ideal) m ρ c (Proc.devRef .tc main_v1)
      = fun i : S62001.Idx => modW (m ((c.tc : Thread nD τ).loc main_arg1) i) :=
  (W6_of_ne m ρ c main_v1 (by decide)).trans ((keep_v1_4 (W4 (F := Ideal) m ρ c)).trans (W4_v1 m ρ c))

/-- The slab array region 0 finds: entry (n, k, r, c) is the scattered row at position 249 r + c, offset k. -/
theorem slabs_eq (c : Dev nD) (n : Fin 16) (k : Fin 64) (r c' : Fin 249) :
    W5 (F := Ideal) m ρ c (Proc.devRef .tc main_v17) (ix4 n k r c')
      = patchRows (m ((c.tc : Thread nD τ).loc main_arg0)) (m ((c.tc : Thread nD τ).loc main_arg1)) (ix3 n (posOf r c') k) := by
  refine (v17_at (W4 (F := Ideal) m ρ c) n k r c').trans ?_
  rw [W4_v0 m ρ c, W4_v1 m ρ c, W4_arg0 m ρ c]
  exact gridRows_eq _ ⟨rfl, rfl, rfl, rfl⟩ _ _ n r c' k

/-- The count slabs region 1 finds. -/
theorem countSlabs_eq (c : Dev nD) (z : Fin 1) (k : Fin 64) (r c' : Fin 249) :
    W7 (F := Ideal) m ρ c (Proc.devRef .tc main_v36) (ix4 z k r c')
      = patchOnes (m ((c.tc : Thread nD τ).loc main_arg1)) (ix2 (posOf r c') k) := by
  refine (v36_at (W6 (F := Ideal) m ρ c) z k r c').trans ?_
  rw [W6_v0 m ρ c, W6_v1 m ρ c]
  exact gridOnes_eq _ ⟨rfl, rfl, rfl, rfl⟩ _ r c' k

/-- The host tail: the result is the images divided by the broadcast count image, reshaped. -/
theorem tail_eq (c : Dev nD) :
    W9 (F := Ideal) m ρ c (Proc.devRef .tc main_v42)
      = shapeCast S2x8x256x256
          (fun y : S16x256x256.Idx =>
            Ideal.div (W8 (F := Ideal) m ρ c (Proc.devRef .tc main_v18) y)
              (W8 (F := Ideal) m ρ c (Proc.devRef .tc main_v37) (ix3 0 (y 1) (y 2))))
          shapeCasts_S16x256x256_S2x8x256x256 := by
  show StableHlo.after (hostOps2 (F := Ideal)) (W8 (F := Ideal) m ρ c) (Proc.devRef .tc main_v42) = _
  rw [tail_after]
  refine congrArg (fun x => shapeCast S2x8x256x256 x shapeCasts_S16x256x256_S2x8x256x256) ?_
  funext y
  obtain ⟨n, a, b, rfl⟩ : ∃ (n : Fin 16) (a b : Fin 256), y = ix3 n a b := ⟨y 0, y 1, y 2, eq_ix3 y⟩
  exact congrArg (Ideal.div (W8 (F := Ideal) m ρ c (Proc.devRef .tc main_v18) (ix3 n a b)))
    (bcastCount_apply (W8 (F := Ideal) m ρ c (Proc.devRef .tc main_v37)) n a b)

end Cert.KernelIdeal.KHost

end
-- ==== Proof.KValue.lean ====
/-
  What the kernel's program computes, read off its run. Before the first region the host scatters the input
  rows into a 249 x 249 grid by (row, col) = (floor(mask / 249), mask mod 249) and moves the 64 offsets to the
  front; region 0 folds each batch entry's 64 slabs into a 256 x 256 image; the host builds the count grid the
  same way from the constant one, region 1 folds it; the host divides and reshapes. Grid entry (r, c) is the
  specification's scattered row at position 249 r + c, so the result is the specification's.
-/
import proofs.«164016_j4801773436971_1_alg».proof.Proof.ValueRun
import proofs.«164016_j4801773436971_1_alg».proof.Proof.KBody
import proofs.«164016_j4801773436971_1_alg».proof.Proof.KIndex
import proofs.«164016_j4801773436971_1_alg».proof.Proof.KArr
import proofs.«164016_j4801773436971_1_alg».proof.Proof.KHost
import Idealize.ShloMosaic.Lib.ValueIdx
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.GenP Cert.Fold
open Idealize.ShloMosaic Idealize.ShloMosaic.TcCoe Idealize.SL.Sem Idealize.ShloMosaic.ValueIdx

/-- The fold read at equal slabs and equal pixel coordinates. -/
theorem foldImg_eq (Q Q' : Fin 64 → Fin 249 → Fin 249 → EReal) (a b : Fin 256) (hQ : Q = Q') :
    foldImg Q a b = foldImg Q' a b := by
  subst hQ; rfl

/-- The host operations between the two regions leave region 0's image array alone. -/
theorem between_keeps_img (Vv : Valuation τ sig (Elt Ideal)) :
    StableHlo.after (hostOps1 (F := Ideal)) Vv (Proc.devRef .tc main_v18) = Vv (Proc.devRef .tc main_v18) := by
  after_results

/-- The image array at the last boundary before the host tail: image n at pixel (a, b) is the fold of the
    scattered rows' slabs of batch entry n. It is region 0's output, untouched by region 1 and by the host
    operations between the regions. -/
theorem img_at (m : (ℓ : Loc nD τ sig) → Buf (Elt Ideal) ℓ) (ρ : Dev nD → PrngReg) (c : Dev nD)
    (n : Fin 16) (a b : Fin 256) :
    W8 (F := Ideal) m ρ c (Proc.devRef .tc main_v18) (ix3 n a b)
      = foldImg (fun k r c' => patchRows (m ((c.tc : Thread nD τ).loc main_arg0)) (m ((c.tc : Thread nD τ).loc main_arg1))
          (ix3 n (posOf r c') k)) a b := by
  have e1 : W8 (F := Ideal) m ρ c (Proc.devRef .tc main_v18) = W7 (F := Ideal) m ρ c (Proc.devRef .tc main_v18) :=
    W8_of_ne m ρ c main_v18 (by decide)
  have e2 : W7 (F := Ideal) m ρ c (Proc.devRef .tc main_v18) = W6 (F := Ideal) m ρ c (Proc.devRef .tc main_v18) :=
    between_keeps_img (W6 (F := Ideal) m ρ c)
  have e3 : W6 (F := Ideal) m ρ c (Proc.devRef .tc main_v18) = (dat0 (V5 (F := Ideal) m ρ) c).arrAt 1 cfg0.N :=
    W6_arr m ρ c 1
  have e4 := KArr.arr0 (V5 (F := Ideal) m ρ) c
  rw [e1, e2, e3, e4]
  show foldImg _ _ _ = foldImg _ _ _
  refine foldImg_eq _ _ _ _ ?_
  funext k r c'
  exact KHost.slabs_eq m ρ c n k r c'

/-- The count image at the last boundary before the host tail: region 1's output, the fold of the scattered
    ones' slabs. -/
theorem cnt_at (m : (ℓ : Loc nD τ sig) → Buf (Elt Ideal) ℓ) (ρ : Dev nD → PrngReg) (c : Dev nD)
    (z : Fin 1) (a b : Fin 256) :
    W8 (F := Ideal) m ρ c (Proc.devRef .tc main_v37) (ix3 z a b)
      = foldImg (fun k r c' => patchOnes (m ((c.tc : Thread nD τ).loc main_arg1)) (ix2 (posOf r c') k)) a b := by
  have e1 : W8 (F := Ideal) m ρ c (Proc.devRef .tc main_v37) = (dat1 (V7 (F := Ideal) m ρ) c).arrAt 1 cfg1.N :=
    W8_arr m ρ c 1
  have e2 := KArr.arr1 (V7 (F := Ideal) m ρ) c
  rw [e1, e2]
  show foldImg _ _ _ = foldImg _ _ _
  refine foldImg_eq _ _ _ _ ?_
  funext k r c'
  exact KHost.countSlabs_eq m ρ c _ k r c'

/-- The result buffer's contents at the run's last boundary are the specification's result. -/
theorem W9_value (m : (ℓ : Loc nD τ sig) → Buf (Elt Ideal) ℓ) (ρ : Dev nD → PrngReg) (c : Dev nD) :
    W9 (F := Ideal) m ρ c (Proc.devRef .tc main_v42)
      = shapeCast S2x8x256x256
          (Gfinal (m ((c.tc : Thread nD τ).loc main_arg0)) (m ((c.tc : Thread nD τ).loc main_arg1)))
          shapeCasts_S16x256x256_S2x8x256x256 := by
  rw [KHost.tail_eq m ρ c]
  refine congrArg (fun x => shapeCast S2x8x256x256 x shapeCasts_S16x256x256_S2x8x256x256) ?_
  funext y
  obtain ⟨n, a, b, rfl⟩ : ∃ (n : Fin 16) (a b : Fin 256), y = ix3 n a b := ⟨y 0, y 1, y 2, eq_ix3 y⟩
  show Ideal.div (W8 (F := Ideal) m ρ c (Proc.devRef .tc main_v18) (ix3 n a b))
    (W8 (F := Ideal) m ρ c (Proc.devRef .tc main_v37) (ix3 0 a b)) = _
  rw [img_at m ρ c n a b, cnt_at m ρ c 0 a b]
  rfl

/-- The kernel program's run with its result read. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v42)
        = shapeCast S2x8x256x256
            (Gfinal (m ((c.tc : Thread nD τ).loc main_arg0)) (m ((c.tc : Thread nD τ).loc main_arg1)))
            shapeCasts_S16x256x256_S2x8x256x256
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun _ h c => ⟨(h c).1.trans (W9_value m ρ c), (h c).2⟩)
    (Cert.KernelIdeal.ValueRun.run_value (F := Ideal) m ρ)

end Cert.KernelIdeal.KValue

end
-- ==== Proof.WinScatter.lean ====
/-
  One windowed scatter-add is one shifted add. The scatter has a single start index (i, j) with i, j ≤ 7 and
  adds a whole 249 × 249 slab (per batch entry) into the 256 × 256 image at rows i … i + 248 and columns
  j … j + 248; the window fits, so no update is dropped, and distinct slab entries land on distinct pixels, so
  each pixel in the window gains exactly its slab entry and every other pixel is unchanged.
-/
import proofs.«164016_j4801773436971_1_alg».proof.Proof.Spec
import proofs.«164016_j4801773436971_1_alg».proof.Proof.ScatterGen

namespace Cert.Fold

open Idealize.ShloMosaic Idealize.ShloMosaic.ValueIdx

/-! ### The batched scatter: where an update lands -/

/-- With one index vector along axis 0 of the scatter indices, component c of the start index is read at
    position c, whatever the update. -/
private theorem siIdx3 (wf : ScatterDims.WF Simg S2i Sslab [0, 1, 2] [] [1, 2] 0) (u : Sslab.Idx) (c : Fin 2) :
    (ScatterDims.mk [0, 1, 2] [] [1, 2] 0 wf : ScatterDims Simg S2i Sslab).siIdx u c = ix1 c := by
  funext b
  match b with
  | ⟨0, _⟩ =>
    unfold ScatterDims.siIdx
    rw [dif_pos rfl]
    rfl

/-- The batch axis is not scattered: its start is 0. -/
private theorem start3_0 (wf : ScatterDims.WF Simg S2i Sslab [0, 1, 2] [] [1, 2] 0) (idx : IVec S2i 32) (u : Sslab.Idx) :
    (ScatterDims.mk [0, 1, 2] [] [1, 2] 0 wf : ScatterDims Simg S2i Sslab).start u idx 0 = 0 := by
  unfold ScatterDims.start
  rw [dif_neg (show (0 : Fin 3) ∉ ([1, 2] : List (Fin 3)) by decide)]

/-- The row axis starts at the first index word. -/
private theorem start3_1 (wf : ScatterDims.WF Simg S2i Sslab [0, 1, 2] [] [1, 2] 0) (idx : IVec S2i 32) (u : Sslab.Idx) :
    (ScatterDims.mk [0, 1, 2] [] [1, 2] 0 wf : ScatterDims Simg S2i Sslab).start u idx 1 = (idx (ix1 0)).toInt := by
  unfold ScatterDims.start
  rw [dif_pos (show (1 : Fin 3) ∈ ([1, 2] : List (Fin 3)) by decide)]
  congr 2
  exact siIdx3 wf u 0

/-- The column axis starts at the second index word. -/
private theorem start3_2 (wf : ScatterDims.WF Simg S2i Sslab [0, 1, 2] [] [1, 2] 0) (idx : IVec S2i 32) (u : Sslab.Idx) :
    (ScatterDims.mk [0, 1, 2] [] [1, 2] 0 wf : ScatterDims Simg S2i Sslab).start u idx 2 = (idx (ix1 1)).toInt := by
  unfold ScatterDims.start
  rw [dif_pos (show (2 : Fin 3) ∈ ([1, 2] : List (Fin 3)) by decide)]
  congr 2
  exact siIdx3 wf u 1

/-- No axis is inserted, so the window coordinate on each axis is the update's own coordinate there. -/
private theorem window3 (wf : ScatterDims.WF Simg S2i Sslab [0, 1, 2] [] [1, 2] 0) (u : Sslab.Idx) :
    (ScatterDims.mk [0, 1, 2] [] [1, 2] 0 wf : ScatterDims Simg S2i Sslab).window u 0 = (u 0).val ∧ (ScatterDims.mk [0, 1, 2] [] [1, 2] 0 wf : ScatterDims Simg S2i Sslab).window u 1 = (u 1).val ∧ (ScatterDims.mk [0, 1, 2] [] [1, 2] 0 wf : ScatterDims Simg S2i Sslab).window u 2 = (u 2).val := by
  refine ⟨?_, ?_, ?_⟩
  · unfold ScatterDims.window
    rw [dif_pos (show (0 : Fin 3) ∈ Shape.kept Simg [] by decide)]
    rfl
  · unfold ScatterDims.window
    rw [dif_pos (show (1 : Fin 3) ∈ Shape.kept Simg [] by decide)]
    rfl
  · unfold ScatterDims.window
    rw [dif_pos (show (2 : Fin 3) ∈ Shape.kept Simg [] by decide)]
    rfl

/-- Every update lands inside: update (n, r, c) lands on pixel (n, i + r, j + c). -/
private theorem land3 (wf : ScatterDims.WF Simg S2i Sslab [0, 1, 2] [] [1, 2] 0) (idx : IVec S2i 32) (i j : ℕ)
    (hi : i ≤ 7) (hj : j ≤ 7) (hi' : (idx (ix1 0)).toInt = i) (hj' : (idx (ix1 1)).toInt = j)
    (n : Fin 16) (r c : Fin 249) :
    (ScatterDims.mk [0, 1, 2] [] [1, 2] 0 wf : ScatterDims Simg S2i Sslab).resultIdx? (ix3 n r c) idx
      = some (ix3 n (⟨i + r.val, by omega⟩ : Fin 256) (⟨j + c.val, by omega⟩ : Fin 256)) := by
  obtain ⟨w0, w1, w2⟩ := window3 wf (ix3 n r c)
  have s0 := start3_0 wf idx (ix3 n r c)
  have s1 := start3_1 wf idx (ix3 n r c)
  have s2 := start3_2 wf idx (ix3 n r c)
  rw [hi'] at s1
  rw [hj'] at s2
  have hn : n.val < 16 := n.isLt
  have hr : r.val < 249 := r.isLt
  have hc : c.val < 249 := c.isLt
  have e0 : (ScatterDims.mk [0, 1, 2] [] [1, 2] 0 wf : ScatterDims Simg S2i Sslab).start (ix3 n r c) idx 0 + ((ScatterDims.mk [0, 1, 2] [] [1, 2] 0 wf : ScatterDims Simg S2i Sslab).window (ix3 n r c) 0 : ℤ) = (n.val : ℤ) := by
    rw [s0, w0]; show (0 : ℤ) + (n.val : ℤ) = n.val; omega
  have e1 : (ScatterDims.mk [0, 1, 2] [] [1, 2] 0 wf : ScatterDims Simg S2i Sslab).start (ix3 n r c) idx 1 + ((ScatterDims.mk [0, 1, 2] [] [1, 2] 0 wf : ScatterDims Simg S2i Sslab).window (ix3 n r c) 1 : ℤ) = ((i + r.val : ℕ) : ℤ) := by
    rw [s1, w1]; show (i : ℤ) + (r.val : ℤ) = ((i + r.val : ℕ) : ℤ); omega
  have e2 : (ScatterDims.mk [0, 1, 2] [] [1, 2] 0 wf : ScatterDims Simg S2i Sslab).start (ix3 n r c) idx 2 + ((ScatterDims.mk [0, 1, 2] [] [1, 2] 0 wf : ScatterDims Simg S2i Sslab).window (ix3 n r c) 2 : ℤ) = ((j + c.val : ℕ) : ℤ) := by
    rw [s2, w2]; show (j : ℤ) + (c.val : ℤ) = ((j + c.val : ℕ) : ℤ); omega
  have h : ∀ a, 0 ≤ (ScatterDims.mk [0, 1, 2] [] [1, 2] 0 wf : ScatterDims Simg S2i Sslab).start (ix3 n r c) idx a + (ScatterDims.mk [0, 1, 2] [] [1, 2] 0 wf : ScatterDims Simg S2i Sslab).window (ix3 n r c) a ∧
      (ScatterDims.mk [0, 1, 2] [] [1, 2] 0 wf : ScatterDims Simg S2i Sslab).start (ix3 n r c) idx a + (ScatterDims.mk [0, 1, 2] [] [1, 2] 0 wf : ScatterDims Simg S2i Sslab).window (ix3 n r c) a < Simg.size a := by
    intro a
    match a with
    | ⟨0, _⟩ =>
      show 0 ≤ (ScatterDims.mk [0, 1, 2] [] [1, 2] 0 wf : ScatterDims Simg S2i Sslab).start (ix3 n r c) idx 0 + ((ScatterDims.mk [0, 1, 2] [] [1, 2] 0 wf : ScatterDims Simg S2i Sslab).window (ix3 n r c) 0 : ℤ) ∧
        (ScatterDims.mk [0, 1, 2] [] [1, 2] 0 wf : ScatterDims Simg S2i Sslab).start (ix3 n r c) idx 0 + ((ScatterDims.mk [0, 1, 2] [] [1, 2] 0 wf : ScatterDims Simg S2i Sslab).window (ix3 n r c) 0 : ℤ) < ((16 : ℕ) : ℤ)
      rw [e0]; omega
    | ⟨1, _⟩ =>
      show 0 ≤ (ScatterDims.mk [0, 1, 2] [] [1, 2] 0 wf : ScatterDims Simg S2i Sslab).start (ix3 n r c) idx 1 + ((ScatterDims.mk [0, 1, 2] [] [1, 2] 0 wf : ScatterDims Simg S2i Sslab).window (ix3 n r c) 1 : ℤ) ∧
        (ScatterDims.mk [0, 1, 2] [] [1, 2] 0 wf : ScatterDims Simg S2i Sslab).start (ix3 n r c) idx 1 + ((ScatterDims.mk [0, 1, 2] [] [1, 2] 0 wf : ScatterDims Simg S2i Sslab).window (ix3 n r c) 1 : ℤ) < ((256 : ℕ) : ℤ)
      rw [e1]; omega
    | ⟨2, _⟩ =>
      show 0 ≤ (ScatterDims.mk [0, 1, 2] [] [1, 2] 0 wf : ScatterDims Simg S2i Sslab).start (ix3 n r c) idx 2 + ((ScatterDims.mk [0, 1, 2] [] [1, 2] 0 wf : ScatterDims Simg S2i Sslab).window (ix3 n r c) 2 : ℤ) ∧
        (ScatterDims.mk [0, 1, 2] [] [1, 2] 0 wf : ScatterDims Simg S2i Sslab).start (ix3 n r c) idx 2 + ((ScatterDims.mk [0, 1, 2] [] [1, 2] 0 wf : ScatterDims Simg S2i Sslab).window (ix3 n r c) 2 : ℤ) < ((256 : ℕ) : ℤ)
      rw [e2]; omega
  unfold ScatterDims.resultIdx?
  rw [dif_pos h]
  congr 1
  funext a
  match a with
  | ⟨0, _⟩ =>
    apply Fin.ext
    show ((ScatterDims.mk [0, 1, 2] [] [1, 2] 0 wf : ScatterDims Simg S2i Sslab).start (ix3 n r c) idx 0 + ((ScatterDims.mk [0, 1, 2] [] [1, 2] 0 wf : ScatterDims Simg S2i Sslab).window (ix3 n r c) 0 : ℤ)).toNat = n.val
    rw [e0]; exact Int.toNat_natCast _
  | ⟨1, _⟩ =>
    apply Fin.ext
    show ((ScatterDims.mk [0, 1, 2] [] [1, 2] 0 wf : ScatterDims Simg S2i Sslab).start (ix3 n r c) idx 1 + ((ScatterDims.mk [0, 1, 2] [] [1, 2] 0 wf : ScatterDims Simg S2i Sslab).window (ix3 n r c) 1 : ℤ)).toNat = i + r.val
    rw [e1]; exact Int.toNat_natCast _
  | ⟨2, _⟩ =>
    apply Fin.ext
    show ((ScatterDims.mk [0, 1, 2] [] [1, 2] 0 wf : ScatterDims Simg S2i Sslab).start (ix3 n r c) idx 2 + ((ScatterDims.mk [0, 1, 2] [] [1, 2] 0 wf : ScatterDims Simg S2i Sslab).window (ix3 n r c) 2 : ℤ)).toNat = j + c.val
    rw [e2]; exact Int.toNat_natCast _

/-- The batched form: 16 images, the batch axis carried along unchanged. -/
theorem scatter_win3 (d : ScatterDims Simg S2i Sslab)
    (hd : d.updateWindowDims = [0, 1, 2] ∧ d.insertedWindowDims = [] ∧ d.scatterDimsToOperandDims = [1, 2] ∧ d.indexVectorDim = 0)
    (acc : Simg.Idx → EReal) (idx : IVec S2i 32) (i j : ℕ) (hi : i ≤ 7) (hj : j ≤ 7)
    (hi' : (idx (ix1 0)).toInt = i) (hj' : (idx (ix1 1)).toInt = j) (upd : Sslab.Idx → EReal) (y : Simg.Idx) :
    Host.scatter d (FloatOps.addf : Ideal .f32 → Ideal .f32 → Ideal .f32) acc idx upd y
      = addWin i j (fun r c => upd (ix3 (y 0) r c)) (fun a b => acc (ix3 (y 0) a b)) (y 1) (y 2) := by
  obtain ⟨uw, iw, sd, iv, wf⟩ := d
  simp only at hd
  obtain ⟨rfl, rfl, rfl, rfl⟩ := hd
  obtain ⟨n, a, b, rfl⟩ : ∃ (n : Fin 16) (a : Fin 256) (b : Fin 256), y = ix3 n a b := ⟨y 0, y 1, y 2, eq_ix3 y⟩
  show Host.scatter (ScatterDims.mk [0, 1, 2] [] [1, 2] 0 wf : ScatterDims Simg S2i Sslab) (FloatOps.addf : Ideal .f32 → Ideal .f32 → Ideal .f32) acc idx upd (ix3 n a b)
      = addWin i j (fun r c => upd (ix3 n r c)) (fun a' b' => acc (ix3 n a' b')) a b
  -- where each update lands
  have hland : ∀ u : Sslab.Idx, (ScatterDims.mk [0, 1, 2] [] [1, 2] 0 wf : ScatterDims Simg S2i Sslab).resultIdx? u idx
      = some (ix3 (u 0) (⟨i + (u 1).val, by have : (u 1).val < 249 := (u 1).isLt; omega⟩ : Fin 256)
          (⟨j + (u 2).val, by have : (u 2).val < 249 := (u 2).isLt; omega⟩ : Fin 256)) := by
    intro u
    obtain ⟨n', r, c, rfl⟩ : ∃ (n' : Fin 16) (r : Fin 249) (c : Fin 249), u = ix3 n' r c := ⟨u 0, u 1, u 2, eq_ix3 u⟩
    exact land3 wf idx i j hi hj hi' hj' n' r c
  -- distinct updates land on distinct pixels
  have hinj : ∀ u₁ u₂ k, (ScatterDims.mk [0, 1, 2] [] [1, 2] 0 wf : ScatterDims Simg S2i Sslab).resultIdx? u₁ idx = some k → (ScatterDims.mk [0, 1, 2] [] [1, 2] 0 wf : ScatterDims Simg S2i Sslab).resultIdx? u₂ idx = some k → u₁ = u₂ := by
    intro u₁ u₂ k h₁ h₂
    rw [hland] at h₁ h₂
    have e := Option.some.inj (h₁.trans h₂.symm)
    have e0 : u₁ 0 = u₂ 0 := congrFun e 0
    have e1 : i + (u₁ 1).val = i + (u₂ 1).val := congrArg Fin.val (congrFun e 1)
    have e2 : j + (u₁ 2).val = j + (u₂ 2).val := congrArg Fin.val (congrFun e 2)
    funext x
    match x with
    | ⟨0, _⟩ => exact e0
    | ⟨1, _⟩ => apply Fin.ext; show (u₁ 1).val = (u₂ 1).val; omega
    | ⟨2, _⟩ => apply Fin.ext; show (u₁ 2).val = (u₂ 2).val; omega
  by_cases hw : i ≤ a.val ∧ a.val < i + 249 ∧ j ≤ b.val ∧ b.val < j + 249
  · -- inside the window: update (n, a - i, b - j) lands here
    have hk : (ScatterDims.mk [0, 1, 2] [] [1, 2] 0 wf : ScatterDims Simg S2i Sslab).resultIdx? (ix3 n (⟨a.val - i, by omega⟩ : Fin 249) (⟨b.val - j, by omega⟩ : Fin 249)) idx
        = some (ix3 n a b) := by
      rw [land3 wf idx i j hi hj hi' hj']
      congr 1
      funext x
      match x with
      | ⟨0, _⟩ => rfl
      | ⟨1, _⟩ => apply Fin.ext; show i + (a.val - i) = a.val; omega
      | ⟨2, _⟩ => apply Fin.ext; show j + (b.val - j) = b.val; omega
    rw [scatter_apply_of_lands _ _ acc idx upd hinj (ix3 n a b) _ hk]
    unfold addWin
    rw [dif_pos hw]
    rfl
  · -- outside the window: nothing lands here
    have hnone : ∀ u, (ScatterDims.mk [0, 1, 2] [] [1, 2] 0 wf : ScatterDims Simg S2i Sslab).resultIdx? u idx ≠ some (ix3 n a b) := by
      intro u hu
      rw [hland] at hu
      have e := Option.some.inj hu
      have e1 : i + (u 1).val = a.val := congrArg Fin.val (congrFun e 1)
      have e2 : j + (u 2).val = b.val := congrArg Fin.val (congrFun e 2)
      have r1 : (u 1).val < 249 := (u 1).isLt
      have r2 : (u 2).val < 249 := (u 2).isLt
      apply hw; omega
    rw [scatter_apply_of_no_land _ _ acc idx upd hinj (ix3 n a b) hnone]
    unfold addWin
    rw [dif_neg hw]

/-! ### The unbatched scatter: where an update lands -/

/-- With one index vector along axis 0 of the scatter indices, component c of the start index is read at
    position c, whatever the update. -/
private theorem siIdx2 (wf : ScatterDims.WF Simg2 S2i Sslab2 [0, 1] [] [0, 1] 0) (u : Sslab2.Idx) (c : Fin 2) :
    (ScatterDims.mk [0, 1] [] [0, 1] 0 wf : ScatterDims Simg2 S2i Sslab2).siIdx u c = ix1 c := by
  funext b
  match b with
  | ⟨0, _⟩ =>
    unfold ScatterDims.siIdx
    rw [dif_pos rfl]
    rfl

/-- The row axis starts at the first index word. -/
private theorem start2_0 (wf : ScatterDims.WF Simg2 S2i Sslab2 [0, 1] [] [0, 1] 0) (idx : IVec S2i 32) (u : Sslab2.Idx) :
    (ScatterDims.mk [0, 1] [] [0, 1] 0 wf : ScatterDims Simg2 S2i Sslab2).start u idx 0 = (idx (ix1 0)).toInt := by
  unfold ScatterDims.start
  rw [dif_pos (show (0 : Fin 2) ∈ ([0, 1] : List (Fin 2)) by decide)]
  congr 2
  exact siIdx2 wf u 0

/-- The column axis starts at the second index word. -/
private theorem start2_1 (wf : ScatterDims.WF Simg2 S2i Sslab2 [0, 1] [] [0, 1] 0) (idx : IVec S2i 32) (u : Sslab2.Idx) :
    (ScatterDims.mk [0, 1] [] [0, 1] 0 wf : ScatterDims Simg2 S2i Sslab2).start u idx 1 = (idx (ix1 1)).toInt := by
  unfold ScatterDims.start
  rw [dif_pos (show (1 : Fin 2) ∈ ([0, 1] : List (Fin 2)) by decide)]
  congr 2
  exact siIdx2 wf u 1

/-- No axis is inserted, so the window coordinate on each axis is the update's own coordinate there. -/
private theorem window2 (wf : ScatterDims.WF Simg2 S2i Sslab2 [0, 1] [] [0, 1] 0) (u : Sslab2.Idx) :
    (ScatterDims.mk [0, 1] [] [0, 1] 0 wf : ScatterDims Simg2 S2i Sslab2).window u 0 = (u 0).val ∧ (ScatterDims.mk [0, 1] [] [0, 1] 0 wf : ScatterDims Simg2 S2i Sslab2).window u 1 = (u 1).val := by
  refine ⟨?_, ?_⟩
  · unfold ScatterDims.window
    rw [dif_pos (show (0 : Fin 2) ∈ Shape.kept Simg2 [] by decide)]
    rfl
  · unfold ScatterDims.window
    rw [dif_pos (show (1 : Fin 2) ∈ Shape.kept Simg2 [] by decide)]
    rfl

/-- Every update lands inside: update (r, c) lands on pixel (i + r, j + c). -/
private theorem land2 (wf : ScatterDims.WF Simg2 S2i Sslab2 [0, 1] [] [0, 1] 0) (idx : IVec S2i 32) (i j : ℕ)
    (hi : i ≤ 7) (hj : j ≤ 7) (hi' : (idx (ix1 0)).toInt = i) (hj' : (idx (ix1 1)).toInt = j)
    (r c : Fin 249) :
    (ScatterDims.mk [0, 1] [] [0, 1] 0 wf : ScatterDims Simg2 S2i Sslab2).resultIdx? (ix2 r c) idx
      = some (ix2 (⟨i + r.val, by omega⟩ : Fin 256) (⟨j + c.val, by omega⟩ : Fin 256)) := by
  obtain ⟨w0, w1⟩ := window2 wf (ix2 r c)
  have s0 := start2_0 wf idx (ix2 r c)
  have s1 := start2_1 wf idx (ix2 r c)
  rw [hi'] at s0
  rw [hj'] at s1
  have hr : r.val < 249 := r.isLt
  have hc : c.val < 249 := c.isLt
  have e0 : (ScatterDims.mk [0, 1] [] [0, 1] 0 wf : ScatterDims Simg2 S2i Sslab2).start (ix2 r c) idx 0 + ((ScatterDims.mk [0, 1] [] [0, 1] 0 wf : ScatterDims Simg2 S2i Sslab2).window (ix2 r c) 0 : ℤ) = ((i + r.val : ℕ) : ℤ) := by
    rw [s0, w0]; show (i : ℤ) + (r.val : ℤ) = ((i + r.val : ℕ) : ℤ); omega
  have e1 : (ScatterDims.mk [0, 1] [] [0, 1] 0 wf : ScatterDims Simg2 S2i Sslab2).start (ix2 r c) idx 1 + ((ScatterDims.mk [0, 1] [] [0, 1] 0 wf : ScatterDims Simg2 S2i Sslab2).window (ix2 r c) 1 : ℤ) = ((j + c.val : ℕ) : ℤ) := by
    rw [s1, w1]; show (j : ℤ) + (c.val : ℤ) = ((j + c.val : ℕ) : ℤ); omega
  have h : ∀ a, 0 ≤ (ScatterDims.mk [0, 1] [] [0, 1] 0 wf : ScatterDims Simg2 S2i Sslab2).start (ix2 r c) idx a + (ScatterDims.mk [0, 1] [] [0, 1] 0 wf : ScatterDims Simg2 S2i Sslab2).window (ix2 r c) a ∧
      (ScatterDims.mk [0, 1] [] [0, 1] 0 wf : ScatterDims Simg2 S2i Sslab2).start (ix2 r c) idx a + (ScatterDims.mk [0, 1] [] [0, 1] 0 wf : ScatterDims Simg2 S2i Sslab2).window (ix2 r c) a < Simg2.size a := by
    intro a
    match a with
    | ⟨0, _⟩ =>
      show 0 ≤ (ScatterDims.mk [0, 1] [] [0, 1] 0 wf : ScatterDims Simg2 S2i Sslab2).start (ix2 r c) idx 0 + ((ScatterDims.mk [0, 1] [] [0, 1] 0 wf : ScatterDims Simg2 S2i Sslab2).window (ix2 r c) 0 : ℤ) ∧
        (ScatterDims.mk [0, 1] [] [0, 1] 0 wf : ScatterDims Simg2 S2i Sslab2).start (ix2 r c) idx 0 + ((ScatterDims.mk [0, 1] [] [0, 1] 0 wf : ScatterDims Simg2 S2i Sslab2).window (ix2 r c) 0 : ℤ) < ((256 : ℕ) : ℤ)
      rw [e0]; omega
    | ⟨1, _⟩ =>
      show 0 ≤ (ScatterDims.mk [0, 1] [] [0, 1] 0 wf : ScatterDims Simg2 S2i Sslab2).start (ix2 r c) idx 1 + ((ScatterDims.mk [0, 1] [] [0, 1] 0 wf : ScatterDims Simg2 S2i Sslab2).window (ix2 r c) 1 : ℤ) ∧
        (ScatterDims.mk [0, 1] [] [0, 1] 0 wf : ScatterDims Simg2 S2i Sslab2).start (ix2 r c) idx 1 + ((ScatterDims.mk [0, 1] [] [0, 1] 0 wf : ScatterDims Simg2 S2i Sslab2).window (ix2 r c) 1 : ℤ) < ((256 : ℕ) : ℤ)
      rw [e1]; omega
  unfold ScatterDims.resultIdx?
  rw [dif_pos h]
  congr 1
  funext a
  match a with
  | ⟨0, _⟩ =>
    apply Fin.ext
    show ((ScatterDims.mk [0, 1] [] [0, 1] 0 wf : ScatterDims Simg2 S2i Sslab2).start (ix2 r c) idx 0 + ((ScatterDims.mk [0, 1] [] [0, 1] 0 wf : ScatterDims Simg2 S2i Sslab2).window (ix2 r c) 0 : ℤ)).toNat = i + r.val
    rw [e0]; exact Int.toNat_natCast _
  | ⟨1, _⟩ =>
    apply Fin.ext
    show ((ScatterDims.mk [0, 1] [] [0, 1] 0 wf : ScatterDims Simg2 S2i Sslab2).start (ix2 r c) idx 1 + ((ScatterDims.mk [0, 1] [] [0, 1] 0 wf : ScatterDims Simg2 S2i Sslab2).window (ix2 r c) 1 : ℤ)).toNat = j + c.val
    rw [e1]; exact Int.toNat_natCast _

/-- The unbatched form: one image. -/
theorem scatter_win2 (d : ScatterDims Simg2 S2i Sslab2)
    (hd : d.updateWindowDims = [0, 1] ∧ d.insertedWindowDims = [] ∧ d.scatterDimsToOperandDims = [0, 1] ∧ d.indexVectorDim = 0)
    (acc : Simg2.Idx → EReal) (idx : IVec S2i 32) (i j : ℕ) (hi : i ≤ 7) (hj : j ≤ 7)
    (hi' : (idx (ix1 0)).toInt = i) (hj' : (idx (ix1 1)).toInt = j) (upd : Sslab2.Idx → EReal) (y : Simg2.Idx) :
    Host.scatter d (FloatOps.addf : Ideal .f32 → Ideal .f32 → Ideal .f32) acc idx upd y
      = addWin i j (fun r c => upd (ix2 r c)) (fun a b => acc (ix2 a b)) (y 0) (y 1) := by
  obtain ⟨uw, iw, sd, iv, wf⟩ := d
  simp only at hd
  obtain ⟨rfl, rfl, rfl, rfl⟩ := hd
  obtain ⟨a, b, rfl⟩ : ∃ (a : Fin 256) (b : Fin 256), y = ix2 a b := ⟨y 0, y 1, eq_ix2 y⟩
  show Host.scatter (ScatterDims.mk [0, 1] [] [0, 1] 0 wf : ScatterDims Simg2 S2i Sslab2) (FloatOps.addf : Ideal .f32 → Ideal .f32 → Ideal .f32) acc idx upd (ix2 a b)
      = addWin i j (fun r c => upd (ix2 r c)) (fun a' b' => acc (ix2 a' b')) a b
  -- where each update lands
  have hland : ∀ u : Sslab2.Idx, (ScatterDims.mk [0, 1] [] [0, 1] 0 wf : ScatterDims Simg2 S2i Sslab2).resultIdx? u idx
      = some (ix2 (⟨i + (u 0).val, by have : (u 0).val < 249 := (u 0).isLt; omega⟩ : Fin 256)
          (⟨j + (u 1).val, by have : (u 1).val < 249 := (u 1).isLt; omega⟩ : Fin 256)) := by
    intro u
    obtain ⟨r, c, rfl⟩ : ∃ (r : Fin 249) (c : Fin 249), u = ix2 r c := ⟨u 0, u 1, eq_ix2 u⟩
    exact land2 wf idx i j hi hj hi' hj' r c
  -- distinct updates land on distinct pixels
  have hinj : ∀ u₁ u₂ k, (ScatterDims.mk [0, 1] [] [0, 1] 0 wf : ScatterDims Simg2 S2i Sslab2).resultIdx? u₁ idx = some k → (ScatterDims.mk [0, 1] [] [0, 1] 0 wf : ScatterDims Simg2 S2i Sslab2).resultIdx? u₂ idx = some k → u₁ = u₂ := by
    intro u₁ u₂ k h₁ h₂
    rw [hland] at h₁ h₂
    have e := Option.some.inj (h₁.trans h₂.symm)
    have e0 : i + (u₁ 0).val = i + (u₂ 0).val := congrArg Fin.val (congrFun e 0)
    have e1 : j + (u₁ 1).val = j + (u₂ 1).val := congrArg Fin.val (congrFun e 1)
    funext x
    match x with
    | ⟨0, _⟩ => apply Fin.ext; show (u₁ 0).val = (u₂ 0).val; omega
    | ⟨1, _⟩ => apply Fin.ext; show (u₁ 1).val = (u₂ 1).val; omega
  by_cases hw : i ≤ a.val ∧ a.val < i + 249 ∧ j ≤ b.val ∧ b.val < j + 249
  · -- inside the window: update (a - i, b - j) lands here
    have hk : (ScatterDims.mk [0, 1] [] [0, 1] 0 wf : ScatterDims Simg2 S2i Sslab2).resultIdx? (ix2 (⟨a.val - i, by omega⟩ : Fin 249) (⟨b.val - j, by omega⟩ : Fin 249)) idx
        = some (ix2 a b) := by
      rw [land2 wf idx i j hi hj hi' hj']
      congr 1
      funext x
      match x with
      | ⟨0, _⟩ => apply Fin.ext; show i + (a.val - i) = a.val; omega
      | ⟨1, _⟩ => apply Fin.ext; show j + (b.val - j) = b.val; omega
    rw [scatter_apply_of_lands _ _ acc idx upd hinj (ix2 a b) _ hk]
    unfold addWin
    rw [dif_pos hw]
    rfl
  · -- outside the window: nothing lands here
    have hnone : ∀ u, (ScatterDims.mk [0, 1] [] [0, 1] 0 wf : ScatterDims Simg2 S2i Sslab2).resultIdx? u idx ≠ some (ix2 a b) := by
      intro u hu
      rw [hland] at hu
      have e := Option.some.inj hu
      have e0 : i + (u 0).val = a.val := congrArg Fin.val (congrFun e 0)
      have e1 : j + (u 1).val = b.val := congrArg Fin.val (congrFun e 1)
      have r0 : (u 0).val < 249 := (u 0).isLt
      have r1 : (u 1).val < 249 := (u 1).isLt
      apply hw; omega
    rw [scatter_apply_of_no_land _ _ acc idx upd hinj (ix2 a b) hnone]
    unfold addWin
    rw [dif_neg hw]

end Cert.Fold
-- ==== Proof.RefStep.lean ====
/-
  One printed scatter-add of the reference is one step of the fold. For each in-patch offset (i, j) the reference
  cuts the slab at (.., i, j) out of the reshaped row scatter and adds it into the image at start index (i, j).
  Here: the start index read off the printed pair of constants; the slab read at an index; one printed
  scatter-add as one more offset appended to a fold over a list of offsets; that fold read at a pixel as the
  fold of shifted adds of the statement; the reshaped row scatter read at an index (slab k at (r, c) is row
  position 249 r + c, offset k); the printed row scatters as the scattered rows and the filled positions of the
  statement; and the count image repeated under the 16 images.
-/
import proofs.«164016_j4801773436971_1_alg».proof.ReferenceIdeal
import proofs.«164016_j4801773436971_1_alg».proof.Proof.Gen.ReferenceIdeal
import proofs.«164016_j4801773436971_1_alg».proof.Proof.Spec
import proofs.«164016_j4801773436971_1_alg».proof.Proof.WinScatter
import Idealize.ShloMosaic.Lib.ValueIdx
import Idealize.ShloMosaic.Lib.Pipeline.Value
import Idealize.ShloMosaic.Lib.IdealHost

noncomputable section

namespace Cert.ReferenceIdeal.RefStep

open Cert.ReferenceIdeal Cert.ReferenceIdeal.Gen Cert.Fold
open Idealize.ShloMosaic Idealize.ShloMosaic.ValueIdx

/-! ### The start index: two constants side by side -/

/-- The printed start index is the pair of words ci, cj, each a scalar constant broadcast to one element, laid
    side by side: its first element is ci. -/
theorem idx_fst (ci cj : BitVec 32) (hb : S_.BroadcastsInDim S1 (![] : Fin 0 → Fin S1.rank))
    (hcat : Shape.Concatenates [S1, S1] S2 0) :
    (concatenate S2 0 [⟨S1, broadcastInDim S1 ![] hb (constantI S_ 32 ci)⟩,
        ⟨S1, broadcastInDim S1 ![] hb (constantI S_ 32 cj)⟩] hcat : IVec S2 32) (ix1 0) = ci := by
  rw [concatenate_pair_apply_left (0 : Fin S2.rank) _ _ hcat (ix1 0) rfl (ix1 0) (fun b => by
    match b with
    | ⟨0, _⟩ => rfl)]
  rfl

/-- Its second element is cj. -/
theorem idx_snd (ci cj : BitVec 32) (hb : S_.BroadcastsInDim S1 (![] : Fin 0 → Fin S1.rank))
    (hcat : Shape.Concatenates [S1, S1] S2 0) :
    (concatenate S2 0 [⟨S1, broadcastInDim S1 ![] hb (constantI S_ 32 ci)⟩,
        ⟨S1, broadcastInDim S1 ![] hb (constantI S_ 32 cj)⟩] hcat : IVec S2 32) (ix1 1) = cj := by
  rw [concatenate_pair_apply_right (0 : Fin S2.rank) _ _ hcat (ix1 1) rfl rfl (ix1 0) (fun b hb' => by
    match b with
    | ⟨0, _⟩ => exact absurd rfl hb') rfl]
  rfl

/-! ### A slab read at an index -/

/-- The slab of offset (a, b): the five-axis array cut at (.., a, b) and its two unit axes dropped, read at
    (n, r, c), is the array at (n, r, c, a, b). -/
theorem slab3_apply (a b : ℕ) (ha : a ≤ 7) (hb : b ≤ 7) (P : S16x249x249x8x8.Idx → EReal)
    (hs : S16x249x249x8x8.Slices ![0, 0, 0, a, b] S16x249x249x1x1) (hc : S16x249x249x1x1.ShapeCasts S16x249x249)
    (n : Fin 16) (r c : Fin 249) :
    shapeCast S16x249x249 (extractStridedSlice S16x249x249x1x1 ![0, 0, 0, a, b] P hs) hc (ix3 n r c)
      = P (ix5 n r c (⟨a, by omega⟩ : Fin 8) (⟨b, by omega⟩ : Fin 8)) := by
  have h1 : shapeCast S16x249x249 (extractStridedSlice S16x249x249x1x1 ![0, 0, 0, a, b] P hs) hc (ix3 n r c)
      = extractStridedSlice S16x249x249x1x1 ![0, 0, 0, a, b] P hs (ix5 n r c (0 : Fin 1) (0 : Fin 1)) := by
    refine shapeCast_apply _ hc (ix3 n r c) (ix5 n r c (0 : Fin 1) (0 : Fin 1)) ?_
    rw [Shape.rowMajor_val_five, Shape.rowMajor_val_three]
    show ((((n.val * 249 + r.val) * 249 + c.val) * 1 + 0) * 1 + 0) = (n.val * 249 + r.val) * 249 + c.val
    omega
  rw [h1]
  refine extractStridedSlice_apply _ P hs _ _ (fun x => ?_)
  match x with
  | ⟨0, _⟩ => show n.val = 0 + n.val; omega
  | ⟨1, _⟩ => show r.val = 0 + r.val; omega
  | ⟨2, _⟩ => show c.val = 0 + c.val; omega
  | ⟨3, _⟩ => show a = a + 0; omega
  | ⟨4, _⟩ => show b = b + 0; omega

/-- The same for the count slabs, which have no batch axis. -/
theorem slab2_apply (a b : ℕ) (ha : a ≤ 7) (hb : b ≤ 7) (P : S249x249x8x8.Idx → EReal)
    (hs : S249x249x8x8.Slices ![0, 0, a, b] S249x249x1x1) (hc : S249x249x1x1.ShapeCasts S249x249)
    (r c : Fin 249) :
    shapeCast S249x249 (extractStridedSlice S249x249x1x1 ![0, 0, a, b] P hs) hc (ix2 r c)
      = P (ix4 r c (⟨a, by omega⟩ : Fin 8) (⟨b, by omega⟩ : Fin 8)) := by
  have h1 : shapeCast S249x249 (extractStridedSlice S249x249x1x1 ![0, 0, a, b] P hs) hc (ix2 r c)
      = extractStridedSlice S249x249x1x1 ![0, 0, a, b] P hs (ix4 r c (0 : Fin 1) (0 : Fin 1)) := by
    refine shapeCast_apply _ hc (ix2 r c) (ix4 r c (0 : Fin 1) (0 : Fin 1)) ?_
    rw [Shape.rowMajor_val_four, Shape.rowMajor_val_two]
    show (((r.val * 249 + c.val) * 1 + 0) * 1 + 0) = r.val * 249 + c.val
    omega
  rw [h1]
  refine extractStridedSlice_apply _ P hs _ _ (fun x => ?_)
  match x with
  | ⟨0, _⟩ => show r.val = 0 + r.val; omega
  | ⟨1, _⟩ => show c.val = 0 + c.val; omega
  | ⟨2, _⟩ => show a = a + 0; omega
  | ⟨3, _⟩ => show b = b + 0; omega

/-! ### One step, and the fold over a list of offsets -/

/-- One shifted add on the 16 images at once: image n gains slab n at corner (i, j). -/
def stepF3 (i j : ℕ) (slab : Fin 16 → Fin 249 → Fin 249 → EReal) (acc : S16x256x256.Idx → EReal) :
    S16x256x256.Idx → EReal :=
  fun y => addWin i j (slab (y 0)) (fun a b => acc (ix3 (y 0) a b)) (y 1) (y 2)

/-- One shifted add on the one count image. -/
def stepF2 (i j : ℕ) (slab : Fin 249 → Fin 249 → EReal) (acc : S256x256.Idx → EReal) : S256x256.Idx → EReal :=
  fun y => addWin i j slab (fun a b => acc (ix2 a b)) (y 0) (y 1)

/-- Slab k of the five-axis array: its entries at in-patch offset (k / 8, k % 8). -/
def slabOf3 (P : S16x249x249x8x8.Idx → EReal) (k : Fin 64) : Fin 16 → Fin 249 → Fin 249 → EReal :=
  fun n r c => P (ix5 n r c (⟨k.val / 8, by have := k.isLt; omega⟩ : Fin 8) (⟨k.val % 8, by omega⟩ : Fin 8))

/-- Slab k of the four-axis count array. -/
def slabOf2 (P : S249x249x8x8.Idx → EReal) (k : Fin 64) : Fin 249 → Fin 249 → EReal :=
  fun r c => P (ix4 r c (⟨k.val / 8, by have := k.isLt; omega⟩ : Fin 8) (⟨k.val % 8, by omega⟩ : Fin 8))

/-- The steps of the offsets in the list L, in order, from Z. -/
def foldSteps3 (P : S16x249x249x8x8.Idx → EReal) (Z : S16x256x256.Idx → EReal) (L : List (Fin 64)) :
    S16x256x256.Idx → EReal :=
  L.foldl (fun acc k => stepF3 (k.val / 8) (k.val % 8) (slabOf3 P k) acc) Z

def foldSteps2 (P : S249x249x8x8.Idx → EReal) (Z : S256x256.Idx → EReal) (L : List (Fin 64)) :
    S256x256.Idx → EReal :=
  L.foldl (fun acc k => stepF2 (k.val / 8) (k.val % 8) (slabOf2 P k) acc) Z

theorem foldSteps3_nil (P : S16x249x249x8x8.Idx → EReal) (Z : S16x256x256.Idx → EReal) :
    foldSteps3 P Z [] = Z := rfl

theorem foldSteps2_nil (P : S249x249x8x8.Idx → EReal) (Z : S256x256.Idx → EReal) :
    foldSteps2 P Z [] = Z := rfl

theorem foldSteps3_snoc (P : S16x249x249x8x8.Idx → EReal) (Z : S16x256x256.Idx → EReal) (L : List (Fin 64))
    (k : Fin 64) :
    foldSteps3 P Z (L ++ [k]) = stepF3 (k.val / 8) (k.val % 8) (slabOf3 P k) (foldSteps3 P Z L) := by
  unfold foldSteps3
  rw [List.foldl_append]
  rfl

theorem foldSteps2_snoc (P : S249x249x8x8.Idx → EReal) (Z : S256x256.Idx → EReal) (L : List (Fin 64))
    (k : Fin 64) :
    foldSteps2 P Z (L ++ [k]) = stepF2 (k.val / 8) (k.val % 8) (slabOf2 P k) (foldSteps2 P Z L) := by
  unfold foldSteps2
  rw [List.foldl_append]
  rfl

/-- Slab 8 a + b is the array at in-patch offset (a, b). -/
theorem slabOf3_mk (P : S16x249x249x8x8.Idx → EReal) (a b : ℕ) (ha : a ≤ 7) (hb : b ≤ 7) :
    slabOf3 P (⟨8 * a + b, by omega⟩ : Fin 64)
      = fun n r c => P (ix5 n r c (⟨a, by omega⟩ : Fin 8) (⟨b, by omega⟩ : Fin 8)) := by
  funext n r c
  unfold slabOf3
  refine congrArg P (funext fun x => ?_)
  match x with
  | ⟨0, _⟩ => rfl
  | ⟨1, _⟩ => rfl
  | ⟨2, _⟩ => rfl
  | ⟨3, _⟩ => apply Fin.ext; show (8 * a + b) / 8 = a; omega
  | ⟨4, _⟩ => apply Fin.ext; show (8 * a + b) % 8 = b; omega

theorem slabOf2_mk (P : S249x249x8x8.Idx → EReal) (a b : ℕ) (ha : a ≤ 7) (hb : b ≤ 7) :
    slabOf2 P (⟨8 * a + b, by omega⟩ : Fin 64)
      = fun r c => P (ix4 r c (⟨a, by omega⟩ : Fin 8) (⟨b, by omega⟩ : Fin 8)) := by
  funext r c
  unfold slabOf2
  refine congrArg P (funext fun x => ?_)
  match x with
  | ⟨0, _⟩ => rfl
  | ⟨1, _⟩ => rfl
  | ⟨2, _⟩ => apply Fin.ext; show (8 * a + b) / 8 = a; omega
  | ⟨3, _⟩ => apply Fin.ext; show (8 * a + b) % 8 = b; omega

/-- A shifted add depends on the slab only through its entries. -/
theorem addWin_slab_congr (i j : ℕ) (s s' : Fin 249 → Fin 249 → EReal) (acc : Fin 256 → Fin 256 → EReal)
    (h : ∀ r c, s r c = s' r c) : addWin i j s acc = addWin i j s' acc := by
  have e : s = s' := funext fun r => funext fun c => h r c
  rw [e]

/-- A small word read signed is itself. -/
theorem toInt_small (v : BitVec 32) (a : ℕ) (ha : a ≤ 7) (hv : v.toNat = a) : v.toInt = (a : ℤ) := by
  rw [BitVec.toInt_eq_toNat_of_lt (by omega), hv]

/-! ### One printed scatter-add appends one offset to the fold -/

/-- The printed scatter-add of the slab of offset (a, b) at the start index (ci, cj) = (a, b), over the fold of
    the offsets in L, is the fold of the offsets in L and then 8 a + b. -/
theorem scatter3_snoc (P : S16x249x249x8x8.Idx → EReal) (Z : S16x256x256.Idx → EReal) (L : List (Fin 64))
    (ci cj : BitVec 32) (a b : ℕ)
    (hb1 : S_.BroadcastsInDim S1 (![] : Fin 0 → Fin S1.rank)) (hcat : Shape.Concatenates [S1, S1] S2 0)
    (hs : S16x249x249x8x8.Slices ![0, 0, 0, a, b] S16x249x249x1x1) (hc : S16x249x249x1x1.ShapeCasts S16x249x249)
    (ha : a ≤ 7) (hb : b ≤ 7) (hci : ci.toNat = a) (hcj : cj.toNat = b) :
    Host.scatter scatter_S16x256x256_S2_S16x249x249_012_n_12_0 (FloatOps.addf : Ideal .f32 → Ideal .f32 → Ideal .f32)
        (foldSteps3 P Z L)
        (concatenate S2 0 [⟨S1, broadcastInDim S1 ![] hb1 (constantI S_ 32 ci)⟩,
          ⟨S1, broadcastInDim S1 ![] hb1 (constantI S_ 32 cj)⟩] hcat)
        (shapeCast S16x249x249 (extractStridedSlice S16x249x249x1x1 ![0, 0, 0, a, b] P hs) hc)
      = foldSteps3 P Z (L ++ [(⟨8 * a + b, by omega⟩ : Fin 64)]) := by
  rw [foldSteps3_snoc, slabOf3_mk P a b ha hb]
  have hk1 : (⟨8 * a + b, by omega⟩ : Fin 64).val / 8 = a := by show (8 * a + b) / 8 = a; omega
  have hk2 : (⟨8 * a + b, by omega⟩ : Fin 64).val % 8 = b := by show (8 * a + b) % 8 = b; omega
  rw [hk1, hk2]
  funext y
  have hi' : ((concatenate S2 0 [⟨S1, broadcastInDim S1 ![] hb1 (constantI S_ 32 ci)⟩,
      ⟨S1, broadcastInDim S1 ![] hb1 (constantI S_ 32 cj)⟩] hcat : IVec S2 32) (ix1 0)).toInt = (a : ℤ) := by
    rw [idx_fst]; exact toInt_small ci a ha hci
  have hj' : ((concatenate S2 0 [⟨S1, broadcastInDim S1 ![] hb1 (constantI S_ 32 ci)⟩,
      ⟨S1, broadcastInDim S1 ![] hb1 (constantI S_ 32 cj)⟩] hcat : IVec S2 32) (ix1 1)).toInt = (b : ℤ) := by
    rw [idx_snd]; exact toInt_small cj b hb hcj
  rw [scatter_win3 scatter_S16x256x256_S2_S16x249x249_012_n_12_0 ⟨rfl, rfl, rfl, rfl⟩ (foldSteps3 P Z L) _ a b ha hb
    hi' hj' _ y]
  exact congrFun (congrFun (addWin_slab_congr a b _ _ _
    (fun r c => slab3_apply a b ha hb P hs hc (y 0) r c)) (y 1)) (y 2)

/-- The same for the count image. -/
theorem scatter2_snoc (P : S249x249x8x8.Idx → EReal) (Z : S256x256.Idx → EReal) (L : List (Fin 64))
    (ci cj : BitVec 32) (a b : ℕ)
    (hb1 : S_.BroadcastsInDim S1 (![] : Fin 0 → Fin S1.rank)) (hcat : Shape.Concatenates [S1, S1] S2 0)
    (hs : S249x249x8x8.Slices ![0, 0, a, b] S249x249x1x1) (hc : S249x249x1x1.ShapeCasts S249x249)
    (ha : a ≤ 7) (hb : b ≤ 7) (hci : ci.toNat = a) (hcj : cj.toNat = b) :
    Host.scatter scatter_S256x256_S2_S249x249_01_n_01_0 (FloatOps.addf : Ideal .f32 → Ideal .f32 → Ideal .f32)
        (foldSteps2 P Z L)
        (concatenate S2 0 [⟨S1, broadcastInDim S1 ![] hb1 (constantI S_ 32 ci)⟩,
          ⟨S1, broadcastInDim S1 ![] hb1 (constantI S_ 32 cj)⟩] hcat)
        (shapeCast S249x249 (extractStridedSlice S249x249x1x1 ![0, 0, a, b] P hs) hc)
      = foldSteps2 P Z (L ++ [(⟨8 * a + b, by omega⟩ : Fin 64)]) := by
  rw [foldSteps2_snoc, slabOf2_mk P a b ha hb]
  have hk1 : (⟨8 * a + b, by omega⟩ : Fin 64).val / 8 = a := by show (8 * a + b) / 8 = a; omega
  have hk2 : (⟨8 * a + b, by omega⟩ : Fin 64).val % 8 = b := by show (8 * a + b) % 8 = b; omega
  rw [hk1, hk2]
  funext y
  have hi' : ((concatenate S2 0 [⟨S1, broadcastInDim S1 ![] hb1 (constantI S_ 32 ci)⟩,
      ⟨S1, broadcastInDim S1 ![] hb1 (constantI S_ 32 cj)⟩] hcat : IVec S2 32) (ix1 0)).toInt = (a : ℤ) := by
    rw [idx_fst]; exact toInt_small ci a ha hci
  have hj' : ((concatenate S2 0 [⟨S1, broadcastInDim S1 ![] hb1 (constantI S_ 32 ci)⟩,
      ⟨S1, broadcastInDim S1 ![] hb1 (constantI S_ 32 cj)⟩] hcat : IVec S2 32) (ix1 1)).toInt = (b : ℤ) := by
    rw [idx_snd]; exact toInt_small cj b hb hcj
  rw [scatter_win2 scatter_S256x256_S2_S249x249_01_n_01_0 ⟨rfl, rfl, rfl, rfl⟩ (foldSteps2 P Z L) _ a b ha hb
    hi' hj' _ y]
  exact congrFun (congrFun (addWin_slab_congr a b _ _ _
    (fun r c => slab2_apply a b ha hb P hs hc r c)) (y 0)) (y 1)

/-! ### The fold read at a pixel -/

/-- The fold of the 16 images read at image n is the fold of image n alone. -/
theorem foldSteps3_apply (P : S16x249x249x8x8.Idx → EReal) (Z : S16x256x256.Idx → EReal) (L : List (Fin 64))
    (n : Fin 16) (a b : Fin 256) :
    foldSteps3 P Z L (ix3 n a b)
      = (L.foldl (fun acc k => addWin (k.val / 8) (k.val % 8) (slabOf3 P k n) acc) (fun a' b' => Z (ix3 n a' b'))) a b := by
  unfold foldSteps3
  induction L generalizing Z with
  | nil => rfl
  | cons k L ih =>
    rw [List.foldl_cons, List.foldl_cons, ih]
    rfl

theorem foldSteps2_apply (P : S249x249x8x8.Idx → EReal) (Z : S256x256.Idx → EReal) (L : List (Fin 64))
    (a b : Fin 256) :
    foldSteps2 P Z L (ix2 a b)
      = (L.foldl (fun acc k => addWin (k.val / 8) (k.val % 8) (slabOf2 P k) acc) (fun a' b' => Z (ix2 a' b'))) a b := by
  unfold foldSteps2
  induction L generalizing Z with
  | nil => rfl
  | cons k L ih =>
    rw [List.foldl_cons, List.foldl_cons, ih]
    rfl

/-! ### The slabs are the scattered rows -/

/-- The rows reshaped to (batch, grid row, grid column, offset row, offset column): entry (n, r, c, i, j) is
    row position 249 r + c, offset 8 i + j. -/
theorem reshape5_apply (X : S16x62001x64.Idx → EReal) (h : S16x62001x64.ShapeCasts S16x249x249x8x8)
    (n : Fin 16) (r c : Fin 249) (i j : Fin 8) :
    shapeCast S16x249x249x8x8 X h (ix5 n r c i j)
      = X (ix3 n (posOf r c) (⟨8 * i.val + j.val, by omega⟩ : Fin 64)) := by
  refine shapeCast_apply X h (ix5 n r c i j) (ix3 n (posOf r c) (⟨8 * i.val + j.val, by omega⟩ : Fin 64)) ?_
  rw [Shape.rowMajor_val_three, Shape.rowMajor_val_five]
  show (n.val * 62001 + (249 * r.val + c.val)) * 64 + (8 * i.val + j.val)
    = (((n.val * 249 + r.val) * 249 + c.val) * 8 + i.val) * 8 + j.val
  omega

theorem reshape4_apply (X : S62001x64.Idx → EReal) (h : S62001x64.ShapeCasts S249x249x8x8)
    (r c : Fin 249) (i j : Fin 8) :
    shapeCast S249x249x8x8 X h (ix4 r c i j)
      = X (ix2 (posOf r c) (⟨8 * i.val + j.val, by omega⟩ : Fin 64)) := by
  refine shapeCast_apply X h (ix4 r c i j) (ix2 (posOf r c) (⟨8 * i.val + j.val, by omega⟩ : Fin 64)) ?_
  rw [Shape.rowMajor_val_two, Shape.rowMajor_val_four]
  show (249 * r.val + c.val) * 64 + (8 * i.val + j.val) = ((r.val * 249 + c.val) * 8 + i.val) * 8 + j.val
  omega

/-- Slab k of the reshaped rows at (n, r, c) is the row at position 249 r + c, offset k. -/
theorem slabOf3_reshape (X : S16x62001x64.Idx → EReal) (h : S16x62001x64.ShapeCasts S16x249x249x8x8)
    (k : Fin 64) (n : Fin 16) (r c : Fin 249) :
    slabOf3 (shapeCast S16x249x249x8x8 X h) k n r c = X (ix3 n (posOf r c) k) := by
  unfold slabOf3
  rw [reshape5_apply]
  refine congrArg (fun k' : Fin 64 => X (ix3 n (posOf r c) k')) (Fin.ext ?_)
  show 8 * (k.val / 8) + k.val % 8 = k.val
  omega

theorem slabOf2_reshape (X : S62001x64.Idx → EReal) (h : S62001x64.ShapeCasts S249x249x8x8)
    (k : Fin 64) (r c : Fin 249) :
    slabOf2 (shapeCast S249x249x8x8 X h) k r c = X (ix2 (posOf r c) k) := by
  unfold slabOf2
  rw [reshape4_apply]
  refine congrArg (fun k' : Fin 64 => X (ix2 (posOf r c) k')) (Fin.ext ?_)
  show 8 * (k.val / 8) + k.val % 8 = k.val
  omega

/-! ### The printed row scatters -/

/-- The printed position vector: the mask moved up by 62001 where negative, as one index per row. -/
theorem posIdx_eq (mask : IVec S62001 32) (h0 : S_.BroadcastsInDim S62001 (![] : Fin 0 → Fin S62001.rank))
    (h1 : S62001.BroadcastsInDim S62001x1 (![0] : Fin 1 → Fin S62001x1.rank)) :
    broadcastInDim S62001x1 ![0] h1
        (select (cmpi .slt mask (broadcastInDim S62001 ![] h0 (constantI S_ 32 0#32)))
          (addi mask (broadcastInDim S62001 ![] h0 (constantI S_ 32 62001#32))) mask)
      = posIdx mask := by
  funext q
  obtain ⟨p, u, rfl⟩ : ∃ (p : Fin 62001) (u : Fin 1), q = ix2 p u := ⟨q 0, q 1, eq_ix2 q⟩
  rw [broadcastInDim_apply _ h1 _ (ix2 p u) (ix1 p) (fun x => by
    match x with
    | ⟨0, _⟩ => rfl)]
  rfl

/-- The printed scatter of the input rows is the scattered rows of the statement. -/
theorem rowScatter_eq (x : S16x62001x64.Idx → EReal) (mask : IVec S62001 32)
    (hz : S_.BroadcastsInDim S16x62001x64 (![] : Fin 0 → Fin S16x62001x64.rank))
    (h0 : S_.BroadcastsInDim S62001 (![] : Fin 0 → Fin S62001.rank))
    (h1 : S62001.BroadcastsInDim S62001x1 (![0] : Fin 1 → Fin S62001x1.rank)) :
    Host.scatter scatter_S16x62001x64_S62001x1_S16x62001x64_02_1_1_1 (fun _ b => b)
        (broadcastInDim S16x62001x64 ![] hz (constant (F := Ideal) S_ .f32 0x00000000#32))
        (broadcastInDim S62001x1 ![0] h1
          (select (cmpi .slt mask (broadcastInDim S62001 ![] h0 (constantI S_ 32 0#32)))
            (addi mask (broadcastInDim S62001 ![] h0 (constantI S_ 32 62001#32))) mask))
        x
      = patchRows x mask := by
  unfold patchRows
  have hd : scatter_S16x62001x64_S62001x1_S16x62001x64_02_1_1_1 = dRow := rfl
  have hz' : (broadcastInDim S16x62001x64 ![] hz (constant (F := Ideal) S_ .f32 0x00000000#32))
      = (fun _ => Ideal.ofBits .f32 0x00000000#32) := rfl
  rw [posIdx_eq mask h0 h1, hd, hz']

/-- The printed scatter of the constant one is the filled positions of the statement. -/
theorem onesScatter_eq (mask : IVec S62001 32)
    (hz : S_.BroadcastsInDim S62001x64 (![] : Fin 0 → Fin S62001x64.rank))
    (h0 : S_.BroadcastsInDim S62001 (![] : Fin 0 → Fin S62001.rank))
    (h1 : S62001.BroadcastsInDim S62001x1 (![0] : Fin 1 → Fin S62001x1.rank)) :
    Host.scatter scatter_S62001x64_S62001x1_S62001x64_1_0_0_1 (fun _ b => b)
        (broadcastInDim S62001x64 ![] hz (constant (F := Ideal) S_ .f32 0x00000000#32))
        (broadcastInDim S62001x1 ![0] h1
          (select (cmpi .slt mask (broadcastInDim S62001 ![] h0 (constantI S_ 32 0#32)))
            (addi mask (broadcastInDim S62001 ![] h0 (constantI S_ 32 62001#32))) mask))
        (broadcastInDim S62001x64 ![] hz (constant (F := Ideal) S_ .f32 0x3F800000#32))
      = patchOnes mask := by
  unfold patchOnes
  have hd : scatter_S62001x64_S62001x1_S62001x64_1_0_0_1 = dRow1 := rfl
  have hz' : (broadcastInDim S62001x64 ![] hz (constant (F := Ideal) S_ .f32 0x00000000#32))
      = (fun _ => Ideal.ofBits .f32 0x00000000#32) := rfl
  have ho' : (broadcastInDim S62001x64 ![] hz (constant (F := Ideal) S_ .f32 0x3F800000#32))
      = (fun _ => Ideal.ofBits .f32 0x3F800000#32) := rfl
  rw [posIdx_eq mask h0 h1, hd, hz', ho']

/-! ### The count image under the 16 images -/

/-- The count image given a unit batch axis and repeated over the 16 images, read at (n, a, b), is the count
    image at (a, b). -/
theorem bcast_count_apply (Cn : S256x256.Idx → EReal)
    (h1 : S256x256.BroadcastsInDim S1x256x256 (![1, 2] : Fin 2 → Fin S1x256x256.rank))
    (h2 : S1x256x256.BroadcastsInDim S16x256x256 (![0, 1, 2] : Fin 3 → Fin S16x256x256.rank))
    (n : Fin 16) (a b : Fin 256) :
    broadcastInDim S16x256x256 ![0, 1, 2] h2 (broadcastInDim S1x256x256 ![1, 2] h1 Cn) (ix3 n a b)
      = Cn (ix2 a b) := by
  rw [broadcastInDim_apply _ h2 _ (ix3 n a b) (ix3 (0 : Fin 1) a b) (fun x => by
    match x with
    | ⟨0, _⟩ => rfl
    | ⟨1, _⟩ => rfl
    | ⟨2, _⟩ => rfl)]
  rw [broadcastInDim_apply _ h1 _ (ix3 (0 : Fin 1) a b) (ix2 a b) (fun x => by
    match x with
    | ⟨0, _⟩ => rfl
    | ⟨1, _⟩ => rfl)]

/-! ### The two folds against the statement -/

/-- The fold of the 64 offsets over the reshaped rows X, from the zero image, at (n, a, b) is the fold of the
    statement over the slabs of X. -/
theorem fold3_eq (X : S16x62001x64.Idx → EReal) (h : S16x62001x64.ShapeCasts S16x249x249x8x8)
    (n : Fin 16) (a b : Fin 256) :
    foldSteps3 (shapeCast S16x249x249x8x8 X h) (fun _ => Ideal.ofBits .f32 0x00000000#32) (List.finRange 64) (ix3 n a b)
      = foldImg (fun k r c => X (ix3 n (posOf r c) k)) a b := by
  rw [foldSteps3_apply]
  unfold foldImg
  have e : (fun (acc : Fin 256 → Fin 256 → EReal) (k : Fin 64) =>
        addWin (k.val / 8) (k.val % 8) (slabOf3 (shapeCast S16x249x249x8x8 X h) k n) acc)
      = (fun acc k => addWin (k.val / 8) (k.val % 8) (fun r c => X (ix3 n (posOf r c) k)) acc) := by
    funext acc k
    exact addWin_slab_congr _ _ _ _ acc (fun r c => slabOf3_reshape X h k n r c)
  rw [e]

theorem fold2_eq (X : S62001x64.Idx → EReal) (h : S62001x64.ShapeCasts S249x249x8x8) (a b : Fin 256) :
    foldSteps2 (shapeCast S249x249x8x8 X h) (fun _ => Ideal.ofBits .f32 0x00000000#32) (List.finRange 64) (ix2 a b)
      = foldImg (fun k r c => X (ix2 (posOf r c) k)) a b := by
  rw [foldSteps2_apply]
  unfold foldImg
  have e : (fun (acc : Fin 256 → Fin 256 → EReal) (k : Fin 64) =>
        addWin (k.val / 8) (k.val % 8) (slabOf2 (shapeCast S249x249x8x8 X h) k) acc)
      = (fun acc k => addWin (k.val / 8) (k.val % 8) (fun r c => X (ix2 (posOf r c) k)) acc) := by
    funext acc k
    exact addWin_slab_congr _ _ _ _ acc (fun r c => slabOf2_reshape X h k r c)
  rw [e]

end Cert.ReferenceIdeal.RefStep

end
-- ==== Proof.RefValue.lean ====
/-
  What the reference computes, read off its run. Its result is the input rows scattered to their positions,
  folded (64 shifted adds of 249 x 249 slabs into each 256 x 256 image), divided pixel by pixel by the same
  fold of the scattered constant one, and reshaped to 2 x 8 images: each printed scatter-add is one
  shifted add, the 64 of them in the order of the flat offset are the fold, and slab k at (r, c) is the
  scattered row at position 249 r + c, offset k.
-/
import proofs.«164016_j4801773436971_1_alg».proof.Proof.Gen.ReferenceIdeal.Run
import proofs.«164016_j4801773436971_1_alg».proof.Proof.Spec
import proofs.«164016_j4801773436971_1_alg».proof.Proof.WinScatter
import proofs.«164016_j4801773436971_1_alg».proof.Proof.RefStep
import Idealize.ShloMosaic.Lib.ValueIdx
import Idealize.ShloMosaic.Lib.Pipeline.Value

noncomputable section

namespace Cert.ReferenceIdeal.RefValue

open Cert.ReferenceIdeal Cert.ReferenceIdeal.Gen Cert.Fold
open Idealize.ShloMosaic Idealize.ShloMosaic.TcCoe Idealize.SL.Sem Idealize.ShloMosaic.ValueIdx
open Cert.ReferenceIdeal.Value Cert.ReferenceIdeal.RefStep

/-! ### The two scattered arrays every slab is cut from -/

/-- The five-axis array the row slabs are cut from is the scattered rows of the statement, reshaped. -/
private theorem v8_eq (V0 : Valuation τ sig (Elt Ideal)) :
    res_main_v8 (F := Ideal) V0
      = shapeCast S16x249x249x8x8 (patchRows (V0 (Proc.devRef .tc main_arg0)) (V0 (Proc.devRef .tc main_arg1)))
          shapeCasts_S16x62001x64_S16x249x249x8x8 := by
  unfold res_main_v8
  exact congrArg (fun X => shapeCast S16x249x249x8x8 X shapeCasts_S16x62001x64_S16x249x249x8x8)
    (rowScatter_eq (V0 (Proc.devRef .tc main_arg0)) (V0 (Proc.devRef .tc main_arg1)) _ _ _)

/-- The four-axis array the count slabs are cut from is the filled positions of the statement, reshaped. -/
private theorem v403_eq (V0 : Valuation τ sig (Elt Ideal)) :
    res_main_v403 (F := Ideal) V0
      = shapeCast S249x249x8x8 (patchOnes (V0 (Proc.devRef .tc main_arg1))) shapeCasts_S62001x64_S249x249x8x8 := by
  unfold res_main_v403
  exact congrArg (fun X => shapeCast S249x249x8x8 X shapeCasts_S62001x64_S249x249x8x8)
    (onesScatter_eq (V0 (Proc.devRef .tc main_arg1)) _ _ _)

/-! ### The accumulators, ten offsets at a time

Each named accumulator of the run is ten more printed scatter-adds over the one before; each scatter-add appends
its offset to the fold, and the offsets met so far are the first 10, 20, ... of the 64 in order. -/

set_option maxRecDepth 8192

/-- The innermost printed scatter-add over a fold is that fold with one more offset; its side conditions are
    about the literal start index and are decided. -/
local macro "step3" : tactic =>
  `(tactic| (rw [scatter3_snoc]; rotate_left; decide; decide; decide; decide))
local macro "step2" : tactic =>
  `(tactic| (rw [scatter2_snoc]; rotate_left; decide; decide; decide; decide))

private theorem v69_eq (V0 : Valuation τ sig (Elt Ideal)) :
    res_main_v69 (F := Ideal) V0
      = foldSteps3 (res_main_v8 (F := Ideal) V0) (fun _ => Ideal.ofBits .f32 0x00000000#32)
          ((List.finRange 64).take 10) := by
  unfold res_main_v69
  rw [show (broadcastInDim S16x256x256 ![] bcast_S_S16x256x256 (constant (F := Ideal) S_ .f32 0x00000000#32))
      = foldSteps3 (res_main_v8 (F := Ideal) V0) (fun _ => Ideal.ofBits .f32 0x00000000#32) [] from rfl]
  iterate 10 step3
  exact congrArg (foldSteps3 _ _) (by decide)

private theorem v129_eq (V0 : Valuation τ sig (Elt Ideal)) :
    res_main_v129 (F := Ideal) V0
      = foldSteps3 (res_main_v8 (F := Ideal) V0) (fun _ => Ideal.ofBits .f32 0x00000000#32)
          ((List.finRange 64).take 20) := by
  unfold res_main_v129
  rw [v69_eq V0]
  iterate 10 step3
  exact congrArg (foldSteps3 _ _) (by decide)

private theorem v189_eq (V0 : Valuation τ sig (Elt Ideal)) :
    res_main_v189 (F := Ideal) V0
      = foldSteps3 (res_main_v8 (F := Ideal) V0) (fun _ => Ideal.ofBits .f32 0x00000000#32)
          ((List.finRange 64).take 30) := by
  unfold res_main_v189
  rw [v129_eq V0]
  iterate 10 step3
  exact congrArg (foldSteps3 _ _) (by decide)

private theorem v249_eq (V0 : Valuation τ sig (Elt Ideal)) :
    res_main_v249 (F := Ideal) V0
      = foldSteps3 (res_main_v8 (F := Ideal) V0) (fun _ => Ideal.ofBits .f32 0x00000000#32)
          ((List.finRange 64).take 40) := by
  unfold res_main_v249
  rw [v189_eq V0]
  iterate 10 step3
  exact congrArg (foldSteps3 _ _) (by decide)

private theorem v309_eq (V0 : Valuation τ sig (Elt Ideal)) :
    res_main_v309 (F := Ideal) V0
      = foldSteps3 (res_main_v8 (F := Ideal) V0) (fun _ => Ideal.ofBits .f32 0x00000000#32)
          ((List.finRange 64).take 50) := by
  unfold res_main_v309
  rw [v249_eq V0]
  iterate 10 step3
  exact congrArg (foldSteps3 _ _) (by decide)

private theorem v369_eq (V0 : Valuation τ sig (Elt Ideal)) :
    res_main_v369 (F := Ideal) V0
      = foldSteps3 (res_main_v8 (F := Ideal) V0) (fun _ => Ideal.ofBits .f32 0x00000000#32)
          ((List.finRange 64).take 60) := by
  unfold res_main_v369
  rw [v309_eq V0]
  iterate 10 step3
  exact congrArg (foldSteps3 _ _) (by decide)

private theorem v464_eq (V0 : Valuation τ sig (Elt Ideal)) :
    res_main_v464 (F := Ideal) V0
      = foldSteps2 (res_main_v403 (F := Ideal) V0) (fun _ => Ideal.ofBits .f32 0x00000000#32)
          ((List.finRange 64).take 10) := by
  unfold res_main_v464
  rw [show (broadcastInDim S256x256 ![] bcast_S_S256x256 (constant (F := Ideal) S_ .f32 0x00000000#32))
      = foldSteps2 (res_main_v403 (F := Ideal) V0) (fun _ => Ideal.ofBits .f32 0x00000000#32) [] from rfl]
  iterate 10 step2
  exact congrArg (foldSteps2 _ _) (by decide)

private theorem v524_eq (V0 : Valuation τ sig (Elt Ideal)) :
    res_main_v524 (F := Ideal) V0
      = foldSteps2 (res_main_v403 (F := Ideal) V0) (fun _ => Ideal.ofBits .f32 0x00000000#32)
          ((List.finRange 64).take 20) := by
  unfold res_main_v524
  rw [v464_eq V0]
  iterate 10 step2
  exact congrArg (foldSteps2 _ _) (by decide)

private theorem v584_eq (V0 : Valuation τ sig (Elt Ideal)) :
    res_main_v584 (F := Ideal) V0
      = foldSteps2 (res_main_v403 (F := Ideal) V0) (fun _ => Ideal.ofBits .f32 0x00000000#32)
          ((List.finRange 64).take 30) := by
  unfold res_main_v584
  rw [v524_eq V0]
  iterate 10 step2
  exact congrArg (foldSteps2 _ _) (by decide)

private theorem v644_eq (V0 : Valuation τ sig (Elt Ideal)) :
    res_main_v644 (F := Ideal) V0
      = foldSteps2 (res_main_v403 (F := Ideal) V0) (fun _ => Ideal.ofBits .f32 0x00000000#32)
          ((List.finRange 64).take 40) := by
  unfold res_main_v644
  rw [v584_eq V0]
  iterate 10 step2
  exact congrArg (foldSteps2 _ _) (by decide)

private theorem v704_eq (V0 : Valuation τ sig (Elt Ideal)) :
    res_main_v704 (F := Ideal) V0
      = foldSteps2 (res_main_v403 (F := Ideal) V0) (fun _ => Ideal.ofBits .f32 0x00000000#32)
          ((List.finRange 64).take 50) := by
  unfold res_main_v704
  rw [v644_eq V0]
  iterate 10 step2
  exact congrArg (foldSteps2 _ _) (by decide)

private theorem v764_eq (V0 : Valuation τ sig (Elt Ideal)) :
    res_main_v764 (F := Ideal) V0
      = foldSteps2 (res_main_v403 (F := Ideal) V0) (fun _ => Ideal.ofBits .f32 0x00000000#32)
          ((List.finRange 64).take 60) := by
  unfold res_main_v764
  rw [v704_eq V0]
  iterate 10 step2
  exact congrArg (foldSteps2 _ _) (by decide)

/-! ### The quotient of the two folds -/

/-- A fold read at a pixel depends on the list of offsets only. -/
private theorem foldSteps3_list (P : S16x249x249x8x8.Idx → EReal) (Z : S16x256x256.Idx → EReal) (L L' : List (Fin 64))
    (y : S16x256x256.Idx) (h : L = L') : foldSteps3 P Z L y = foldSteps3 P Z L' y := by rw [h]

private theorem foldSteps2_list (P : S249x249x8x8.Idx → EReal) (Z : S256x256.Idx → EReal) (L L' : List (Fin 64))
    (y : S256x256.Idx) (h : L = L') : foldSteps2 P Z L y = foldSteps2 P Z L' y := by rw [h]

/-- If the numerator at every pixel is the fold of the scattered rows and the denominator the fold of the filled
    positions, the reshaped quotient is the reshaped result of the statement. -/
private theorem assemble (NUM : S16x256x256.Idx → EReal) (DEN : S256x256.Idx → EReal)
    (x : Sx.Idx → EReal) (mask : IVec Sm 32)
    (h1 : S256x256.BroadcastsInDim S1x256x256 (![1, 2] : Fin 2 → Fin S1x256x256.rank))
    (h2 : S1x256x256.BroadcastsInDim S16x256x256 (![0, 1, 2] : Fin 3 → Fin S16x256x256.rank))
    (hc : S16x256x256.ShapeCasts S2x8x256x256)
    (hN : ∀ (n : Fin 16) (a b : Fin 256),
      NUM (ix3 n a b) = foldImg (fun k r c => patchRows x mask (ix3 n (posOf r c) k)) a b)
    (hD : ∀ (a b : Fin 256), DEN (ix2 a b) = foldImg (fun k r c => patchOnes mask (ix2 (posOf r c) k)) a b) :
    shapeCast S2x8x256x256 (Host.divf (F := Ideal) (φ := .f32) NUM
        (broadcastInDim S16x256x256 ![0, 1, 2] h2 (broadcastInDim S1x256x256 ![1, 2] h1 DEN))) hc
      = shapeCast S2x8x256x256 (Gfinal x mask) hc := by
  refine congrArg (fun g => shapeCast S2x8x256x256 g hc) (funext fun y => ?_)
  obtain ⟨n, a, b, rfl⟩ : ∃ (n : Fin 16) (a : Fin 256) (b : Fin 256), y = ix3 n a b := ⟨y 0, y 1, y 2, eq_ix3 y⟩
  show Ideal.div (NUM (ix3 n a b))
      (broadcastInDim S16x256x256 ![0, 1, 2] h2 (broadcastInDim S1x256x256 ![1, 2] h1 DEN) (ix3 n a b))
    = Gfinal x mask (ix3 n a b)
  rw [bcast_count_apply, hN, hD]
  rfl

/-- The reference's run with its result read: every weakly fair execution terminates, nothing faulting, the
    result buffer holding the normalised fold of the scattered rows (reshaped to 2 x 8 images), the arguments
    as launched. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v792)
        = shapeCast S2x8x256x256
            (Gfinal (m ((c.tc : Thread nD τ).loc main_arg0)) (m ((c.tc : Thread nD τ).loc main_arg1)))
            shapeCasts_S16x256x256_S2x8x256x256
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩)
    (Cert.ReferenceIdeal.Value.run (F := Ideal) m ρ)
  show _ = shapeCast S2x8x256x256
      (Gfinal (StableHlo.launchContents m c (Proc.devRef .tc main_arg0)) (StableHlo.launchContents m c (Proc.devRef .tc main_arg1)))
      shapeCasts_S16x256x256_S2x8x256x256
  refine assemble _ _ _ _ _ _ _ (fun n a b => ?_) (fun a b => ?_)
  · rw [v369_eq]
    iterate 4 step3
    refine (foldSteps3_list _ _ _ (List.finRange 64) _ (by decide)).trans ?_
    rw [v8_eq]
    exact fold3_eq _ _ n a b
  · rw [v764_eq]
    iterate 4 step2
    refine (foldSteps2_list _ _ _ (List.finRange 64) _ (by decide)).trans ?_
    rw [v403_eq]
    exact fold2_eq _ _ a b

end Cert.ReferenceIdeal.RefValue

end
-- ==== Proof.lean ====
/-
  Patch-to-image overlap-add. Both programs scatter the 62001 input rows (16 batch entries, 64 in-patch
  offsets per row) to positions named by the integer mask, fold the 64 offset slabs of 249 x 249 entries into
  256 x 256 images by shifted adds — slab k = 8 i + j is added at rows i … i + 248, columns j … j + 248 —, do
  the same with a scattered constant one to count how many patches cover each pixel, divide, and reshape to
  2 x 8 images.

  They differ in how a position is addressed. The reference writes row p at position mask(p) of a flat array
  of 62001 = 249 * 249 positions and reshapes; the kernel's program writes it at (floor(mask(p) / 249),
  mask(p) mod 249) of a 249 x 249 grid. For every 32-bit mask value the two agree: a negative index is moved
  up by the axis length on both sides, and since 62001 = 249 * 249 the pair lies inside the grid exactly when
  the flat position lies inside the array, with position = 249 * row + col; an index outside is dropped by
  both; and where several rows name one position both scatters, applying the updates in the same order, keep
  the same one. After the scatter the two programs apply the same shifted adds in the same order to the same
  slabs, and the same division, so the results are equal pixel by pixel with no algebra on the extended reals
  and without using that the inputs are finite.

  The kernel runs the fold as a pipelined region per image (a second one-point region for the count map); each
  region's frame is generated, and the value of its output block is read off the stores the body makes. The
  reference's 128 scatter-adds are each one shifted add.
-/
import proofs.«164016_j4801773436971_1_alg».proof.Defs
import proofs.«164016_j4801773436971_1_alg».proof.Proof.Gen.Kernel
import proofs.«164016_j4801773436971_1_alg».proof.Proof.Gen.KernelIdeal
import proofs.«164016_j4801773436971_1_alg».proof.Proof.Gen.ReferenceIdeal
import proofs.«164016_j4801773436971_1_alg».proof.Proof.Gen.Pre_finite_inputs
import proofs.«164016_j4801773436971_1_alg».proof.Proof.KernelFrameP
import proofs.«164016_j4801773436971_1_alg».proof.Proof.KernelIdealFrameP
import proofs.«164016_j4801773436971_1_alg».proof.Proof.KValue
import proofs.«164016_j4801773436971_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.GenP.frame m ρ

/-- So does the idealized kernel program. -/
theorem frame_ki : Cert.frame_KernelIdeal := fun m ρ _ => Cert.KernelIdeal.GenP.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.RefValue.run_G m ρ)

/-- The idealization rewrote nothing. -/
theorem preserves : Cert.preserves_Kernel_KernelIdeal := trivial

/-- From memories that agree on the rows and the mask, both programs end with the normalised fold of the
    scattered rows: the kernel's value and the reference's value are the one function of the arguments. -/
theorem algebraic : Cert.algebraic_KernelIdeal_ReferenceIdeal := by
  intro m ρ m' ρ' _ hagree
  refine ⟨_, Cert.KernelIdeal.KValue.run_G m ρ, ?_⟩
  refine (θ_run Cert.ReferenceIdeal.defs _ _).mono (fun _ h c => ⟨(h c).1.trans ?_, (h c).2⟩)
    (Cert.ReferenceIdeal.RefValue.run_G m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
